-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1024x1 : Shape := ⟨2, ![1024, 1]⟩
abbrev S1024x512 : Shape := ⟨2, ![1024, 512]⟩

abbrev nBuf : Space → Nat
  | .hbm => 32
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S4096x1024, .bf16⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S1024x1024, .f32⟩
  | .local _ .vmem, ⟨31, _⟩ => ⟨S1024x1024, .f32⟩
  | .local _ .vmem, ⟨32, _⟩ => ⟨S1024x1, .f32⟩
  | .local _ .vmem, ⟨33, _⟩ => ⟨S1024x1, .f32⟩
  | .local _ .vmem, ⟨34, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_scratch0 : Ref sig .tc := ⟨.vmem, 32, rfl⟩
abbrev cc2_scratch1 : Ref sig .tc := ⟨.vmem, 33, rfl⟩
abbrev cc2_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_32 : BitVec 32 := 0#32
  let v54 : BitVec 1 := Scalar.cmpi .ne v53 c0_i32_32
  v54

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1024x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S1024x1024_S1024x1024_S1024x1024_1_0_0_1_n_n_wf : DotDims.WF S1024x1024 S1024x1024 S1024x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x1024.size a
  hwx0_5 : ∀ i : grid0.Coords, EltTy.bits .f32 = 32 ∨ (Rect.block (s := S4096x1024) S1024x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .bf16 = 32 ∨ (Rect.block (s := S4096x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S4096x1024.size a
  hwx1_5 : ∀ i : grid1.Coords, EltTy.bits .f32 = 32 ∨ (Rect.block (s := S4096x1024) S1024x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .bf16 = 32 ∨ (Rect.block (s := S4096x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .bf16 = 32 ∨ (Rect.block (s := S4096x1024) S512x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1024.size a ≤ S4096x1024.size a
  hwx2_4 : ∀ i : grid2.Coords, EltTy.bits .bf16 = 32 ∨ (Rect.block (s := S4096x1024) S512x1024.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S4096x1024.size a
  hwx2_5 : ∀ i : grid2.Coords, EltTy.bits .bf16 = 32 ∨ (Rect.block (s := S4096x1024) S512x1024.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x1024.size a ≤ S4096x1024.size a
  hwx2_6 : ∀ i : grid2.Coords, EltTy.bits .f32 = 32 ∨ (Rect.block (s := S4096x1024) S1024x1024.size (cc2_transform_6 i) (hinb2_6 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v18) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v0) S512x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v3) S512x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v26) S1024x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S1024x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KRegion0.lean ====
/-
  Pallas call 0: the bf16x3 linear projection, one row tile of 1024 rows per grid point. At a parameter V — the
  TensorCore's buffer contents when the call is entered — each window's block at a point, what the body stores into the
  output tile (one whole-tile store of the body's arithmetic over the five input tiles), the body's triple, the
  pipeline's proof data and the body obligation at every grid point.
-/
import proofs.«430703_j8426725835102_3_alg».proof.Proof.Gen.Kernel.Launch
import proofs.«430703_j8426725835102_3_alg».proof.Proof.Gen.Kernel.Skeleton
import proofs.«430703_j8426725835102_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input tile sits in its current staging buffer at every point, fetched there or not (an unfetched window's block
    index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input tile sits in its current staging buffer at every point, fetched there or not (an unfetched window's block
    index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input tile sits in its current staging buffer at every point, fetched there or not (an unfetched window's block
    index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input tile sits in its current staging buffer at every point, fetched there or not (an unfetched window's block
    index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input tile sits in its current staging buffer at every point, fetched there or not (an unfetched window's block
    index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-tile rectangles the body loads and stores through. -/
abbrev rA0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The output tile after the body: its one store, of the projection's arithmetic over the loaded tiles. -/
def out0_5 (x0 x1 x2 x3 : Vec F S1024x1024 .bf16) (x4 : Vec F S1x1024 .f32) : Vec F S1024x1024 .f32 :=
  View.canon [⟨rA0, k0_pay1 (View.ld x0 rA0) (View.ld x1 rA0) (View.ld x2 rA0) (View.ld x3 rA0) (View.ld x4 rB0)⟩]

/-- That store covers the tile. -/
theorem cover0_5 (p0 : Vec F S1024x1024 .f32) (y : S1024x1024.Idx) :
    ∃ pc ∈ ([⟨rA0, p0⟩] : List (View.Piece (Elt F) S1024x1024 .f32)), y ∈ pc.1.set :=
  View.cover_of_tiled [⟨rA0, p0⟩] S1024x1024.size (by rfl) y

set_option maxHeartbeats 1000000 in
/-- The body on whole staging memrefs: the inputs keep their contents, the output tile ends at out0_5 of them. -/
theorem sound_kernel0 (c : Dev nD) (E : Set ℕ) (i : grid0.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (x0 x1 x2 x3 : Vec F S1024x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__linear_kernel i arg1 harg1 arg2 harg2 arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's proof data on core c: the arrays as the call finds them; after the body at point t each input's buffer
    at its block and the output's at out0_5 of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input memrefs hold their blocks, so the kernel's triple applies; the invariant and the
    core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KRegion1.lean ====
/-
  Pallas call 1: the bf16x3 linear projection, one row tile of 1024 rows per grid point. At a parameter V — the
  TensorCore's buffer contents when the call is entered — each window's block at a point, what the body stores into the
  output tile (one whole-tile store of the body's arithmetic over the five input tiles), the body's triple, the
  pipeline's proof data and the body obligation at every grid point.
-/
import proofs.«430703_j8426725835102_3_alg».proof.Proof.Gen.Kernel.Launch
import proofs.«430703_j8426725835102_3_alg».proof.Proof.Gen.Kernel.Skeleton
import proofs.«430703_j8426725835102_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input tile sits in its current staging buffer at every point, fetched there or not (an unfetched window's block
    index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input tile sits in its current staging buffer at every point, fetched there or not (an unfetched window's block
    index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input tile sits in its current staging buffer at every point, fetched there or not (an unfetched window's block
    index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input tile sits in its current staging buffer at every point, fetched there or not (an unfetched window's block
    index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input tile sits in its current staging buffer at every point, fetched there or not (an unfetched window's block
    index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-tile rectangles the body loads and stores through. -/
abbrev rA1 : Rect S1024x1024 := Rect.unit (s := S1024x1024) ![0, 0] S1024x1024.size inb_S1024x1024_S1024x1024_0_0
abbrev rB1 : Rect S1x1024 := Rect.unit (s := S1x1024) ![0, 0] S1x1024.size inb_S1x1024_S1x1024_0_0

/-- The output tile after the body: its one store, of the projection's arithmetic over the loaded tiles. -/
def out1_5 (x0 x1 x2 x3 : Vec F S1024x1024 .bf16) (x4 : Vec F S1x1024 .f32) : Vec F S1024x1024 .f32 :=
  View.canon [⟨rA1, k1_pay1 (View.ld x0 rA1) (View.ld x1 rA1) (View.ld x2 rA1) (View.ld x3 rA1) (View.ld x4 rB1)⟩]

/-- That store covers the tile. -/
theorem cover1_5 (p0 : Vec F S1024x1024 .f32) (y : S1024x1024.Idx) :
    ∃ pc ∈ ([⟨rA1, p0⟩] : List (View.Piece (Elt F) S1024x1024 .f32)), y ∈ pc.1.set :=
  View.cover_of_tiled [⟨rA1, p0⟩] S1024x1024.size (by rfl) y

set_option maxHeartbeats 1000000 in
/-- The body on whole staging memrefs: the inputs keep their contents, the output tile ends at out1_5 of them. -/
theorem sound_kernel1 (c : Dev nD) (E : Set ℕ) (i : grid1.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (x0 x1 x2 x3 : Vec F S1024x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__linear_kernel i arg1 harg1 arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core c: the arrays as the call finds them; after the body at point t each input's buffer
    at its block and the output's at out1_5 of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input memrefs hold their blocks, so the kernel's triple applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KRuns2.lean ====
/-
  Pallas call 2, the pooling kernel: one (query tile, key tile) grid point updates three carried scratch buffers —
  the running row offset, the running softmax denominator, the running numerator — and, at a query tile's last key
  tile, stores numerator / denominator into the output tile. The body runs in three ways, by the key-tile coordinate:
  first key tile (the scratch buffers are reset, then updated), an inner key tile (updated), last key tile (updated,
  then the output stored). For each way: the body's triple on whole memrefs, with the pieces each written buffer ends
  with found by running the body.
-/
import proofs.«430703_j8426725835102_3_alg».proof.Proof.Gen.Kernel.Launch
import proofs.«430703_j8426725835102_3_alg».proof.Proof.Gen.Kernel.Skeleton
import proofs.«430703_j8426725835102_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions on the key-tile coordinate -/

/-- "This is a query tile's first key tile" as the body computes it. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- "This is a query tile's last key tile" as the body computes it. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Off a last key tile the output window is idle and is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- At a last key tile it is live. -/
theorem liveAt2_6 : ∀ t : Fin cfg2.N, cond2_1 (grid2.coords t) → cfg2.idle 6 (grid2.coords t) = false := by decide +kernel

/-! ## The memrefs the body is called on -/

abbrev VO2_6 : View sig .tc .vmem S1024x1024 .f32 := (Memref.whole cc2_stg6_0 : Memref sig .tc .vmem S1024x1024 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1024 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x1024 .f32 := win2_6.stage (cfg2.slots t 6)
abbrev hs2_6 (t : Fin cfg2.N) : (ms2_6 t).IsWhole := hstage2_6 ((cfg2.slots t 6).cast nbuf2_6)
/-- The three carried scratch buffers: row offset, denominator, numerator. -/
abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x1024 .f32 := Memref.whole cc2_scratch2
abbrev VS2_0 : View sig .tc .vmem S1024x1 .f32 := scM2_0.view
abbrev VS2_1 : View sig .tc .vmem S1024x1 .f32 := scM2_1.view
abbrev VS2_2 : View sig .tc .vmem S1024x1024 .f32 := scM2_2.view

/-- The scoped buffers that are neither a staging buffer of this call nor one of its three scratch buffers. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The class invariant with the three scratch buffers taken out as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ restBut2 c) ∗ (∃ r, prngReg c r)) := by
  unfold Pipeline.ΦA
  rw [Pipeline.scopedRest_split_of_list spec2 c [cc2_scratch0, cc2_scratch1, cc2_scratch2] (by decide) (by decide)]
  simp only [scM2_0, scM2_1, scM2_2, owns_whole]; try rfl

/-! ## The body's three ways -/

set_option maxHeartbeats 4000000 in
/-- FIRST KEY TILE: every scratch buffer is stored whole before it is read, so each is taken at anything; the output
    tile is not stored and is handed back as found. -/
noncomputable def kernelRun2_A (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 x1 : Vec F S1024x1024 .bf16) (x2 x3 x4 x5 : Vec F S512x1024 .bf16) :
    Σ' (L6 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi6 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__flash_pool_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc2__flash_pool_kernel_eq_skeleton]; unfold cc2__flash_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

set_option maxHeartbeats 4000000 in
/-- INNER KEY TILE: the scratch buffers at what the point before left; the output tile handed back as found. -/
noncomputable def kernelRun2_B (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 x1 : Vec F S1024x1024 .bf16) (x2 x3 x4 x5 : Vec F S512x1024 .bf16) (xs0 xs1 : Vec F S1024x1 .f32) (xs2 : Vec F S1024x1024 .f32) :
    Σ' (L6 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi6 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__flash_pool_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc2__flash_pool_kernel_eq_skeleton]; unfold cc2__flash_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

set_option maxHeartbeats 4000000 in
/-- LAST KEY TILE: the scratch buffers at what the point before left; the output tile taken at anything and stored. -/
noncomputable def kernelRun2_C (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 x1 : Vec F S1024x1024 .bf16) (x2 x3 x4 x5 : Vec F S512x1024 .bf16) (xs0 xs1 : Vec F S1024x1 .f32) (xs2 : Vec F S1024x1024 .f32) :
    Σ' (L6 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__flash_pool_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc2__flash_pool_kernel_eq_skeleton]; unfold cc2__flash_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Kernel.Frame

end
-- ==== Proof.KRegion2.lean ====
/-
  Pallas call 2, assembled: what the three carried scratch buffers and the output tile hold after every grid point
  (by recursion on the point: a first key tile starts afresh, any other continues from the point before), the region
  invariant that carries the scratch contents from point to point, the pipeline's proof data and the body obligation.
-/
import proofs.«430703_j8426725835102_3_alg».proof.Proof.KRuns2

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input tile sits in its current staging buffer at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input tile sits in its current staging buffer at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input tile sits in its current staging buffer at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input tile sits in its current staging buffer at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input tile sits in its current staging buffer at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- An input tile sits in its current staging buffer at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- What a grid point leaves: the output tile, then the row offset, the denominator, the numerator. -/
abbrev Quad (F : FTy → Type) [FloatOps F] : Type := Vec F S1024x1024 .f32 × Vec F S1024x1 .f32 × Vec F S1024x1 .f32 × Vec F S1024x1024 .f32

/-- A first key tile at point t: the found pieces read back. -/
def quadA (c : Dev nD) (t : Fin cfg2.N) (h0 : cond2_0 (grid2.coords t)) (h1 : ¬cond2_1 (grid2.coords t)) : Quad F :=
  (VO2_6.read (Elt F) (VO2_6.writes (Elt F) VO2_6.junk (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).1),
   VS2_0.read (Elt F) (VS2_0.writes (Elt F) VS2_0.junk (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.1),
   VS2_1.read (Elt F) (VS2_1.writes (Elt F) VS2_1.junk (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.1),
   VS2_2.read (Elt F) (VS2_2.writes (Elt F) VS2_2.junk (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.2.1))

/-- An inner key tile at point t over the scratch contents xs the point before left. -/
def quadB (c : Dev nD) (t : Fin cfg2.N) (h0 : ¬cond2_0 (grid2.coords t)) (h1 : ¬cond2_1 (grid2.coords t))
    (xs0 xs1 : Vec F S1024x1 .f32) (xs2 : Vec F S1024x1024 .f32) : Quad F :=
  (VO2_6.read (Elt F) (VO2_6.writes (Elt F) VO2_6.junk (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).1),
   VS2_0.read (Elt F) (VS2_0.writes (Elt F) VS2_0.junk (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1),
   VS2_1.read (Elt F) (VS2_1.writes (Elt F) VS2_1.junk (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1),
   VS2_2.read (Elt F) (VS2_2.writes (Elt F) VS2_2.junk (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1))

/-- A last key tile at point t over the scratch contents xs the point before left. -/
def quadC (c : Dev nD) (t : Fin cfg2.N) (h0 : ¬cond2_0 (grid2.coords t)) (h1 : cond2_1 (grid2.coords t))
    (xs0 xs1 : Vec F S1024x1 .f32) (xs2 : Vec F S1024x1024 .f32) : Quad F :=
  (VO2_6.read (Elt F) (VO2_6.writes (Elt F) VO2_6.junk (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).1),
   VS2_0.read (Elt F) (VS2_0.writes (Elt F) VS2_0.junk (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1),
   VS2_1.read (Elt F) (VS2_1.writes (Elt F) VS2_1.junk (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1),
   VS2_2.read (Elt F) (VS2_2.writes (Elt F) VS2_2.junk (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1))

/-- The pieces found for each scratch buffer tile it, so they cover it. -/
theorem scover2_A_0 (c : Dev nD) (t : Fin cfg2.N) (h0 : cond2_0 (grid2.coords t)) (h1 : ¬cond2_1 (grid2.coords t)) (y : S1024x1.Idx) : ∃ pc ∈ (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.1, y ∈ pc.1.set :=
  View.cover_of_tiledL (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.1 S1024x1.size (by sl_kernel_rfl) y
theorem scover2_A_1 (c : Dev nD) (t : Fin cfg2.N) (h0 : cond2_0 (grid2.coords t)) (h1 : ¬cond2_1 (grid2.coords t)) (y : S1024x1.Idx) : ∃ pc ∈ (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.1, y ∈ pc.1.set :=
  View.cover_of_tiledL (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.1 S1024x1.size (by sl_kernel_rfl) y
theorem scover2_A_2 (c : Dev nD) (t : Fin cfg2.N) (h0 : cond2_0 (grid2.coords t)) (h1 : ¬cond2_1 (grid2.coords t)) (y : S1024x1024.Idx) : ∃ pc ∈ (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.2.1, y ∈ pc.1.set :=
  View.cover_of_tiledL (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.2.1 S1024x1024.size (by sl_kernel_rfl) y

/-- The pieces found for each scratch buffer tile it, so they cover it. -/
theorem scover2_B_0 (c : Dev nD) (t : Fin cfg2.N) (h0 : ¬cond2_0 (grid2.coords t)) (h1 : ¬cond2_1 (grid2.coords t)) (xs0 xs1 : Vec F S1024x1 .f32) (xs2 : Vec F S1024x1024 .f32) (y : S1024x1.Idx) : ∃ pc ∈ (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1, y ∈ pc.1.set :=
  View.cover_of_tiledL (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1 S1024x1.size (by sl_kernel_rfl) y
theorem scover2_B_1 (c : Dev nD) (t : Fin cfg2.N) (h0 : ¬cond2_0 (grid2.coords t)) (h1 : ¬cond2_1 (grid2.coords t)) (xs0 xs1 : Vec F S1024x1 .f32) (xs2 : Vec F S1024x1024 .f32) (y : S1024x1.Idx) : ∃ pc ∈ (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1, y ∈ pc.1.set :=
  View.cover_of_tiledL (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1 S1024x1.size (by sl_kernel_rfl) y
theorem scover2_B_2 (c : Dev nD) (t : Fin cfg2.N) (h0 : ¬cond2_0 (grid2.coords t)) (h1 : ¬cond2_1 (grid2.coords t)) (xs0 xs1 : Vec F S1024x1 .f32) (xs2 : Vec F S1024x1024 .f32) (y : S1024x1024.Idx) : ∃ pc ∈ (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1, y ∈ pc.1.set :=
  View.cover_of_tiledL (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1 S1024x1024.size (by sl_kernel_rfl) y

/-- The pieces found for each scratch buffer tile it, so they cover it. -/
theorem scover2_C_0 (c : Dev nD) (t : Fin cfg2.N) (h0 : ¬cond2_0 (grid2.coords t)) (h1 : cond2_1 (grid2.coords t)) (xs0 xs1 : Vec F S1024x1 .f32) (xs2 : Vec F S1024x1024 .f32) (y : S1024x1.Idx) : ∃ pc ∈ (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1, y ∈ pc.1.set :=
  View.cover_of_tiledL (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1 S1024x1.size (by sl_kernel_rfl) y
theorem scover2_C_1 (c : Dev nD) (t : Fin cfg2.N) (h0 : ¬cond2_0 (grid2.coords t)) (h1 : cond2_1 (grid2.coords t)) (xs0 xs1 : Vec F S1024x1 .f32) (xs2 : Vec F S1024x1024 .f32) (y : S1024x1.Idx) : ∃ pc ∈ (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1, y ∈ pc.1.set :=
  View.cover_of_tiledL (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1 S1024x1.size (by sl_kernel_rfl) y
theorem scover2_C_2 (c : Dev nD) (t : Fin cfg2.N) (h0 : ¬cond2_0 (grid2.coords t)) (h1 : cond2_1 (grid2.coords t)) (xs0 xs1 : Vec F S1024x1 .f32) (xs2 : Vec F S1024x1024 .f32) (y : S1024x1024.Idx) : ∃ pc ∈ (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1, y ∈ pc.1.set :=
  View.cover_of_tiledL (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1 S1024x1024.size (by sl_kernel_rfl) y
/-- At a last key tile the output tile's pieces cover it too. -/
theorem cover2_C_6 (c : Dev nD) (t : Fin cfg2.N) (h0 : ¬cond2_0 (grid2.coords t)) (h1 : cond2_1 (grid2.coords t)) (xs0 xs1 : Vec F S1024x1 .f32) (xs2 : Vec F S1024x1024 .f32) (y : S1024x1024.Idx) : ∃ pc ∈ (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).1, y ∈ pc.1.set :=
  View.cover_of_tiledL (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).1 S1024x1024.size (by sl_kernel_rfl) y

/-! ## What every point leaves -/

/-- THE RECURSION over grid points: a point ≡ 0 (mod 8) starts afresh; any other continues from the scratch contents
    the point before left; a point ≡ 7 (mod 8) also stores the output tile. -/
def outsAt2 (c : Dev nD) : (n : ℕ) → n < cfg2.N → Quad F
  | 0, hn => quadA V c ⟨0, hn⟩ ((hcond2_0 ⟨0, hn⟩).mpr (Nat.zero_mod _)) (fun h => (fun h => by (try dsimp only at h); omega) ((hcond2_1 ⟨0, hn⟩).mp h))
  | n + 1, hn =>
    if h0 : (n + 1) % 8 = 0 then
      if h1 : (n + 1) % 8 = 7 then
        False.elim (by omega)
      else
        quadA V c ⟨n + 1, hn⟩ ((hcond2_0 ⟨n + 1, hn⟩).mpr h0) (fun h => h1 ((hcond2_1 ⟨n + 1, hn⟩).mp h))
    else
      if h1 : (n + 1) % 8 = 7 then
        quadC V c ⟨n + 1, hn⟩ (fun h => h0 ((hcond2_0 ⟨n + 1, hn⟩).mp h)) ((hcond2_1 ⟨n + 1, hn⟩).mpr h1)
          (outsAt2 c n (Nat.lt_of_succ_lt hn)).2.1 (outsAt2 c n (Nat.lt_of_succ_lt hn)).2.2.1 (outsAt2 c n (Nat.lt_of_succ_lt hn)).2.2.2
      else
        quadB V c ⟨n + 1, hn⟩ (fun h => h0 ((hcond2_0 ⟨n + 1, hn⟩).mp h)) (fun h => h1 ((hcond2_1 ⟨n + 1, hn⟩).mp h))
          (outsAt2 c n (Nat.lt_of_succ_lt hn)).2.1 (outsAt2 c n (Nat.lt_of_succ_lt hn)).2.2.1 (outsAt2 c n (Nat.lt_of_succ_lt hn)).2.2.2

theorem outsAt2_A (c : Dev nD) (t : Fin cfg2.N) (h0 : t.val % 8 = 0) (h1 : ¬t.val % 8 = 7) :
    outsAt2 V c t.val t.isLt = quadA V c t ((hcond2_0 t).mpr h0) (fun h => h1 ((hcond2_1 t).mp h)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = quadB V c t (fun h => h0 ((hcond2_0 t).mp h)) (fun h => h1 ((hcond2_1 t).mp h))
      (outsAt2 V c (t.val - 1) (Nat.lt_of_le_of_lt (Nat.sub_le _ _) t.isLt)).2.1
      (outsAt2 V c (t.val - 1) (Nat.lt_of_le_of_lt (Nat.sub_le _ _) t.isLt)).2.2.1
      (outsAt2 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = quadC V c t (fun h => h0 ((hcond2_0 t).mp h)) ((hcond2_1 t).mpr h1)
      (outsAt2 V c (t.val - 1) (Nat.lt_of_le_of_lt (Nat.sub_le _ _) t.isLt)).2.1
      (outsAt2 V c (t.val - 1) (Nat.lt_of_le_of_lt (Nat.sub_le _ _) t.isLt)).2.2.1
      (outsAt2 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch contents -/

/-- Before the first point the class invariant (every scratch buffer at anything); after point n the three scratch
    buffers at what that point left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2.1)
      ∗ owns (c : Thread nD τ) scM2_2 fullShare ((outsAt2 V c n hn).2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2.1)
      ∗ owns (c : Thread nD τ) scM2_2 fullShare ((outsAt2 V c n hn).2.2.2)) ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2.1)
      ∗ owns (c : Thread nD τ) scM2_2 fullShare ((outsAt2 V c (n - 1) (by omega)).2.2.2)) ∗ restBut2 c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t)

set_option maxHeartbeats 4800000 in
/-- The body at any point. The key-tile coordinate says which way the body runs; the invariant hands it the scratch
    buffers at what the point before left (at anything at the very first point) and takes them back at this point's
    contents; off a last key tile the output tile goes back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 8 = 0
  · have h1 : ¬t.val % 8 = 7 := by omega
    rw [Dat.leavesExact_idle (dat2 V c) 6 t (idleAt2_6 t (fun h => h1 ((hcond2_1 t).mp h))) (noFlush2_6 t (fun h => h1 ((hcond2_1 t).mp h)))]
    rw [outsAt2_A V c t h0 h1]
    unfold quadA; (try dsimp only)
    by_cases hz : t.val = 0
    · rw [PhiS2_castSucc V c t, PhiS2_zero V c _ _ hz, PhiA2_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 V c t ((hcond2_0 t).mpr h0) (fun h => h1 ((hcond2_1 t).mp h)))
            isplitl [HS1]
            · unfold owns; iexists _; isplitr
              swap; · iexact HS1
              ipureintro; exact View.read_writes_of_cover _ _ _ _ _ (scover2_A_1 V c t ((hcond2_0 t).mpr h0) (fun h => h1 ((hcond2_1 t).mp h)))
            unfold owns; iexists _; isplitr
            swap; · iexact HS2
            ipureintro; exact View.read_writes_of_cover _ _ _ _ _ (scover2_A_2 V c t ((hcond2_0 t).mpr h0) (fun h => h1 ((hcond2_1 t).mp h)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 V c t ((hcond2_0 t).mpr h0) (fun h => h1 ((hcond2_1 t).mp h)))
            isplitl [HS1]
            · unfold owns; iexists _; isplitr
              swap; · iexact HS1
              ipureintro; exact View.read_writes_of_cover _ _ _ _ _ (scover2_A_1 V c t ((hcond2_0 t).mpr h0) (fun h => h1 ((hcond2_1 t).mp h)))
            unfold owns; iexists _; isplitr
            swap; · iexact HS2
            ipureintro; exact View.read_writes_of_cover _ _ _ _ _ (scover2_A_2 V c t ((hcond2_0 t).mpr h0) (fun h => h1 ((hcond2_1 t).mp h)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold quadC; (try dsimp only)
      rw [PhiS2_castSucc V c t, PhiS2_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_C_0 V c t (fun h => h0 ((hcond2_0 t).mp h)) ((hcond2_1 t).mpr h1) _ _ _)
            isplitl [HS1]
            · unfold owns; iexists _; isplitr
              swap; · iexact HS1
              ipureintro; exact View.read_writes_of_cover _ _ _ _ _ (scover2_C_1 V c t (fun h => h0 ((hcond2_0 t).mp h)) ((hcond2_1 t).mpr h1) _ _ _)
            unfold owns; iexists _; isplitr
            swap; · iexact HS2
            ipureintro; exact View.read_writes_of_cover _ _ _ _ _ (scover2_C_2 V c t (fun h => h0 ((hcond2_0 t).mp h)) ((hcond2_1 t).mpr h1) _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 V c t (fun h => h0 ((hcond2_0 t).mp h)) ((hcond2_1 t).mpr h1) _ _ _)
    · rw [Dat.leavesExact_idle (dat2 V c) 6 t (idleAt2_6 t (fun h => h1 ((hcond2_1 t).mp h))) (noFlush2_6 t (fun h => h1 ((hcond2_1 t).mp h)))]
      rw [outsAt2_B V c t h0 h1]
      unfold quadB; (try dsimp only)
      rw [PhiS2_castSucc V c t, PhiS2_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_B_0 V c t (fun h => h0 ((hcond2_0 t).mp h)) (fun h => h1 ((hcond2_1 t).mp h)) _ _ _)
            isplitl [HS1]
            · unfold owns; iexists _; isplitr
              swap; · iexact HS1
              ipureintro; exact View.read_writes_of_cover _ _ _ _ _ (scover2_B_1 V c t (fun h => h0 ((hcond2_0 t).mp h)) (fun h => h1 ((hcond2_1 t).mp h)) _ _ _)
            unfold owns; iexists _; isplitr
            swap; · iexact HS2
            ipureintro; exact View.read_writes_of_cover _ _ _ _ _ (scover2_B_2 V c t (fun h => h0 ((hcond2_0 t).mp h)) (fun h => h1 ((hcond2_1 t).mp h)) _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the scratch contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.Kernel.Frame

end
-- ==== Proof.KRun.lean ====
/-
  The whole program: sixteen host lines (the bf16 hi/lo splits of x and of the two transposed weight matrices, the
  biases as rows), the two projection calls, eight host lines (the hi/lo splits of q and k), the pooling call. The
  buffer contents at each boundary are folded from the launch memory; every weakly fair execution terminates and ends
  with every unscoped buffer at the last boundary's contents. The argument arrays are written by no line and no call.
-/
import proofs.«430703_j8426725835102_3_alg».proof.Proof.KRegion0
import proofs.«430703_j8426725835102_3_alg».proof.Proof.KRegion1
import proofs.«430703_j8426725835102_3_alg».proof.Proof.KRegion2
import proofs.«430703_j8426725835102_3_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the first sixteen host lines. -/
abbrev W1 : Dev nD → Valuation τ sig (Elt F) := fun c => StableHlo.after hostOps0 (W0 m c)
abbrev Vb1 : (c : Dev nD) → (b : Ref sig .tc) → Buf (Elt F) ((c : Thread nD τ).loc b) := fun c b => W1 m c b

/-- After pallas call 0: its arrays at what the pipeline leaves (the inputs as entered, the output's write-backs folded),
    every other buffer as entered. -/
def W2 (c : Dev nD) : Valuation τ sig (Elt F) :=
  Pipeline.withArrays spec0 c (W1 m c) fun w => (dat0 (Vb1 m) c).arrAt w cfg0.N
theorem W2_arr (c : Dev nD) (w : Fin cfg0.W) :
    W2 m c (Proc.devRef .tc (Pipeline.arrRef spec0 w)) = (dat0 (Vb1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vb2 : (c : Dev nD) → (b : Ref sig .tc) → Buf (Elt F) ((c : Thread nD τ).loc b) := fun c b => W2 m c b
theorem hF0 (c : Dev nD) (w : Fin cfg0.W) : (dat0 (Vb1 m) c).arrAt w cfg0.N = Vb2 m c (Pipeline.arrRef spec0 w) :=
  (W2_arr m c w).symm
theorem hrest0 (c : Dev nD) : ∀ b, b ∉ Finset.univ.image (Pipeline.arrRef spec0) → Vb2 m c b = Vb1 m c b :=
  fun b hb => W2_of_ne m c b fun w e => hb (Finset.mem_image.mpr ⟨w, Finset.mem_univ _, e⟩)

/-- After pallas call 1: its arrays at what the pipeline leaves (the inputs as entered, the output's write-backs folded),
    every other buffer as entered. -/
def W3 (c : Dev nD) : Valuation τ sig (Elt F) :=
  Pipeline.withArrays spec1 c (W2 m c) fun w => (dat1 (Vb2 m) c).arrAt w cfg1.N
theorem W3_arr (c : Dev nD) (w : Fin cfg1.W) :
    W3 m c (Proc.devRef .tc (Pipeline.arrRef spec1 w)) = (dat1 (Vb2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vb3 : (c : Dev nD) → (b : Ref sig .tc) → Buf (Elt F) ((c : Thread nD τ).loc b) := fun c b => W3 m c b
theorem hF1 (c : Dev nD) (w : Fin cfg1.W) : (dat1 (Vb2 m) c).arrAt w cfg1.N = Vb3 m c (Pipeline.arrRef spec1 w) :=
  (W3_arr m c w).symm
theorem hrest1 (c : Dev nD) : ∀ b, b ∉ Finset.univ.image (Pipeline.arrRef spec1) → Vb3 m c b = Vb2 m c b :=
  fun b hb => W3_of_ne m c b fun w e => hb (Finset.mem_image.mpr ⟨w, Finset.mem_univ _, e⟩)

/-- After the eight host lines between the projections and the pooling call. -/
abbrev W4 : Dev nD → Valuation τ sig (Elt F) := fun c => StableHlo.after hostOps2 (W3 m c)
abbrev Vb4 : (c : Dev nD) → (b : Ref sig .tc) → Buf (Elt F) ((c : Thread nD τ).loc b) := fun c b => W4 m c b

/-- After pallas call 2: its arrays at what the pipeline leaves (the inputs as entered, the output's write-backs folded),
    every other buffer as entered. -/
def W5 (c : Dev nD) : Valuation τ sig (Elt F) :=
  Pipeline.withArrays spec2 c (W4 m c) fun w => (dat2 (Vb4 m) c).arrAt w cfg2.N
theorem W5_arr (c : Dev nD) (w : Fin cfg2.W) :
    W5 m c (Proc.devRef .tc (Pipeline.arrRef spec2 w)) = (dat2 (Vb4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev Vb5 : (c : Dev nD) → (b : Ref sig .tc) → Buf (Elt F) ((c : Thread nD τ).loc b) := fun c b => W5 m c b
theorem hF2 (c : Dev nD) (w : Fin cfg2.W) : (dat2 (Vb4 m) c).arrAt w cfg2.N = Vb5 m c (Pipeline.arrRef spec2 w) :=
  (W5_arr m c w).symm
theorem hrest2 (c : Dev nD) : ∀ b, b ∉ Finset.univ.image (Pipeline.arrRef spec2) → Vb5 m c b = Vb4 m c b :=
  fun b hb => W5_of_ne m c b fun w e => hb (Finset.mem_image.mpr ⟨w, Finset.mem_univ _, e⟩)

/-! ## No line and no call writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

abbrev admK : (p : Fin 3) → (pcfgs (F := F) p).Adm := fun p => (cfgs p).toPCfg_adm
/-- Every pipeline's proof data at its call's entry contents (a literal match). -/
def pdats : (p : Fin 3) → (c : Dev nD) → Dat τ (Elt F) Unit ℕ (UR sig nD τ) ℕ (Pipeline.pin (pcfgs (F := F)) admK p) c
  | ⟨0, _⟩ => fun c => dat0 (Vb1 m) c
  | ⟨1, _⟩ => fun c => dat1 (Vb2 m) c
  | ⟨2, _⟩ => fun c => dat2 (Vb4 m) c
abbrev 𝒱K : Variants := Variants.none
abbrev LK : GSem nD τ sig → Finset Unit := fun _ => ∅
abbrev lvK : GSem nD τ sig → Unit → ℕ := fun _ _ => 0
/-- What rides beside the buffers: the generator register at some state, the core owing nothing. -/
abbrev RK (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W5 m c) ∗ ∃ r, prngReg c r)

/-! ## The calls as segments -/

set_option backward.isDefEq.respectTransparency.types false in
/-- PALLAS CALL 0 over the thread state: entered with every unscoped buffer at the contents before it, left with the
    call's arrays at what its write-backs leave and every other buffer as entered. -/
def reg0 : Pipeline.RegionSeg (pcfgs (F := F)) admK (pdats m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (Vb1 m) c).loose
  hwaits := Pipeline.hwaits_of_owed_zero _ _ _ _ LK lvK 0 fun _ _ => rfl
  pre c := iprop(StableHlo.held (c : Thread nD τ) (Pipeline.ucRefs τ sig) (W1 m c) ∗ RK c)
  post c := iprop(StableHlo.held (c : Thread nD τ) (Pipeline.ucRefs τ sig) (W2 m c) ∗ RK c)
  X c := iprop(∃ r, prngReg c r)
  Y c := iprop(∃ r, prngReg c r)
  Z c := Pipeline.unscopedRest (Ix := Unit) (Name := ℕ) (U := UR sig nD τ) (Lvl := ℕ) spec0 c (Vb1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (Vb1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (Vb1 m c) (Vb2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PALLAS CALL 1 over the thread state: entered with every unscoped buffer at the contents before it, left with the
    call's arrays at what its write-backs leave and every other buffer as entered. -/
def reg1 : Pipeline.RegionSeg (pcfgs (F := F)) admK (pdats m) () defs₀ 𝒱K LK lvK 1 where
  win := launch1.win.to₀
  block_pos := launch1.block_pos
  stage_whole := launch1.stage_whole
  K := PEmpty
  osem k := k.elim
  ho := Pipeline.OwnSemFacts.none _
  hbody c := (body_obligation1 (Vb2 m) c).loose
  hwaits := Pipeline.hwaits_of_owed_zero _ _ _ _ LK lvK 1 fun _ _ => rfl
  pre c := iprop(StableHlo.held (c : Thread nD τ) (Pipeline.ucRefs τ sig) (W2 m c) ∗ RK c)
  post c := iprop(StableHlo.held (c : Thread nD τ) (Pipeline.ucRefs τ sig) (W3 m c) ∗ RK c)
  X c := iprop(∃ r, prngReg c r)
  Y c := iprop(∃ r, prngReg c r)
  Z c := Pipeline.unscopedRest (Ix := Unit) (Name := ℕ) (U := UR sig nD τ) (Lvl := ℕ) spec1 c (Vb2 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (Vb2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (Vb2 m c) (Vb3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PALLAS CALL 2 over the thread state: entered with every unscoped buffer at the contents before it, left with the
    call's arrays at what its write-backs leave and every other buffer as entered. -/
def reg2 : Pipeline.RegionSeg (pcfgs (F := F)) admK (pdats m) () defs₀ 𝒱K LK lvK 2 where
  win := launch2.win.to₀
  block_pos := launch2.block_pos
  stage_whole := launch2.stage_whole
  K := PEmpty
  osem k := k.elim
  ho := Pipeline.OwnSemFacts.none _
  hbody c := (body_obligation2 (Vb4 m) c).loose
  hwaits := Pipeline.hwaits_of_owed_zero _ _ _ _ LK lvK 2 fun _ _ => rfl
  pre c := iprop(StableHlo.held (c : Thread nD τ) (Pipeline.ucRefs τ sig) (W4 m c) ∗ RK c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vb4 m c)
  hentry c := by
    rw [Pipeline.ownSems0_none]
    have hsplit := Pipeline.arrays_of_unscopedBufs (p := 2) (pcfgs (F := F)) admK (pdats m) launch2.win launch2.arr_whole c
      ((pdats m 2 c).share_full fun _ => rfl) (Vb4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (Vb4 m) c).trans h
  hexit c := by
    have hjoin := Pipeline.unscopedBufs_of_arrays (p := 2) (pcfgs (F := F)) admK (Ix := Unit) (Name := ℕ) (U := UR sig nD τ) (Lvl := ℕ)
      launch2.win launch2.arr_whole c (pdats m) ((pdats m 2 c).share_full fun _ => rfl)
      (Vb4 m c) (Vb5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsK : List (Pipeline.Seg (pcfgs (F := F)) admK (pdats m) () defs₀ 𝒱K LK lvK) :=
  [ .host (hseg hostOps0 hostOps0_sub hostOps0_fresh (W0 m)),
    .region (reg0 m),
    .region (reg1 m),
    .host (hseg hostOps2 hostOps2_sub hostOps2_fresh (W3 m)),
    .region (reg2 m) ]
theorem main_run (c : Dev nD) : main (F := F) c = Pipeline.Seg.run (segsK m) := (main_chain c).trans (by chain_rfl)

set_option backward.isDefEq.respectTransparency.types false in
/-- THE RUN: every weakly fair execution terminates, nothing faulting, and every final state holds every unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admK (pdats m) () cellOf_inj emb₁ defs₀ 𝒱K LK lvK m ρ main (segsK m)
    (fun c Q => by rw [main_run m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RK c)) (Tₙ := Tₙ m)
    (hch := ⟨fun _ => .rfl, fun _ => .rfl, fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- THE RESULT beside the frame: the result array ends at the last boundary's contents. -/
theorem run_result : θ_run defs (onTc (τ := τ) (main (F := F))) ⟨m, fun _ => 0, ρ⟩ (fun r => ∀ c : Dev nD,
      r.2.mem ((c.tc : Thread nD τ).loc main_v26) = W5 m c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v26 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Frame

end
-- ==== Proof.KIRegion0.lean ====
/-
  Pallas call 0: the bf16x3 linear projection, one row tile of 1024 rows per grid point. At a parameter V — the
  TensorCore's buffer contents when the call is entered — each window's block at a point, what the body stores into the
  output tile (one whole-tile store of the body's arithmetic over the five input tiles), the body's triple, the
  pipeline's proof data and the body obligation at every grid point.
-/
import proofs.«430703_j8426725835102_3_alg».proof.Proof.Gen.KernelIdeal.Launch
import proofs.«430703_j8426725835102_3_alg».proof.Proof.Gen.KernelIdeal.Skeleton
import proofs.«430703_j8426725835102_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input tile sits in its current staging buffer at every point, fetched there or not (an unfetched window's block
    index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input tile sits in its current staging buffer at every point, fetched there or not (an unfetched window's block
    index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input tile sits in its current staging buffer at every point, fetched there or not (an unfetched window's block
    index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input tile sits in its current staging buffer at every point, fetched there or not (an unfetched window's block
    index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input tile sits in its current staging buffer at every point, fetched there or not (an unfetched window's block
    index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-tile rectangles the body loads and stores through. -/
abbrev rA0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0

/-- The output tile after the body: its one store, of the projection's arithmetic over the loaded tiles. -/
def out0_5 (x0 x1 x2 x3 : Vec F S1024x1024 .bf16) (x4 : Vec F S1x1024 .f32) : Vec F S1024x1024 .f32 :=
  View.canon [⟨rA0, k0_pay1 (View.ld x0 rA0) (View.ld x1 rA0) (View.ld x2 rA0) (View.ld x3 rA0) (View.ld x4 rB0)⟩]

/-- That store covers the tile. -/
theorem cover0_5 (p0 : Vec F S1024x1024 .f32) (y : S1024x1024.Idx) :
    ∃ pc ∈ ([⟨rA0, p0⟩] : List (View.Piece (Elt F) S1024x1024 .f32)), y ∈ pc.1.set :=
  View.cover_of_tiled [⟨rA0, p0⟩] S1024x1024.size (by rfl) y

set_option maxHeartbeats 1000000 in
/-- The body on whole staging memrefs: the inputs keep their contents, the output tile ends at out0_5 of them. -/
theorem sound_kernel0 (c : Dev nD) (E : Set ℕ) (i : grid0.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (x0 x1 x2 x3 : Vec F S1024x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__linear_kernel i arg1 harg1 arg2 harg2 arg3 harg3 arg4 harg4 arg5 harg5 arg6 harg6) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's proof data on core c: the arrays as the call finds them; after the body at point t each input's buffer
    at its block and the output's at out0_5 of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input memrefs hold their blocks, so the kernel's triple applies; the invariant and the
    core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KIRegion1.lean ====
/-
  Pallas call 1: the bf16x3 linear projection, one row tile of 1024 rows per grid point. At a parameter V — the
  TensorCore's buffer contents when the call is entered — each window's block at a point, what the body stores into the
  output tile (one whole-tile store of the body's arithmetic over the five input tiles), the body's triple, the
  pipeline's proof data and the body obligation at every grid point.
-/
import proofs.«430703_j8426725835102_3_alg».proof.Proof.Gen.KernelIdeal.Launch
import proofs.«430703_j8426725835102_3_alg».proof.Proof.Gen.KernelIdeal.Skeleton
import proofs.«430703_j8426725835102_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input tile sits in its current staging buffer at every point, fetched there or not (an unfetched window's block
    index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input tile sits in its current staging buffer at every point, fetched there or not (an unfetched window's block
    index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input tile sits in its current staging buffer at every point, fetched there or not (an unfetched window's block
    index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input tile sits in its current staging buffer at every point, fetched there or not (an unfetched window's block
    index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input tile sits in its current staging buffer at every point, fetched there or not (an unfetched window's block
    index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-tile rectangles the body loads and stores through. -/
abbrev rA1 : Rect S1024x1024 := Rect.unit (s := S1024x1024) ![0, 0] S1024x1024.size inb_S1024x1024_S1024x1024_0_0
abbrev rB1 : Rect S1x1024 := Rect.unit (s := S1x1024) ![0, 0] S1x1024.size inb_S1x1024_S1x1024_0_0

/-- The output tile after the body: its one store, of the projection's arithmetic over the loaded tiles. -/
def out1_5 (x0 x1 x2 x3 : Vec F S1024x1024 .bf16) (x4 : Vec F S1x1024 .f32) : Vec F S1024x1024 .f32 :=
  View.canon [⟨rA1, k1_pay1 (View.ld x0 rA1) (View.ld x1 rA1) (View.ld x2 rA1) (View.ld x3 rA1) (View.ld x4 rB1)⟩]

/-- That store covers the tile. -/
theorem cover1_5 (p0 : Vec F S1024x1024 .f32) (y : S1024x1024.Idx) :
    ∃ pc ∈ ([⟨rA1, p0⟩] : List (View.Piece (Elt F) S1024x1024 .f32)), y ∈ pc.1.set :=
  View.cover_of_tiled [⟨rA1, p0⟩] S1024x1024.size (by rfl) y

set_option maxHeartbeats 1000000 in
/-- The body on whole staging memrefs: the inputs keep their contents, the output tile ends at out1_5 of them. -/
theorem sound_kernel1 (c : Dev nD) (E : Set ℕ) (i : grid1.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (x0 x1 x2 x3 : Vec F S1024x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__linear_kernel i arg1 harg1 arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's proof data on core c: the arrays as the call finds them; after the body at point t each input's buffer
    at its block and the output's at out1_5 of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input memrefs hold their blocks, so the kernel's triple applies; the invariant and the
    core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KIRuns2.lean ====
/-
  Pallas call 2, the pooling kernel: one (query tile, key tile) grid point updates three carried scratch buffers —
  the running row offset, the running softmax denominator, the running numerator — and, at a query tile's last key
  tile, stores numerator / denominator into the output tile. The body runs in three ways, by the key-tile coordinate:
  first key tile (the scratch buffers are reset, then updated), an inner key tile (updated), last key tile (updated,
  then the output stored). For each way: the body's triple on whole memrefs, with the pieces each written buffer ends
  with found by running the body.
-/
import proofs.«430703_j8426725835102_3_alg».proof.Proof.Gen.KernelIdeal.Launch
import proofs.«430703_j8426725835102_3_alg».proof.Proof.Gen.KernelIdeal.Skeleton
import proofs.«430703_j8426725835102_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions on the key-tile coordinate -/

/-- "This is a query tile's first key tile" as the body computes it. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- "This is a query tile's last key tile" as the body computes it. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Off a last key tile the output window is idle and is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- At a last key tile it is live. -/
theorem liveAt2_6 : ∀ t : Fin cfg2.N, cond2_1 (grid2.coords t) → cfg2.idle 6 (grid2.coords t) = false := by decide +kernel

/-! ## The memrefs the body is called on -/

abbrev VO2_6 : View sig .tc .vmem S1024x1024 .f32 := (Memref.whole cc2_stg6_0 : Memref sig .tc .vmem S1024x1024 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1024 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x1024 .f32 := win2_6.stage (cfg2.slots t 6)
abbrev hs2_6 (t : Fin cfg2.N) : (ms2_6 t).IsWhole := hstage2_6 ((cfg2.slots t 6).cast nbuf2_6)
/-- The three carried scratch buffers: row offset, denominator, numerator. -/
abbrev scM2_0 : Memref sig .tc .vmem S1024x1 .f32 := Memref.whole cc2_scratch0
abbrev scM2_1 : Memref sig .tc .vmem S1024x1 .f32 := Memref.whole cc2_scratch1
abbrev scM2_2 : Memref sig .tc .vmem S1024x1024 .f32 := Memref.whole cc2_scratch2
abbrev VS2_0 : View sig .tc .vmem S1024x1 .f32 := scM2_0.view
abbrev VS2_1 : View sig .tc .vmem S1024x1 .f32 := scM2_1.view
abbrev VS2_2 : View sig .tc .vmem S1024x1024 .f32 := scM2_2.view

/-- The scoped buffers that are neither a staging buffer of this call nor one of its three scratch buffers. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The class invariant with the three scratch buffers taken out as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ restBut2 c) ∗ (∃ r, prngReg c r)) := by
  unfold Pipeline.ΦA
  rw [Pipeline.scopedRest_split_of_list spec2 c [cc2_scratch0, cc2_scratch1, cc2_scratch2] (by decide) (by decide)]
  simp only [scM2_0, scM2_1, scM2_2, owns_whole]; try rfl

/-! ## The body's three ways -/

set_option maxHeartbeats 4000000 in
/-- FIRST KEY TILE: every scratch buffer is stored whole before it is read, so each is taken at anything; the output
    tile is not stored and is handed back as found. -/
noncomputable def kernelRun2_A (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond2_0 i) (hc1 : ¬cond2_1 i)
    (x0 x1 : Vec F S1024x1024 .bf16) (x2 x3 x4 x5 : Vec F S512x1024 .bf16) :
    Σ' (L6 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi6 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__flash_pool_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc2__flash_pool_kernel_eq_skeleton]; unfold cc2__flash_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

set_option maxHeartbeats 4000000 in
/-- INNER KEY TILE: the scratch buffers at what the point before left; the output tile handed back as found. -/
noncomputable def kernelRun2_B (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : ¬cond2_1 i)
    (x0 x1 : Vec F S1024x1024 .bf16) (x2 x3 x4 x5 : Vec F S512x1024 .bf16) (xs0 xs1 : Vec F S1024x1 .f32) (xs2 : Vec F S1024x1024 .f32) :
    Σ' (L6 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi6 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__flash_pool_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc2__flash_pool_kernel_eq_skeleton]; unfold cc2__flash_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

set_option maxHeartbeats 4000000 in
/-- LAST KEY TILE: the scratch buffers at what the point before left; the output tile taken at anything and stored. -/
noncomputable def kernelRun2_C (c : Dev nD) (i : grid2.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond2_0 i) (hc1 : cond2_1 i)
    (x0 x1 : Vec F S1024x1024 .bf16) (x2 x3 x4 x5 : Vec F S512x1024 .bf16) (xs0 xs1 : Vec F S1024x1 .f32) (xs2 : Vec F S1024x1024 .f32) :
    Σ' (L6 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2__flash_pool_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc2__flash_pool_kernel_eq_skeleton]; unfold cc2__flash_pool_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Frame

end
-- ==== Proof.KIRegion2.lean ====
/-
  Pallas call 2, assembled: what the three carried scratch buffers and the output tile hold after every grid point
  (by recursion on the point: a first key tile starts afresh, any other continues from the point before), the region
  invariant that carries the scratch contents from point to point, the pipeline's proof data and the body obligation.
-/
import proofs.«430703_j8426725835102_3_alg».proof.Proof.KIRuns2

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input tile sits in its current staging buffer at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input tile sits in its current staging buffer at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input tile sits in its current staging buffer at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input tile sits in its current staging buffer at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input tile sits in its current staging buffer at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- An input tile sits in its current staging buffer at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- What a grid point leaves: the output tile, then the row offset, the denominator, the numerator. -/
abbrev Quad (F : FTy → Type) [FloatOps F] : Type := Vec F S1024x1024 .f32 × Vec F S1024x1 .f32 × Vec F S1024x1 .f32 × Vec F S1024x1024 .f32

/-- A first key tile at point t: the found pieces read back. -/
def quadA (c : Dev nD) (t : Fin cfg2.N) (h0 : cond2_0 (grid2.coords t)) (h1 : ¬cond2_1 (grid2.coords t)) : Quad F :=
  (VO2_6.read (Elt F) (VO2_6.writes (Elt F) VO2_6.junk (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).1),
   VS2_0.read (Elt F) (VS2_0.writes (Elt F) VS2_0.junk (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.1),
   VS2_1.read (Elt F) (VS2_1.writes (Elt F) VS2_1.junk (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.1),
   VS2_2.read (Elt F) (VS2_2.writes (Elt F) VS2_2.junk (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.2.1))

/-- An inner key tile at point t over the scratch contents xs the point before left. -/
def quadB (c : Dev nD) (t : Fin cfg2.N) (h0 : ¬cond2_0 (grid2.coords t)) (h1 : ¬cond2_1 (grid2.coords t))
    (xs0 xs1 : Vec F S1024x1 .f32) (xs2 : Vec F S1024x1024 .f32) : Quad F :=
  (VO2_6.read (Elt F) (VO2_6.writes (Elt F) VO2_6.junk (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).1),
   VS2_0.read (Elt F) (VS2_0.writes (Elt F) VS2_0.junk (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1),
   VS2_1.read (Elt F) (VS2_1.writes (Elt F) VS2_1.junk (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1),
   VS2_2.read (Elt F) (VS2_2.writes (Elt F) VS2_2.junk (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1))

/-- A last key tile at point t over the scratch contents xs the point before left. -/
def quadC (c : Dev nD) (t : Fin cfg2.N) (h0 : ¬cond2_0 (grid2.coords t)) (h1 : cond2_1 (grid2.coords t))
    (xs0 xs1 : Vec F S1024x1 .f32) (xs2 : Vec F S1024x1024 .f32) : Quad F :=
  (VO2_6.read (Elt F) (VO2_6.writes (Elt F) VO2_6.junk (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).1),
   VS2_0.read (Elt F) (VS2_0.writes (Elt F) VS2_0.junk (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1),
   VS2_1.read (Elt F) (VS2_1.writes (Elt F) VS2_1.junk (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1),
   VS2_2.read (Elt F) (VS2_2.writes (Elt F) VS2_2.junk (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1))

/-- The pieces found for each scratch buffer tile it, so they cover it. -/
theorem scover2_A_0 (c : Dev nD) (t : Fin cfg2.N) (h0 : cond2_0 (grid2.coords t)) (h1 : ¬cond2_1 (grid2.coords t)) (y : S1024x1.Idx) : ∃ pc ∈ (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.1, y ∈ pc.1.set :=
  View.cover_of_tiledL (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.1 S1024x1.size (by sl_kernel_rfl) y
theorem scover2_A_1 (c : Dev nD) (t : Fin cfg2.N) (h0 : cond2_0 (grid2.coords t)) (h1 : ¬cond2_1 (grid2.coords t)) (y : S1024x1.Idx) : ∃ pc ∈ (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.1, y ∈ pc.1.set :=
  View.cover_of_tiledL (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.1 S1024x1.size (by sl_kernel_rfl) y
theorem scover2_A_2 (c : Dev nD) (t : Fin cfg2.N) (h0 : cond2_0 (grid2.coords t)) (h1 : ¬cond2_1 (grid2.coords t)) (y : S1024x1024.Idx) : ∃ pc ∈ (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.2.1, y ∈ pc.1.set :=
  View.cover_of_tiledL (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t)).2.2.2.1 S1024x1024.size (by sl_kernel_rfl) y

/-- The pieces found for each scratch buffer tile it, so they cover it. -/
theorem scover2_B_0 (c : Dev nD) (t : Fin cfg2.N) (h0 : ¬cond2_0 (grid2.coords t)) (h1 : ¬cond2_1 (grid2.coords t)) (xs0 xs1 : Vec F S1024x1 .f32) (xs2 : Vec F S1024x1024 .f32) (y : S1024x1.Idx) : ∃ pc ∈ (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1, y ∈ pc.1.set :=
  View.cover_of_tiledL (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1 S1024x1.size (by sl_kernel_rfl) y
theorem scover2_B_1 (c : Dev nD) (t : Fin cfg2.N) (h0 : ¬cond2_0 (grid2.coords t)) (h1 : ¬cond2_1 (grid2.coords t)) (xs0 xs1 : Vec F S1024x1 .f32) (xs2 : Vec F S1024x1024 .f32) (y : S1024x1.Idx) : ∃ pc ∈ (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1, y ∈ pc.1.set :=
  View.cover_of_tiledL (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1 S1024x1.size (by sl_kernel_rfl) y
theorem scover2_B_2 (c : Dev nD) (t : Fin cfg2.N) (h0 : ¬cond2_0 (grid2.coords t)) (h1 : ¬cond2_1 (grid2.coords t)) (xs0 xs1 : Vec F S1024x1 .f32) (xs2 : Vec F S1024x1024 .f32) (y : S1024x1024.Idx) : ∃ pc ∈ (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1, y ∈ pc.1.set :=
  View.cover_of_tiledL (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1 S1024x1024.size (by sl_kernel_rfl) y

/-- The pieces found for each scratch buffer tile it, so they cover it. -/
theorem scover2_C_0 (c : Dev nD) (t : Fin cfg2.N) (h0 : ¬cond2_0 (grid2.coords t)) (h1 : cond2_1 (grid2.coords t)) (xs0 xs1 : Vec F S1024x1 .f32) (xs2 : Vec F S1024x1024 .f32) (y : S1024x1.Idx) : ∃ pc ∈ (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1, y ∈ pc.1.set :=
  View.cover_of_tiledL (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.1 S1024x1.size (by sl_kernel_rfl) y
theorem scover2_C_1 (c : Dev nD) (t : Fin cfg2.N) (h0 : ¬cond2_0 (grid2.coords t)) (h1 : cond2_1 (grid2.coords t)) (xs0 xs1 : Vec F S1024x1 .f32) (xs2 : Vec F S1024x1024 .f32) (y : S1024x1.Idx) : ∃ pc ∈ (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1, y ∈ pc.1.set :=
  View.cover_of_tiledL (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.1 S1024x1.size (by sl_kernel_rfl) y
theorem scover2_C_2 (c : Dev nD) (t : Fin cfg2.N) (h0 : ¬cond2_0 (grid2.coords t)) (h1 : cond2_1 (grid2.coords t)) (xs0 xs1 : Vec F S1024x1 .f32) (xs2 : Vec F S1024x1024 .f32) (y : S1024x1024.Idx) : ∃ pc ∈ (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1, y ∈ pc.1.set :=
  View.cover_of_tiledL (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).2.2.2.1 S1024x1024.size (by sl_kernel_rfl) y
/-- At a last key tile the output tile's pieces cover it too. -/
theorem cover2_C_6 (c : Dev nD) (t : Fin cfg2.N) (h0 : ¬cond2_0 (grid2.coords t)) (h1 : cond2_1 (grid2.coords t)) (xs0 xs1 : Vec F S1024x1 .f32) (xs2 : Vec F S1024x1024 .f32) (y : S1024x1024.Idx) : ∃ pc ∈ (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).1, y ∈ pc.1.set :=
  View.cover_of_tiledL (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) h0 h1 (iblk2 V c 0 t) (iblk2 V c 1 t) (iblk2 V c 2 t) (iblk2 V c 3 t) (iblk2 V c 4 t) (iblk2 V c 5 t) xs0 xs1 xs2).1 S1024x1024.size (by sl_kernel_rfl) y

/-! ## What every point leaves -/

/-- THE RECURSION over grid points: a point ≡ 0 (mod 8) starts afresh; any other continues from the scratch contents
    the point before left; a point ≡ 7 (mod 8) also stores the output tile. -/
def outsAt2 (c : Dev nD) : (n : ℕ) → n < cfg2.N → Quad F
  | 0, hn => quadA V c ⟨0, hn⟩ ((hcond2_0 ⟨0, hn⟩).mpr (Nat.zero_mod _)) (fun h => (fun h => by (try dsimp only at h); omega) ((hcond2_1 ⟨0, hn⟩).mp h))
  | n + 1, hn =>
    if h0 : (n + 1) % 8 = 0 then
      if h1 : (n + 1) % 8 = 7 then
        False.elim (by omega)
      else
        quadA V c ⟨n + 1, hn⟩ ((hcond2_0 ⟨n + 1, hn⟩).mpr h0) (fun h => h1 ((hcond2_1 ⟨n + 1, hn⟩).mp h))
    else
      if h1 : (n + 1) % 8 = 7 then
        quadC V c ⟨n + 1, hn⟩ (fun h => h0 ((hcond2_0 ⟨n + 1, hn⟩).mp h)) ((hcond2_1 ⟨n + 1, hn⟩).mpr h1)
          (outsAt2 c n (Nat.lt_of_succ_lt hn)).2.1 (outsAt2 c n (Nat.lt_of_succ_lt hn)).2.2.1 (outsAt2 c n (Nat.lt_of_succ_lt hn)).2.2.2
      else
        quadB V c ⟨n + 1, hn⟩ (fun h => h0 ((hcond2_0 ⟨n + 1, hn⟩).mp h)) (fun h => h1 ((hcond2_1 ⟨n + 1, hn⟩).mp h))
          (outsAt2 c n (Nat.lt_of_succ_lt hn)).2.1 (outsAt2 c n (Nat.lt_of_succ_lt hn)).2.2.1 (outsAt2 c n (Nat.lt_of_succ_lt hn)).2.2.2

theorem outsAt2_A (c : Dev nD) (t : Fin cfg2.N) (h0 : t.val % 8 = 0) (h1 : ¬t.val % 8 = 7) :
    outsAt2 V c t.val t.isLt = quadA V c t ((hcond2_0 t).mpr h0) (fun h => h1 ((hcond2_1 t).mp h)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = quadB V c t (fun h => h0 ((hcond2_0 t).mp h)) (fun h => h1 ((hcond2_1 t).mp h))
      (outsAt2 V c (t.val - 1) (Nat.lt_of_le_of_lt (Nat.sub_le _ _) t.isLt)).2.1
      (outsAt2 V c (t.val - 1) (Nat.lt_of_le_of_lt (Nat.sub_le _ _) t.isLt)).2.2.1
      (outsAt2 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = quadC V c t (fun h => h0 ((hcond2_0 t).mp h)) ((hcond2_1 t).mpr h1)
      (outsAt2 V c (t.val - 1) (Nat.lt_of_le_of_lt (Nat.sub_le _ _) t.isLt)).2.1
      (outsAt2 V c (t.val - 1) (Nat.lt_of_le_of_lt (Nat.sub_le _ _) t.isLt)).2.2.1
      (outsAt2 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch contents -/

/-- Before the first point the class invariant (every scratch buffer at anything); after point n the three scratch
    buffers at what that point left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2.1)
      ∗ owns (c : Thread nD τ) scM2_2 fullShare ((outsAt2 V c n hn).2.2.2)) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2.1)
      ∗ owns (c : Thread nD τ) scM2_2 fullShare ((outsAt2 V c n hn).2.2.2)) ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2.1)
      ∗ owns (c : Thread nD τ) scM2_2 fullShare ((outsAt2 V c (n - 1) (by omega)).2.2.2)) ∗ restBut2 c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t)

set_option maxHeartbeats 4800000 in
/-- The body at any point. The key-tile coordinate says which way the body runs; the invariant hands it the scratch
    buffers at what the point before left (at anything at the very first point) and takes them back at this point's
    contents; off a last key tile the output tile goes back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 8 = 0
  · have h1 : ¬t.val % 8 = 7 := by omega
    rw [Dat.leavesExact_idle (dat2 V c) 6 t (idleAt2_6 t (fun h => h1 ((hcond2_1 t).mp h))) (noFlush2_6 t (fun h => h1 ((hcond2_1 t).mp h)))]
    rw [outsAt2_A V c t h0 h1]
    unfold quadA; (try dsimp only)
    by_cases hz : t.val = 0
    · rw [PhiS2_castSucc V c t, PhiS2_zero V c _ _ hz, PhiA2_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 V c t ((hcond2_0 t).mpr h0) (fun h => h1 ((hcond2_1 t).mp h)))
            isplitl [HS1]
            · unfold owns; iexists _; isplitr
              swap; · iexact HS1
              ipureintro; exact View.read_writes_of_cover _ _ _ _ _ (scover2_A_1 V c t ((hcond2_0 t).mpr h0) (fun h => h1 ((hcond2_1 t).mp h)))
            unfold owns; iexists _; isplitr
            swap; · iexact HS2
            ipureintro; exact View.read_writes_of_cover _ _ _ _ _ (scover2_A_2 V c t ((hcond2_0 t).mpr h0) (fun h => h1 ((hcond2_1 t).mp h)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 V c t ((hcond2_0 t).mpr h0) (fun h => h1 ((hcond2_1 t).mp h)))
            isplitl [HS1]
            · unfold owns; iexists _; isplitr
              swap; · iexact HS1
              ipureintro; exact View.read_writes_of_cover _ _ _ _ _ (scover2_A_1 V c t ((hcond2_0 t).mpr h0) (fun h => h1 ((hcond2_1 t).mp h)))
            unfold owns; iexists _; isplitr
            swap; · iexact HS2
            ipureintro; exact View.read_writes_of_cover _ _ _ _ _ (scover2_A_2 V c t ((hcond2_0 t).mpr h0) (fun h => h1 ((hcond2_1 t).mp h)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold quadC; (try dsimp only)
      rw [PhiS2_castSucc V c t, PhiS2_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_C_0 V c t (fun h => h0 ((hcond2_0 t).mp h)) ((hcond2_1 t).mpr h1) _ _ _)
            isplitl [HS1]
            · unfold owns; iexists _; isplitr
              swap; · iexact HS1
              ipureintro; exact View.read_writes_of_cover _ _ _ _ _ (scover2_C_1 V c t (fun h => h0 ((hcond2_0 t).mp h)) ((hcond2_1 t).mpr h1) _ _ _)
            unfold owns; iexists _; isplitr
            swap; · iexact HS2
            ipureintro; exact View.read_writes_of_cover _ _ _ _ _ (scover2_C_2 V c t (fun h => h0 ((hcond2_0 t).mp h)) ((hcond2_1 t).mpr h1) _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 V c t (fun h => h0 ((hcond2_0 t).mp h)) ((hcond2_1 t).mpr h1) _ _ _)
    · rw [Dat.leavesExact_idle (dat2 V c) 6 t (idleAt2_6 t (fun h => h1 ((hcond2_1 t).mp h))) (noFlush2_6 t (fun h => h1 ((hcond2_1 t).mp h)))]
      rw [outsAt2_B V c t h0 h1]
      unfold quadB; (try dsimp only)
      rw [PhiS2_castSucc V c t, PhiS2_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) scM2_2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_B_0 V c t (fun h => h0 ((hcond2_0 t).mp h)) (fun h => h1 ((hcond2_1 t).mp h)) _ _ _)
            isplitl [HS1]
            · unfold owns; iexists _; isplitr
              swap; · iexact HS1
              ipureintro; exact View.read_writes_of_cover _ _ _ _ _ (scover2_B_1 V c t (fun h => h0 ((hcond2_0 t).mp h)) (fun h => h1 ((hcond2_1 t).mp h)) _ _ _)
            unfold owns; iexists _; isplitr
            swap; · iexact HS2
            ipureintro; exact View.read_writes_of_cover _ _ _ _ _ (scover2_B_2 V c t (fun h => h0 ((hcond2_0 t).mp h)) (fun h => h1 ((hcond2_1 t).mp h)) _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the scratch contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.KernelIdeal.Frame

end
-- ==== Proof.KIRun.lean ====
/-
  The whole program: sixteen host lines (the bf16 hi/lo splits of x and of the two transposed weight matrices, the
  biases as rows), the two projection calls, eight host lines (the hi/lo splits of q and k), the pooling call. The
  buffer contents at each boundary are folded from the launch memory; every weakly fair execution terminates and ends
  with every unscoped buffer at the last boundary's contents. The argument arrays are written by no line and no call.
-/
import proofs.«430703_j8426725835102_3_alg».proof.Proof.KIRegion0
import proofs.«430703_j8426725835102_3_alg».proof.Proof.KIRegion1
import proofs.«430703_j8426725835102_3_alg».proof.Proof.KIRegion2
import proofs.«430703_j8426725835102_3_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
/-- After the first sixteen host lines. -/
abbrev W1 : Dev nD → Valuation τ sig (Elt F) := fun c => StableHlo.after hostOps0 (W0 m c)
abbrev Vb1 : (c : Dev nD) → (b : Ref sig .tc) → Buf (Elt F) ((c : Thread nD τ).loc b) := fun c b => W1 m c b

/-- After pallas call 0: its arrays at what the pipeline leaves (the inputs as entered, the output's write-backs folded),
    every other buffer as entered. -/
def W2 (c : Dev nD) : Valuation τ sig (Elt F) :=
  Pipeline.withArrays spec0 c (W1 m c) fun w => (dat0 (Vb1 m) c).arrAt w cfg0.N
theorem W2_arr (c : Dev nD) (w : Fin cfg0.W) :
    W2 m c (Proc.devRef .tc (Pipeline.arrRef spec0 w)) = (dat0 (Vb1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vb2 : (c : Dev nD) → (b : Ref sig .tc) → Buf (Elt F) ((c : Thread nD τ).loc b) := fun c b => W2 m c b
theorem hF0 (c : Dev nD) (w : Fin cfg0.W) : (dat0 (Vb1 m) c).arrAt w cfg0.N = Vb2 m c (Pipeline.arrRef spec0 w) :=
  (W2_arr m c w).symm
theorem hrest0 (c : Dev nD) : ∀ b, b ∉ Finset.univ.image (Pipeline.arrRef spec0) → Vb2 m c b = Vb1 m c b :=
  fun b hb => W2_of_ne m c b fun w e => hb (Finset.mem_image.mpr ⟨w, Finset.mem_univ _, e⟩)

/-- After pallas call 1: its arrays at what the pipeline leaves (the inputs as entered, the output's write-backs folded),
    every other buffer as entered. -/
def W3 (c : Dev nD) : Valuation τ sig (Elt F) :=
  Pipeline.withArrays spec1 c (W2 m c) fun w => (dat1 (Vb2 m) c).arrAt w cfg1.N
theorem W3_arr (c : Dev nD) (w : Fin cfg1.W) :
    W3 m c (Proc.devRef .tc (Pipeline.arrRef spec1 w)) = (dat1 (Vb2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vb3 : (c : Dev nD) → (b : Ref sig .tc) → Buf (Elt F) ((c : Thread nD τ).loc b) := fun c b => W3 m c b
theorem hF1 (c : Dev nD) (w : Fin cfg1.W) : (dat1 (Vb2 m) c).arrAt w cfg1.N = Vb3 m c (Pipeline.arrRef spec1 w) :=
  (W3_arr m c w).symm
theorem hrest1 (c : Dev nD) : ∀ b, b ∉ Finset.univ.image (Pipeline.arrRef spec1) → Vb3 m c b = Vb2 m c b :=
  fun b hb => W3_of_ne m c b fun w e => hb (Finset.mem_image.mpr ⟨w, Finset.mem_univ _, e⟩)

/-- After the eight host lines between the projections and the pooling call. -/
abbrev W4 : Dev nD → Valuation τ sig (Elt F) := fun c => StableHlo.after hostOps2 (W3 m c)
abbrev Vb4 : (c : Dev nD) → (b : Ref sig .tc) → Buf (Elt F) ((c : Thread nD τ).loc b) := fun c b => W4 m c b

/-- After pallas call 2: its arrays at what the pipeline leaves (the inputs as entered, the output's write-backs folded),
    every other buffer as entered. -/
def W5 (c : Dev nD) : Valuation τ sig (Elt F) :=
  Pipeline.withArrays spec2 c (W4 m c) fun w => (dat2 (Vb4 m) c).arrAt w cfg2.N
theorem W5_arr (c : Dev nD) (w : Fin cfg2.W) :
    W5 m c (Proc.devRef .tc (Pipeline.arrRef spec2 w)) = (dat2 (Vb4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev Vb5 : (c : Dev nD) → (b : Ref sig .tc) → Buf (Elt F) ((c : Thread nD τ).loc b) := fun c b => W5 m c b
theorem hF2 (c : Dev nD) (w : Fin cfg2.W) : (dat2 (Vb4 m) c).arrAt w cfg2.N = Vb5 m c (Pipeline.arrRef spec2 w) :=
  (W5_arr m c w).symm
theorem hrest2 (c : Dev nD) : ∀ b, b ∉ Finset.univ.image (Pipeline.arrRef spec2) → Vb5 m c b = Vb4 m c b :=
  fun b hb => W5_of_ne m c b fun w e => hb (Finset.mem_image.mpr ⟨w, Finset.mem_univ _, e⟩)

/-! ## No line and no call writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

abbrev admK : (p : Fin 3) → (pcfgs (F := F) p).Adm := fun p => (cfgs p).toPCfg_adm
/-- Every pipeline's proof data at its call's entry contents (a literal match). -/
def pdats : (p : Fin 3) → (c : Dev nD) → Dat τ (Elt F) Unit ℕ (UR sig nD τ) ℕ (Pipeline.pin (pcfgs (F := F)) admK p) c
  | ⟨0, _⟩ => fun c => dat0 (Vb1 m) c
  | ⟨1, _⟩ => fun c => dat1 (Vb2 m) c
  | ⟨2, _⟩ => fun c => dat2 (Vb4 m) c
abbrev 𝒱K : Variants := Variants.none
abbrev LK : GSem nD τ sig → Finset Unit := fun _ => ∅
abbrev lvK : GSem nD τ sig → Unit → ℕ := fun _ _ => 0
/-- What rides beside the buffers: the generator register at some state, the core owing nothing. -/
abbrev RK (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱K LK lvK :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RK
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W5 m c) ∗ ∃ r, prngReg c r)

/-! ## The calls as segments -/

set_option backward.isDefEq.respectTransparency.types false in
/-- PALLAS CALL 0 over the thread state: entered with every unscoped buffer at the contents before it, left with the
    call's arrays at what its write-backs leave and every other buffer as entered. -/
def reg0 : Pipeline.RegionSeg (pcfgs (F := F)) admK (pdats m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (Vb1 m) c).loose
  hwaits := Pipeline.hwaits_of_owed_zero _ _ _ _ LK lvK 0 fun _ _ => rfl
  pre c := iprop(StableHlo.held (c : Thread nD τ) (Pipeline.ucRefs τ sig) (W1 m c) ∗ RK c)
  post c := iprop(StableHlo.held (c : Thread nD τ) (Pipeline.ucRefs τ sig) (W2 m c) ∗ RK c)
  X c := iprop(∃ r, prngReg c r)
  Y c := iprop(∃ r, prngReg c r)
  Z c := Pipeline.unscopedRest (Ix := Unit) (Name := ℕ) (U := UR sig nD τ) (Lvl := ℕ) spec0 c (Vb1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (Vb1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (Vb1 m c) (Vb2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PALLAS CALL 1 over the thread state: entered with every unscoped buffer at the contents before it, left with the
    call's arrays at what its write-backs leave and every other buffer as entered. -/
def reg1 : Pipeline.RegionSeg (pcfgs (F := F)) admK (pdats m) () defs₀ 𝒱K LK lvK 1 where
  win := launch1.win.to₀
  block_pos := launch1.block_pos
  stage_whole := launch1.stage_whole
  K := PEmpty
  osem k := k.elim
  ho := Pipeline.OwnSemFacts.none _
  hbody c := (body_obligation1 (Vb2 m) c).loose
  hwaits := Pipeline.hwaits_of_owed_zero _ _ _ _ LK lvK 1 fun _ _ => rfl
  pre c := iprop(StableHlo.held (c : Thread nD τ) (Pipeline.ucRefs τ sig) (W2 m c) ∗ RK c)
  post c := iprop(StableHlo.held (c : Thread nD τ) (Pipeline.ucRefs τ sig) (W3 m c) ∗ RK c)
  X c := iprop(∃ r, prngReg c r)
  Y c := iprop(∃ r, prngReg c r)
  Z c := Pipeline.unscopedRest (Ix := Unit) (Name := ℕ) (U := UR sig nD τ) (Lvl := ℕ) spec1 c (Vb2 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (Vb2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (Vb2 m c) (Vb3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PALLAS CALL 2 over the thread state: entered with every unscoped buffer at the contents before it, left with the
    call's arrays at what its write-backs leave and every other buffer as entered. -/
def reg2 : Pipeline.RegionSeg (pcfgs (F := F)) admK (pdats m) () defs₀ 𝒱K LK lvK 2 where
  win := launch2.win.to₀
  block_pos := launch2.block_pos
  stage_whole := launch2.stage_whole
  K := PEmpty
  osem k := k.elim
  ho := Pipeline.OwnSemFacts.none _
  hbody c := (body_obligation2 (Vb4 m) c).loose
  hwaits := Pipeline.hwaits_of_owed_zero _ _ _ _ LK lvK 2 fun _ _ => rfl
  pre c := iprop(StableHlo.held (c : Thread nD τ) (Pipeline.ucRefs τ sig) (W4 m c) ∗ RK c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vb4 m c)
  hentry c := by
    rw [Pipeline.ownSems0_none]
    have hsplit := Pipeline.arrays_of_unscopedBufs (p := 2) (pcfgs (F := F)) admK (pdats m) launch2.win launch2.arr_whole c
      ((pdats m 2 c).share_full fun _ => rfl) (Vb4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (Vb4 m) c).trans h
  hexit c := by
    have hjoin := Pipeline.unscopedBufs_of_arrays (p := 2) (pcfgs (F := F)) admK (Ix := Unit) (Name := ℕ) (U := UR sig nD τ) (Lvl := ℕ)
      launch2.win launch2.arr_whole c (pdats m) ((pdats m 2 c).share_full fun _ => rfl)
      (Vb4 m c) (Vb5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsK : List (Pipeline.Seg (pcfgs (F := F)) admK (pdats m) () defs₀ 𝒱K LK lvK) :=
  [ .host (hseg hostOps0 hostOps0_sub hostOps0_fresh (W0 m)),
    .region (reg0 m),
    .region (reg1 m),
    .host (hseg hostOps2 hostOps2_sub hostOps2_fresh (W3 m)),
    .region (reg2 m) ]
theorem main_run (c : Dev nD) : main (F := F) c = Pipeline.Seg.run (segsK m) := (main_chain c).trans (by chain_rfl)

set_option backward.isDefEq.respectTransparency.types false in
/-- THE RUN: every weakly fair execution terminates, nothing faulting, and every final state holds every unscoped
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admK (pdats m) () cellOf_inj emb₁ defs₀ 𝒱K LK lvK m ρ main (segsK m)
    (fun c Q => by rw [main_run m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RK c)) (Tₙ := Tₙ m)
    (hch := ⟨fun _ => .rfl, fun _ => .rfl, fun _ => .rfl, fun _ => .rfl, fun _ => .rfl, fun _ => .rfl⟩)
    (hinit := by
      refine Pipeline.initEach LK lvK fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- THE RESULT beside the frame: the result array ends at the last boundary's contents. -/
theorem run_result : θ_run defs (onTc (τ := τ) (main (F := F))) ⟨m, fun _ => 0, ρ⟩ (fun r => ∀ c : Dev nD,
      r.2.mem ((c.tc : Thread nD τ).loc main_v26) = W5 m c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v26 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Frame

end
-- ==== Proof.Spec.lean ====
/-
  The specification both programs are compared against, over the real parts of the arguments.

  With x : [4096, 1024], two weight matrices W : [1024, 1024] and two biases b : [1024], all finite:
    proj x W b r e   = (Σ_f x[r, f] · W[e, f]) + b[e]                      (a linear layer y = x Wᵀ + b)
    score r c        = Σ_e q[r, e] · k[c, e]   with q = proj x Wq bq, k = proj x Wk bk
    pooled r d       = (Σ_c exp (score r c) · x[c, d]) / (Σ_c exp (score r c))
  The pooled value is a softmax-weighted average of the rows of x. A softmax written with any row offset M,
  exp (s − M) / Σ exp (s − M), is the same weight, because the factor exp (−M) cancels between numerator and
  denominator; so neither side's choice of offset (a running maximum on one side, the row maximum on the other) enters.
-/
import Idealize.ShloMosaic.Lib.ValueIdx
import Idealize.ShloMosaic.PureOps.Ideal
import Mathlib.Analysis.SpecialFunctions.Exp

noncomputable section

namespace Cert.Spec

open Idealize.ShloMosaic Idealize.ShloMosaic.ValueIdx
open scoped BigOperators

abbrev SX : Shape := ⟨2, ![4096, 1024]⟩
abbrev SW : Shape := ⟨2, ![1024, 1024]⟩
abbrev SB : Shape := ⟨1, ![1024]⟩

/-- The real part of an entry of x, of a weight matrix, of a bias. -/
def Xr (x : SX.Idx → EReal) (r : Fin 4096) (f : Fin 1024) : ℝ := (x (ix2 r f)).toReal
def Wr (w : SW.Idx → EReal) (e f : Fin 1024) : ℝ := (w (ix2 e f)).toReal
def Br (b : SB.Idx → EReal) (e : Fin 1024) : ℝ := (b (ix1 e)).toReal

/-- The linear layer y = x Wᵀ + b at row r, feature e. -/
def proj (x : SX.Idx → EReal) (w : SW.Idx → EReal) (b : SB.Idx → EReal) (r : Fin 4096) (e : Fin 1024) : ℝ :=
  (∑ f : Fin 1024, Xr x r f * Wr w e f) + Br b e

/-- The attention logit of query row r against key row c. -/
def score (x : SX.Idx → EReal) (wq : SW.Idx → EReal) (bq : SB.Idx → EReal) (wk : SW.Idx → EReal) (bk : SB.Idx → EReal)
    (r c : Fin 4096) : ℝ :=
  ∑ e : Fin 1024, proj x wq bq r e * proj x wk bk c e

/-- The pooled output at row r, feature d, as a real number. -/
def pooled (x : SX.Idx → EReal) (wq : SW.Idx → EReal) (bq : SB.Idx → EReal) (wk : SW.Idx → EReal) (bk : SB.Idx → EReal)
    (r : Fin 4096) (d : Fin 1024) : ℝ :=
  (∑ c : Fin 4096, Real.exp (score x wq bq wk bk r c) * Xr x c d) / (∑ c : Fin 4096, Real.exp (score x wq bq wk bk r c))

/-- The result array: the pooled value at every index, as an extended real. -/
def G (x : SX.Idx → EReal) (wq : SW.Idx → EReal) (bq : SB.Idx → EReal) (wk : SW.Idx → EReal) (bk : SB.Idx → EReal) :
    SX.Idx → EReal :=
  fun i => ((pooled x wq bq wk bk (i 0) (i 1) : ℝ) : EReal)

theorem G_ix2 (x : SX.Idx → EReal) (wq : SW.Idx → EReal) (bq : SB.Idx → EReal) (wk : SW.Idx → EReal) (bk : SB.Idx → EReal)
    (r : Fin 4096) (d : Fin 1024) : G x wq bq wk bk (ix2 r d) = ((pooled x wq bq wk bk r d : ℝ) : EReal) := rfl

/-- Every entry of an array is a real number. -/
def Fin2 {S : Shape} (a : S.Idx → EReal) : Prop := ∀ i, a i = ((a i).toReal : EReal)

theorem Fin2.x {x : SX.Idx → EReal} (h : Fin2 x) (r : Fin 4096) (f : Fin 1024) : x (ix2 r f) = ((Xr x r f : ℝ) : EReal) := h _
theorem Fin2.w {w : SW.Idx → EReal} (h : Fin2 w) (e f : Fin 1024) : w (ix2 e f) = ((Wr w e f : ℝ) : EReal) := h _
theorem Fin2.b {b : SB.Idx → EReal} (h : Fin2 b) (e : Fin 1024) : b (ix1 e) = ((Br b e : ℝ) : EReal) := h _

end Cert.Spec

end
-- ==== Proof.LibFlash.lean ====
/-
  The running ("online") softmax over blocks of columns, for one row and one output column, on the extended reals.

  A state is a triple (m, l, a): a row offset, a denominator and a numerator. From (⊥, 0, 0), block j with logits
  s_j k and values v_j k updates
      m' = max m (max_k s_j k)
      l' = exp (m − m') · l + Σ_k exp (s_j k − m')
      a' = exp (m − m') · a + (Σ_k exp (s_j k − m') · vh_j k + Σ_k exp (s_j k − m') · vl_j k).
  When every logit and value is a real number, after blocks 0 … j the state is (M, Σ exp (s − M), Σ exp (s − M) · v)
  for SOME real M (the identity exp (m − m') · exp (s − m) = exp (s − m') telescopes; at the first block exp ⊥ = 0
  multiplies the zeros), so a / l is (Σ exp s · v) / (Σ exp s): the offset cancels. The same cancellation rewrites a
  softmax taken with any offset (softmax_offset), and a sum over n·b columns splits into n blocks of b (sum_fin_blocks).
-/
import Idealize.ShloMosaic.PureOps.Ideal
import Mathlib.Analysis.SpecialFunctions.Exp
import Mathlib.Algebra.BigOperators.Fin

noncomputable section

namespace FlashSoftmax

open Idealize.ShloMosaic
open scoped BigOperators

variable {κ : Type} [Fintype κ]

/-- One block's update of (offset, denominator, numerator). -/
def step (s vh vl : κ → EReal) (st : EReal × EReal × EReal) : EReal × EReal × EReal :=
  (max st.1 (Finset.univ.fold max ⊥ s),
   Ideal.exp (st.1 - max st.1 (Finset.univ.fold max ⊥ s)) * st.2.1
     + ∑ k, Ideal.exp (s k - max st.1 (Finset.univ.fold max ⊥ s)),
   Ideal.exp (st.1 - max st.1 (Finset.univ.fold max ⊥ s)) * st.2.2
     + ((∑ k, Ideal.exp (s k - max st.1 (Finset.univ.fold max ⊥ s)) * vh k)
        + (∑ k, Ideal.exp (s k - max st.1 (Finset.univ.fold max ⊥ s)) * vl k)))

/-- The state after blocks 0 … j, from the reset state (⊥, 0, 0). -/
def run (s vh vl : ℕ → κ → EReal) : ℕ → EReal × EReal × EReal
  | 0 => step (s 0) (vh 0) (vl 0) (⊥, 0, 0)
  | j + 1 => step (s (j + 1)) (vh (j + 1)) (vl (j + 1)) (run s vh vl j)

/-- The coercion ℝ → EReal commutes with finite sums (by induction on the index set). -/
private theorem coe_sum_aux {ι : Type} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- The maximum of finitely many (at least one) real numbers, folded from ⊥, is a real number. -/
theorem fold_max_real [Nonempty κ] (g : κ → ℝ) :
    ∃ R : ℝ, Finset.univ.fold max (⊥ : EReal) (fun k => (g k : EReal)) = (R : EReal) := by
  obtain ⟨i, -, hi⟩ :=
    Finset.exists_mem_eq_sup Finset.univ Finset.univ_nonempty (fun k : κ => (g k : EReal))
  exact ⟨g i, hi⟩

/-- One block from the reset state: exp ⊥ = 0 multiplies the zeros, max ⊥ R = R. -/
private theorem step_bot (s v : κ → ℝ) (R : ℝ)
    (hR : Finset.univ.fold max (⊥ : EReal) (fun k => (s k : EReal)) = (R : EReal)) :
    step (fun k => (s k : EReal)) (fun k => (v k : EReal)) (fun _ => 0) ((⊥ : EReal), (0 : EReal), (0 : EReal))
      = ((R : EReal), ((∑ k, Real.exp (s k - R) : ℝ) : EReal),
         ((∑ k, Real.exp (s k - R) * v k : ℝ) : EReal)) := by
  unfold step
  simp only [hR, bot_sup_eq, mul_zero, zero_add, add_zero, Finset.sum_const_zero, ← EReal.coe_sub,
    Ideal.exp_coe, ← EReal.coe_mul, coe_sum_aux]

/-- One block from a real state (M, l, a), with R the block's maximum. -/
private theorem step_coe (s v : κ → ℝ) (R M l a : ℝ)
    (hR : Finset.univ.fold max (⊥ : EReal) (fun k => (s k : EReal)) = (R : EReal)) :
    step (fun k => (s k : EReal)) (fun k => (v k : EReal)) (fun _ => 0) ((M : EReal), (l : EReal), (a : EReal))
      = (((max M R : ℝ) : EReal),
         ((Real.exp (M - max M R) * l + ∑ k, Real.exp (s k - max M R) : ℝ) : EReal),
         ((Real.exp (M - max M R) * a + ∑ k, Real.exp (s k - max M R) * v k : ℝ) : EReal)) := by
  have hmax : max (M : EReal) (R : EReal) = ((max M R : ℝ) : EReal) := (EReal.coe_strictMono.monotone.map_max (a := M) (b := R)).symm
  unfold step
  simp only [hR, hmax, mul_zero, add_zero, Finset.sum_const_zero, ← EReal.coe_sub,
    Ideal.exp_coe, EReal.coe_mul, EReal.coe_add, coe_sum_aux]

/-- exp (M − M') · exp (s − M) = exp (s − M'), summed. -/
private theorem rescale_den (S : ℕ → κ → ℝ) (M M' : ℝ) (n : ℕ) :
    Real.exp (M - M') * ∑ j' ∈ Finset.range n, ∑ k, Real.exp (S j' k - M)
      = ∑ j' ∈ Finset.range n, ∑ k, Real.exp (S j' k - M') := by
  rw [Finset.mul_sum]
  refine Finset.sum_congr rfl (fun j' _ => ?_)
  rw [Finset.mul_sum]
  refine Finset.sum_congr rfl (fun k _ => ?_)
  rw [← Real.exp_add]
  congr 1; ring

/-- The same with a weight on each term. -/
private theorem rescale_num (S W : ℕ → κ → ℝ) (M M' : ℝ) (n : ℕ) :
    Real.exp (M - M') * ∑ j' ∈ Finset.range n, ∑ k, Real.exp (S j' k - M) * W j' k
      = ∑ j' ∈ Finset.range n, ∑ k, Real.exp (S j' k - M') * W j' k := by
  rw [Finset.mul_sum]
  refine Finset.sum_congr rfl (fun j' _ => ?_)
  rw [Finset.mul_sum]
  refine Finset.sum_congr rfl (fun k _ => ?_)
  rw [← mul_assoc, ← Real.exp_add]
  congr 2; ring

/-- On real logits and values (second value operand zero) the state after blocks 0 … j. -/
theorem run_real [Nonempty κ] (S V : ℕ → κ → ℝ) (j : ℕ) :
    ∃ M : ℝ, run (fun j k => (S j k : EReal)) (fun j k => (V j k : EReal)) (fun _ _ => 0) j
      = ((M : EReal), ((∑ j' ∈ Finset.range (j + 1), ∑ k, Real.exp (S j' k - M) : ℝ) : EReal),
         ((∑ j' ∈ Finset.range (j + 1), ∑ k, Real.exp (S j' k - M) * V j' k : ℝ) : EReal)) := by
  induction j with
  | zero =>
    obtain ⟨R, hR⟩ := fold_max_real (S 0)
    refine ⟨R, (step_bot (S 0) (V 0) R hR).trans ?_⟩
    simp only [zero_add, Finset.range_one, Finset.sum_singleton]
  | succ j ih =>
    obtain ⟨M, hM⟩ := ih
    obtain ⟨R, hR⟩ := fold_max_real (S (j + 1))
    refine ⟨max M R, ?_⟩
    have hstep := step_coe (S (j + 1)) (V (j + 1)) R M
      (∑ j' ∈ Finset.range (j + 1), ∑ k, Real.exp (S j' k - M))
      (∑ j' ∈ Finset.range (j + 1), ∑ k, Real.exp (S j' k - M) * V j' k) hR
    rw [rescale_den, rescale_num] at hstep
    rw [Finset.sum_range_succ (fun j' => ∑ k, Real.exp (S j' k - max M R)) (j + 1),
      Finset.sum_range_succ (fun j' => ∑ k, Real.exp (S j' k - max M R) * V j' k) (j + 1)]
    refine Eq.trans ?_ hstep
    show step _ _ _ (run _ _ _ j) = _
    rw [hM]

/-- Numerator over denominator: the offset has cancelled. -/
theorem run_div [Nonempty κ] (S V : ℕ → κ → ℝ) (j : ℕ) :
    Ideal.div (run (fun j k => (S j k : EReal)) (fun j k => (V j k : EReal)) (fun _ _ => 0) j).2.2
        (run (fun j k => (S j k : EReal)) (fun j k => (V j k : EReal)) (fun _ _ => 0) j).2.1
      = (((∑ j' ∈ Finset.range (j + 1), ∑ k, Real.exp (S j' k) * V j' k)
          / (∑ j' ∈ Finset.range (j + 1), ∑ k, Real.exp (S j' k)) : ℝ) : EReal) := by
  obtain ⟨M, hM⟩ := run_real S V j
  rw [hM]
  have hD : 0 < ∑ j' ∈ Finset.range (j + 1), ∑ k : κ, Real.exp (S j' k) :=
    Finset.sum_pos (fun j' _ => Finset.sum_pos (fun k _ => Real.exp_pos _) Finset.univ_nonempty)
      ⟨0, Finset.mem_range.mpr (Nat.succ_pos j)⟩
  have hE : Real.exp M ≠ 0 := (Real.exp_pos M).ne'
  have hL : ∑ j' ∈ Finset.range (j + 1), ∑ k : κ, Real.exp (S j' k - M)
      = (∑ j' ∈ Finset.range (j + 1), ∑ k : κ, Real.exp (S j' k)) / Real.exp M := by
    rw [Finset.sum_div]
    refine Finset.sum_congr rfl (fun j' _ => ?_)
    rw [Finset.sum_div]
    exact Finset.sum_congr rfl (fun k _ => Real.exp_sub _ _)
  have hA : ∑ j' ∈ Finset.range (j + 1), ∑ k : κ, Real.exp (S j' k - M) * V j' k
      = (∑ j' ∈ Finset.range (j + 1), ∑ k : κ, Real.exp (S j' k) * V j' k) / Real.exp M := by
    rw [Finset.sum_div]
    refine Finset.sum_congr rfl (fun j' _ => ?_)
    rw [Finset.sum_div]
    refine Finset.sum_congr rfl (fun k _ => ?_)
    rw [Real.exp_sub, div_mul_eq_mul_div]
  have hL0 : (∑ j' ∈ Finset.range (j + 1), ∑ k : κ, Real.exp (S j' k)) / Real.exp M ≠ 0 :=
    div_ne_zero hD.ne' hE
  show Ideal.div (((∑ j' ∈ Finset.range (j + 1), ∑ k, Real.exp (S j' k - M) * V j' k : ℝ)) : EReal)
      (((∑ j' ∈ Finset.range (j + 1), ∑ k, Real.exp (S j' k - M) : ℝ)) : EReal) = _
  rw [hL, hA, Ideal.div_coe hL0, ← EReal.coe_mul]
  refine congrArg _ ?_
  field_simp

/-- A softmax-weighted sum taken with any offset M is the offset-free quotient. -/
theorem softmax_offset {ι : Type} [Fintype ι] [Nonempty ι] (s x : ι → ℝ) (M : ℝ) :
    ∑ c, (Real.exp (s c - M) / ∑ c', Real.exp (s c' - M)) * x c
      = (∑ c, Real.exp (s c) * x c) / ∑ c, Real.exp (s c) := by
  have hE : 0 < ∑ c, Real.exp (s c) :=
    Finset.sum_pos (fun c _ => Real.exp_pos _) Finset.univ_nonempty
  have hM : Real.exp M ≠ 0 := (Real.exp_pos M).ne'
  have hD : ∑ c', Real.exp (s c' - M) = (∑ c', Real.exp (s c')) / Real.exp M := by
    rw [Finset.sum_div]
    exact Finset.sum_congr rfl (fun c _ => Real.exp_sub _ _)
  rw [hD, Finset.sum_div Finset.univ (fun c => Real.exp (s c) * x c)]
  refine Finset.sum_congr rfl (fun c _ => ?_)
  rw [Real.exp_sub]
  field_simp

/-- A sum over n·b consecutive columns, block by block. -/
theorem sum_fin_blocks (n b : ℕ) (f : ℕ → ℝ) :
    ∑ c : Fin (n * b), f c.val = ∑ j ∈ Finset.range n, ∑ k : Fin b, f (b * j + k.val) := by
  have hin : ∀ j, ∑ k : Fin b, f (b * j + k.val) = ∑ k ∈ Finset.range b, f (b * j + k) :=
    fun j => Fin.sum_univ_eq_sum_range (fun k => f (b * j + k)) b
  rw [Fin.sum_univ_eq_sum_range (fun c => f c) (n * b)]
  simp only [hin]
  induction n with
  | zero => simp
  | succ n ih =>
    rw [Finset.sum_range_succ, ← ih, add_mul, one_mul, Finset.sum_range_add, Nat.mul_comm b n]

/-- The coercion of a finite sum of reals. -/
theorem coe_sum {ι : Type} (t : Finset ι) (f : ι → ℝ) : ((∑ i ∈ t, f i : ℝ) : EReal) = ∑ i ∈ t, (f i : EReal) :=
  coe_sum_aux t f

end FlashSoftmax

end
-- ==== Proof.SpecK.lean ====
/-
  The arithmetic of the three kernels written out on extended reals, entry by entry, exactly as each kernel body
  computes it (no algebra applied): the projection tile (three products with the split operands, summed in the body's
  order, plus the bias row), the logit of a query row against a key row (three products), and the pooled tile as the
  running softmax over eight key tiles of 512 rows followed by numerator / denominator.
  Then the algebra: with the "low" halves of the split operands zero and everything finite, these are the specification's
  linear layer and pooled average.
-/
import proofs.«430703_j8426725835102_3_alg».proof.Proof.Spec
import proofs.«430703_j8426725835102_3_alg».proof.Proof.LibFlash

noncomputable section

namespace Cert.Spec

open Idealize.ShloMosaic Idealize.ShloMosaic.ValueIdx
open scoped BigOperators

abbrev SB2 : Shape := ⟨2, ![1, 1024]⟩

/-- The projection kernel's output entry: ((x_hi·w_hi + x_hi·w_lo) + x_lo·w_hi) + bias, the weights already transposed
    (w[f, e] multiplies x[r, f]). -/
def projK (xh xl : SX.Idx → EReal) (wh wl : SW.Idx → EReal) (b : SB2.Idx → EReal) : SX.Idx → EReal :=
  fun i => (((∑ f : Fin 1024, xh (ix2 (i 0) f) * wh (ix2 f (i 1))) + (∑ f : Fin 1024, xh (ix2 (i 0) f) * wl (ix2 f (i 1))))
      + (∑ f : Fin 1024, xl (ix2 (i 0) f) * wh (ix2 f (i 1)))) + b (ix2 0 (i 1))

/-- The pooling kernel's logit of query row r against key row c: (q_hi·k_hi + q_hi·k_lo) + q_lo·k_hi over the feature axis. -/
def scoreK (qh ql kh kl : SX.Idx → EReal) (r c : Fin 4096) : EReal :=
  ((∑ e : Fin 1024, qh (ix2 r e) * kh (ix2 c e)) + (∑ e : Fin 1024, qh (ix2 r e) * kl (ix2 c e)))
    + (∑ e : Fin 1024, ql (ix2 r e) * kh (ix2 c e))

/-- Key row k of key tile j. -/
def col (j : ℕ) (k : Fin 512) : Fin 4096 := ⟨(512 * j + k.val) % 4096, Nat.mod_lt _ (by norm_num)⟩

/-- The pooling kernel's output entry: the running softmax state after the eight key tiles, numerator over denominator. -/
def flashK (qh ql kh kl vh vl : SX.Idx → EReal) : SX.Idx → EReal :=
  fun i => Ideal.div
    (FlashSoftmax.run (κ := Fin 512) (fun j k => scoreK qh ql kh kl (i 0) (col j k)) (fun j k => vh (ix2 (col j k) (i 1)))
      (fun j k => vl (ix2 (col j k) (i 1))) 7).2.2
    (FlashSoftmax.run (κ := Fin 512) (fun j k => scoreK qh ql kh kl (i 0) (col j k)) (fun j k => vh (ix2 (col j k) (i 1)))
      (fun j k => vl (ix2 (col j k) (i 1))) 7).2.1

/-- The transposed weight matrix and the bias as a row, as the host lines before the first call make them. -/
def wT (w : SW.Idx → EReal) : SW.Idx → EReal := fun i => w (ix2 (i 1) (i 0))
def bRow (b : SB.Idx → EReal) : SB2.Idx → EReal := fun i => b (ix1 (i 1))

/-- The linear layer as an array of extended reals. -/
def projArr (x : SX.Idx → EReal) (w : SW.Idx → EReal) (b : SB.Idx → EReal) : SX.Idx → EReal :=
  fun i => ((proj x w b (i 0) (i 1) : ℝ) : EReal)

/-- With the low halves zero and finite operands the projection kernel computes the linear layer. -/
theorem projK_eq (x : SX.Idx → EReal) (w : SW.Idx → EReal) (b : SB.Idx → EReal) (hx : Fin2 x) (hw : Fin2 w) (hb : Fin2 b) :
    projK x (fun _ => 0) (wT w) (fun _ => 0) (bRow b) = projArr x w b := by
  funext i
  obtain ⟨r, e, rfl⟩ : ∃ r e, i = ix2 r e := ⟨i 0, i 1, eq_ix2 i⟩
  have h1 : ∀ f : Fin 1024, x (ix2 r f) * w (ix2 e f) = ((Xr x r f * Wr w e f : ℝ) : EReal) := by
    intro f
    rw [EReal.coe_mul, ← hx.x, ← hw.w]
  show (((∑ f : Fin 1024, x (ix2 r f) * w (ix2 e f)) + (∑ f : Fin 1024, x (ix2 r f) * (0 : EReal)))
      + (∑ f : Fin 1024, (0 : EReal) * w (ix2 e f))) + b (ix1 e) = ((proj x w b r e : ℝ) : EReal)
  simp only [h1, mul_zero, zero_mul, Finset.sum_const_zero, add_zero]
  rw [proj, EReal.coe_add, FlashSoftmax.coe_sum, ← hb.b]

theorem projArr_fin (x : SX.Idx → EReal) (w : SW.Idx → EReal) (b : SB.Idx → EReal) : Fin2 (projArr x w b) := by
  intro i
  show ((proj x w b (i 0) (i 1) : ℝ) : EReal) = ((((proj x w b (i 0) (i 1) : ℝ) : EReal).toReal : ℝ) : EReal)
  rw [EReal.toReal_coe]

/-- With the low halves zero the logit of two linear layers' rows is the specification's score. -/
private theorem scoreK_real (x : SX.Idx → EReal) (wq : SW.Idx → EReal) (bq : SB.Idx → EReal) (wk : SW.Idx → EReal)
    (bk : SB.Idx → EReal) (r c : Fin 4096) :
    scoreK (projArr x wq bq) (fun _ => 0) (projArr x wk bk) (fun _ => 0) r c
      = ((score x wq bq wk bk r c : ℝ) : EReal) := by
  have h1 : ∀ e : Fin 1024, projArr x wq bq (ix2 r e) * projArr x wk bk (ix2 c e)
      = ((proj x wq bq r e * proj x wk bk c e : ℝ) : EReal) := fun e => (EReal.coe_mul _ _).symm
  show ((∑ e : Fin 1024, projArr x wq bq (ix2 r e) * projArr x wk bk (ix2 c e))
      + (∑ e : Fin 1024, projArr x wq bq (ix2 r e) * (0 : EReal)))
      + (∑ e : Fin 1024, (0 : EReal) * projArr x wk bk (ix2 c e)) = ((score x wq bq wk bk r c : ℝ) : EReal)
  simp only [h1, mul_zero, zero_mul, Finset.sum_const_zero, add_zero]
  rw [score, FlashSoftmax.coe_sum]

/-- A sum over the 4096 key rows, tile by tile: row (512·j + k) mod 4096 is row k of tile j. -/
private theorem sum_tiles (g : Fin 4096 → ℝ) :
    ∑ c : Fin 4096, g c = ∑ j ∈ Finset.range 8, ∑ k : Fin 512, g (col j k) := by
  have h := FlashSoftmax.sum_fin_blocks 8 512 (fun n => g ⟨n % 4096, Nat.mod_lt _ (by norm_num)⟩)
  refine Eq.trans ?_ h
  show ∑ c : Fin 4096, g c = ∑ c : Fin 4096, g ⟨c.val % 4096, Nat.mod_lt _ (by norm_num)⟩
  refine Finset.sum_congr rfl (fun c _ => ?_)
  congr 1
  exact Fin.ext (Nat.mod_eq_of_lt c.isLt).symm

/-- With the low halves zero, q and k the two linear layers and v = x, the pooling kernel computes the pooled average. -/
theorem flashK_eq (x : SX.Idx → EReal) (wq : SW.Idx → EReal) (bq : SB.Idx → EReal) (wk : SW.Idx → EReal) (bk : SB.Idx → EReal)
    (hx : Fin2 x) :
    flashK (projArr x wq bq) (fun _ => 0) (projArr x wk bk) (fun _ => 0) x (fun _ => 0) = G x wq bq wk bk := by
  funext i
  obtain ⟨r, d, rfl⟩ : ∃ r d, i = ix2 r d := ⟨i 0, i 1, eq_ix2 i⟩
  have hS : (fun (j : ℕ) (k : Fin 512) =>
        scoreK (projArr x wq bq) (fun _ => 0) (projArr x wk bk) (fun _ => 0) r (col j k))
      = fun j k => ((score x wq bq wk bk r (col j k) : ℝ) : EReal) := by
    funext j k
    exact scoreK_real x wq bq wk bk r (col j k)
  have hV : (fun (j : ℕ) (k : Fin 512) => x (ix2 (col j k) d))
      = fun j k => ((Xr x (col j k) d : ℝ) : EReal) := by
    funext j k
    exact hx.x _ _
  show Ideal.div
      (FlashSoftmax.run (κ := Fin 512)
        (fun j k => scoreK (projArr x wq bq) (fun _ => 0) (projArr x wk bk) (fun _ => 0) r (col j k))
        (fun j k => x (ix2 (col j k) d)) (fun _ _ => 0) 7).2.2
      (FlashSoftmax.run (κ := Fin 512)
        (fun j k => scoreK (projArr x wq bq) (fun _ => 0) (projArr x wk bk) (fun _ => 0) r (col j k))
        (fun j k => x (ix2 (col j k) d)) (fun _ _ => 0) 7).2.1
    = ((pooled x wq bq wk bk r d : ℝ) : EReal)
  rw [hS, hV]
  refine (FlashSoftmax.run_div (κ := Fin 512) (fun j k => score x wq bq wk bk r (col j k))
    (fun j k => Xr x (col j k) d) 7).trans ?_
  refine congrArg _ ?_
  rw [pooled, sum_tiles (fun c => Real.exp (score x wq bq wk bk r c) * Xr x c d),
    sum_tiles (fun c => Real.exp (score x wq bq wk bk r c))]

/-- The difference of a finite array with itself is zero (the low half of a split at exact arithmetic). -/
theorem sub_self_fin {S : Shape} (a : S.Idx → EReal) (h : Fin2 a) : (fun i => a i - a i) = fun _ => 0 := by
  funext i
  show a i - a i = 0
  rw [h i, ← EReal.coe_sub, sub_self, EReal.coe_zero]

end Cert.Spec

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.KIValue0.lean ====
/-
  Pallas call 0 as a function of arrays: after the call, the output array holds, entry by entry, the projection
  arithmetic of the five input arrays as the call found them (row tile t of the output is the body's store at grid
  point t, and the four row tiles cover the array).
-/
import proofs.«430703_j8426725835102_3_alg».proof.Proof.KIRegion0
import proofs.«430703_j8426725835102_3_alg».proof.Proof.SpecK
import proofs.«430703_j8426725835102_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-- The printed product record is a plain product. -/
private theorem plain_dot : PlainDot.IsPlain dot_S1024x1024_S1024x1024_S1024x1024_1_0_0_1_n_n := ⟨rfl, rfl, rfl, rfl, rfl, rfl⟩

/-- The body's arithmetic at an entry of the tile: the three products in the body's order, plus the bias row. -/
private theorem pay_apply (xa xb xc xd : FVec Ideal S1024x1024 .bf16) (xe : FVec Ideal S1x1024 .f32) (p q : Fin 1024) :
    k0_pay1 (F := Ideal) xa xb xc xd xe (ix2 p q)
      = ((∑ f : Fin 1024, xa (ix2 p f) * xc (ix2 f q) + ∑ f : Fin 1024, xa (ix2 p f) * xd (ix2 f q))
          + ∑ f : Fin 1024, xb (ix2 p f) * xc (ix2 f q)) + xe (ix2 0 q) := by
  unfold k0_pay1
  rw [shapeCast_self xa, shapeCast_self xb, shapeCast_self xc, shapeCast_self xd, shapeCast_self xe]
  refine congrArg₂ (· + ·) (congrArg₂ (· + ·) (congrArg₂ (· + ·) ?_ ?_) ?_) ?_
  · exact PlainDot.matmul_zero_apply _ plain_dot none xa xc p q
  · exact PlainDot.matmul_zero_apply _ plain_dot none xa xd p q
  · exact PlainDot.matmul_zero_apply _ plain_dot none xb xc p q
  · exact broadcastTo_1b_ab_apply xe broadcasts_S1x1024_S1024x1024 p q

/-- The body's arithmetic on tiles that are rows of two arrays and three whole arrays is the projection's entry. -/
private theorem tile_apply (Aa Ab : S4096x1024.Idx → EReal) (Ac Ad : S1024x1024.Idx → EReal) (Ae : S1x1024.Idx → EReal)
    (xa xb xc xd : FVec Ideal S1024x1024 .bf16) (xe : FVec Ideal S1x1024 .f32) (y : S1024x1024.Idx) (i : S4096x1024.Idx)
    (ha : ∀ f : Fin 1024, xa (ix2 (y 0) f) = Aa (ix2 (i 0) f)) (hb : ∀ f : Fin 1024, xb (ix2 (y 0) f) = Ab (ix2 (i 0) f))
    (hc : xc = Ac) (hd : xd = Ad) (he : xe = Ae) (hi : y 1 = i 1) :
    k0_pay1 (F := Ideal) xa xb xc xd xe y = Cert.Spec.projK Aa Ab Ac Ad Ae i := by
  subst hc hd he
  obtain ⟨p, q, rfl⟩ : ∃ (p : Fin 1024) (q : Fin 1024), y = ix2 p q := ⟨y 0, y 1, eq_ix2 y⟩
  refine (pay_apply xa xb xc xd xe p q).trans ?_
  have hq : q = i 1 := hi
  subst hq
  show _ = ((∑ f : Fin 1024, Aa (ix2 (i 0) f) * xc (ix2 f (i 1)) + ∑ f : Fin 1024, Aa (ix2 (i 0) f) * xd (ix2 f (i 1)))
          + ∑ f : Fin 1024, Ab (ix2 (i 0) f) * xc (ix2 f (i 1))) + xe (ix2 0 (i 1))
  have ha' : ∀ f : Fin 1024, xa (ix2 p f) = Aa (ix2 (i 0) f) := ha
  have hb' : ∀ f : Fin 1024, xb (ix2 p f) = Ab (ix2 (i 0) f) := hb
  simp only [ha', hb']

private theorem hz : (![0, 0] : Fin 2 → Nat) = fun _ => 0 := funext fun a => by fin_cases a <;> rfl

/-- The printed index maps, decided over the grid: the row-tiled windows sit at row block t, the others at block 0. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section

variable (V : (c : Dev nD) → (b : Ref sig .tc) → Buf (Elt Ideal) ((c : Thread nD τ).loc b))

/-- Window 0's tile at point t is rows 1024·t … 1024·t + 1023 of its array. -/
private theorem blk_rows_a (c : Dev nD) (t : Fin cfg0.N) (y : S1024x1024.Idx) (i : S4096x1024.Idx)
    (hr : (i 0).val = 1024 * t.val + (y 0).val) (hc : (i 1).val = (y 1).val) :
    (iblk0 V c 0 t : Vec Ideal S1024x1024 .bf16) y = (V c (Pipeline.arrRef spec0 0) : S4096x1024.Idx → EReal) i := by
  obtain ⟨ea, eb, -⟩ := idx_facts t
  show V c (Pipeline.arrRef spec0 0) (((cfg0.win 0).blk t).view.emb y) = V c (Pipeline.arrRef spec0 0) i
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 1024 + 1 * (y 1).val = (i 1).val; omega

/-- Window 1's tile at point t is rows 1024·t … 1024·t + 1023 of its array. -/
private theorem blk_rows_b (c : Dev nD) (t : Fin cfg0.N) (y : S1024x1024.Idx) (i : S4096x1024.Idx)
    (hr : (i 0).val = 1024 * t.val + (y 0).val) (hc : (i 1).val = (y 1).val) :
    (iblk0 V c 1 t : Vec Ideal S1024x1024 .bf16) y = (V c (Pipeline.arrRef spec0 1) : S4096x1024.Idx → EReal) i := by
  obtain ⟨-, -, ea, eb, -⟩ := idx_facts t
  show V c (Pipeline.arrRef spec0 1) (((cfg0.win 1).blk t).view.emb y) = V c (Pipeline.arrRef spec0 1) i
  refine congrArg _ (funext fun a => Fin.ext ?_)
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- Window 2's tile is its whole array at every point. -/
private theorem blk_whole_c (c : Dev nD) (t : Fin cfg0.N) :
    (iblk0 V c 2 t : Vec Ideal S1024x1024 .bf16) = (V c (Pipeline.arrRef spec0 2) : S1024x1024.Idx → EReal) := by
  obtain ⟨-, -, -, -, ea, eb, -⟩ := idx_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- Window 3's tile is its whole array at every point. -/
private theorem blk_whole_d (c : Dev nD) (t : Fin cfg0.N) :
    (iblk0 V c 3 t : Vec Ideal S1024x1024 .bf16) = (V c (Pipeline.arrRef spec0 3) : S1024x1024.Idx → EReal) := by
  obtain ⟨-, -, -, -, -, -, ea, eb, -⟩ := idx_facts t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- Window 4's tile is its whole one-row array at every point. -/
private theorem blk_whole_e (c : Dev nD) (t : Fin cfg0.N) :
    (iblk0 V c 4 t : Vec Ideal S1x1024 .f32) = (V c (Pipeline.arrRef spec0 4) : S1x1024.Idx → EReal) := by
  obtain ⟨-, -, -, -, -, -, -, -, ea, eb, -⟩ := idx_facts t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- What point t writes back is row tile t of the projection of the five arrays. -/
private theorem flushed_eq (c : Dev nD) (t : Fin cfg0.N) :
    (dat0 V c).flushed 5 t = ((cfg0.win 5).blk t).view.read (Elt Ideal)
      (Cert.Spec.projK (V c (Pipeline.arrRef spec0 0)) (V c (Pipeline.arrRef spec0 1)) (V c (Pipeline.arrRef spec0 2))
          (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S1024x1024) hz, View.ld_unit_zero (S := S1x1024) hz]
  obtain ⟨-, -, -, -, -, -, -, -, -, -, ea, eb⟩ := idx_facts t
  funext y
  show k0_pay1 (F := Ideal) (iblk0 V c 0 t) (iblk0 V c 1 t) (iblk0 V c 2 t) (iblk0 V c 3 t) (iblk0 V c 4 t) y
    = Cert.Spec.projK (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb y)
  have hr : ((((cfg0.win 5).blk t).view.emb y) 0).val = 1024 * t.val + (y 0).val := by
    show win0_5.index t (0 : Fin 2) * 1024 + 1 * (y 0).val = _; omega
  have hc : ((((cfg0.win 5).blk t).view.emb y) 1).val = (y 1).val := by
    show win0_5.index t (1 : Fin 2) * 1024 + 1 * (y 1).val = _; omega
  refine tile_apply (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t) y (((cfg0.win 5).blk t).view.emb y)
    (fun f => blk_rows_a V c t _ _ hr rfl) (fun f => blk_rows_b V c t _ _ hr rfl)
    (blk_whole_c V c t) (blk_whole_d V c t) (blk_whole_e V c t) (Fin.ext hc.symm)

/-- An index of the output array is in point t's tile iff each coordinate is in the tile's range on its axis. -/
private theorem mem_blk (t : Fin cfg0.N) (i : S4096x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole (Pipeline.arrRef spec0 5)).slice (win0_5.rect t)).set ↔ _
  rw [View.set_slice_whole, Rect.mem_set_unit]
  exact Iff.rfl

/-- The four row tiles cover the output array: row r lies in the tile of point r / 1024. -/
private theorem cover (i : S4096x1024.Idx) :
    ∃ t : Fin cfg0.N, (cfg0.win 5).flush t = true ∧ i ∈ ((cfg0.win 5).blk t).view.set := by
  have hN : grid0.N = 4 := N_0
  have hr : (i 0).val < 4096 := (i 0).isLt
  have hc : (i 1).val < 1024 := (i 1).isLt
  have ht : (i 0).val / 1024 < grid0.N := by omega
  refine ⟨⟨(i 0).val / 1024, ht⟩, flush0_5 _, ?_⟩
  obtain ⟨-, -, -, -, -, -, -, -, -, -, ea, eb⟩ := idx_facts ⟨(i 0).val / 1024, ht⟩
  have ea' : win0_5.index ⟨(i 0).val / 1024, ht⟩ (0 : Fin 2) = (i 0).val / 1024 := ea
  rw [mem_blk]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    omega
  | ⟨1, _⟩ =>
    show win0_5.index ⟨(i 0).val / 1024, ht⟩ (1 : Fin 2) * 1024 ≤ (i 1).val
      ∧ (i 1).val < win0_5.index ⟨(i 0).val / 1024, ht⟩ (1 : Fin 2) * 1024 + 1024
    omega

end

theorem arr0_5 (V : (c : Dev nD) → (b : Ref sig .tc) → Buf (Elt Ideal) ((c : Thread nD τ).loc b)) (c : Dev nD) :
    (dat0 V c).arrAt 5 cfg0.N
      = Cert.Spec.projK (V c (Pipeline.arrRef spec0 0)) (V c (Pipeline.arrRef spec0 1)) (V c (Pipeline.arrRef spec0 2))
          (V c (Pipeline.arrRef spec0 3)) (V c (Pipeline.arrRef spec0 4)) :=
  (dat0 V c).arrAt_eq_of_cover 5 _ (fun t _ => flushed_eq V c t) cover

end Cert.KernelIdeal.Frame

end
-- ==== Proof.KIValue1.lean ====
/-
  Pallas call 1 as a function of arrays: after the call, the output array holds, entry by entry, the projection
  arithmetic of the five input arrays as the call found them (row tile t of the output is the body's store at grid
  point t, and the four row tiles cover the array).
-/
import proofs.«430703_j8426725835102_3_alg».proof.Proof.KIRegion1
import proofs.«430703_j8426725835102_3_alg».proof.Proof.SpecK
import proofs.«430703_j8426725835102_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-- The printed product record is a plain product. -/
private theorem plain_dot : PlainDot.IsPlain dot_S1024x1024_S1024x1024_S1024x1024_1_0_0_1_n_n := ⟨rfl, rfl, rfl, rfl, rfl, rfl⟩

/-- The body's arithmetic at an entry of the tile: the three products in the body's order, plus the bias row. -/
private theorem pay_apply (xa xb xc xd : FVec Ideal S1024x1024 .bf16) (xe : FVec Ideal S1x1024 .f32) (p q : Fin 1024) :
    k1_pay1 (F := Ideal) xa xb xc xd xe (ix2 p q)
      = ((∑ f : Fin 1024, xa (ix2 p f) * xc (ix2 f q) + ∑ f : Fin 1024, xa (ix2 p f) * xd (ix2 f q))
          + ∑ f : Fin 1024, xb (ix2 p f) * xc (ix2 f q)) + xe (ix2 0 q) := by
  unfold k1_pay1
  rw [shapeCast_self xa, shapeCast_self xb, shapeCast_self xc, shapeCast_self xd, shapeCast_self xe]
  refine congrArg₂ (· + ·) (congrArg₂ (· + ·) (congrArg₂ (· + ·) ?_ ?_) ?_) ?_
  · exact PlainDot.matmul_zero_apply _ plain_dot none xa xc p q
  · exact PlainDot.matmul_zero_apply _ plain_dot none xa xd p q
  · exact PlainDot.matmul_zero_apply _ plain_dot none xb xc p q
  · exact broadcastTo_1b_ab_apply xe broadcasts_S1x1024_S1024x1024 p q

/-- The body's arithmetic on tiles that are rows of two arrays and three whole arrays is the projection's entry. -/
private theorem tile_apply (Aa Ab : S4096x1024.Idx → EReal) (Ac Ad : S1024x1024.Idx → EReal) (Ae : S1x1024.Idx → EReal)
    (xa xb xc xd : FVec Ideal S1024x1024 .bf16) (xe : FVec Ideal S1x1024 .f32) (y : S1024x1024.Idx) (i : S4096x1024.Idx)
    (ha : ∀ f : Fin 1024, xa (ix2 (y 0) f) = Aa (ix2 (i 0) f)) (hb : ∀ f : Fin 1024, xb (ix2 (y 0) f) = Ab (ix2 (i 0) f))
    (hc : xc = Ac) (hd : xd = Ad) (he : xe = Ae) (hi : y 1 = i 1) :
    k1_pay1 (F := Ideal) xa xb xc xd xe y = Cert.Spec.projK Aa Ab Ac Ad Ae i := by
  subst hc hd he
  obtain ⟨p, q, rfl⟩ : ∃ (p : Fin 1024) (q : Fin 1024), y = ix2 p q := ⟨y 0, y 1, eq_ix2 y⟩
  refine (pay_apply xa xb xc xd xe p q).trans ?_
  have hq : q = i 1 := hi
  subst hq
  show _ = ((∑ f : Fin 1024, Aa (ix2 (i 0) f) * xc (ix2 f (i 1)) + ∑ f : Fin 1024, Aa (ix2 (i 0) f) * xd (ix2 f (i 1)))
          + ∑ f : Fin 1024, Ab (ix2 (i 0) f) * xc (ix2 f (i 1))) + xe (ix2 0 (i 1))
  have ha' : ∀ f : Fin 1024, xa (ix2 p f) = Aa (ix2 (i 0) f) := ha
  have hb' : ∀ f : Fin 1024, xb (ix2 p f) = Ab (ix2 (i 0) f) := hb
  simp only [ha', hb']

private theorem hz : (![0, 0] : Fin 2 → Nat) = fun _ => 0 := funext fun a => by fin_cases a <;> rfl

/-- The printed index maps, decided over the grid: the row-tiled windows sit at row block t, the others at block 0. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section

variable (V : (c : Dev nD) → (b : Ref sig .tc) → Buf (Elt Ideal) ((c : Thread nD τ).loc b))

/-- Window 0's tile at point t is rows 1024·t … 1024·t + 1023 of its array. -/
private theorem blk_rows_a (c : Dev nD) (t : Fin cfg1.N) (y : S1024x1024.Idx) (i : S4096x1024.Idx)
    (hr : (i 0).val = 1024 * t.val + (y 0).val) (hc : (i 1).val = (y 1).val) :
    (iblk1 V c 0 t : Vec Ideal S1024x1024 .bf16) y = (V c (Pipeline.arrRef spec1 0) : S4096x1024.Idx → EReal) i := by
  obtain ⟨ea, eb, -⟩ := idx_facts t
  show V c (Pipeline.arrRef spec1 0) (((cfg1.win 0).blk t).view.emb y) = V c (Pipeline.arrRef spec1 0) i
  refine congrArg _ (funext fun a => Fin.ext ?_)
  match a with
  | ⟨0, _⟩ => show win1_0.index t (0 : Fin 2) * 1024 + 1 * (y 0).val = (i 0).val; omega
  | ⟨1, _⟩ => show win1_0.index t (1 : Fin 2) * 1024 + 1 * (y 1).val = (i 1).val; omega

/-- Window 1's tile at point t is rows 1024·t … 1024·t + 1023 of its array. -/
private theorem blk_rows_b (c : Dev nD) (t : Fin cfg1.N) (y : S1024x1024.Idx) (i : S4096x1024.Idx)
    (hr : (i 0).val = 1024 * t.val + (y 0).val) (hc : (i 1).val = (y 1).val) :
    (iblk1 V c 1 t : Vec Ideal S1024x1024 .bf16) y = (V c (Pipeline.arrRef spec1 1) : S4096x1024.Idx → EReal) i := by
  obtain ⟨-, -, ea, eb, -⟩ := idx_facts t
  show V c (Pipeline.arrRef spec1 1) (((cfg1.win 1).blk t).view.emb y) = V c (Pipeline.arrRef spec1 1) i
  refine congrArg _ (funext fun a => Fin.ext ?_)
  match a with
  | ⟨0, _⟩ => show win1_1.index t (0 : Fin 2) * 1024 + 1 * (y 0).val = (i 0).val; omega
  | ⟨1, _⟩ => show win1_1.index t (1 : Fin 2) * 1024 + 1 * (y 1).val = (i 1).val; omega

/-- Window 2's tile is its whole array at every point. -/
private theorem blk_whole_c (c : Dev nD) (t : Fin cfg1.N) :
    (iblk1 V c 2 t : Vec Ideal S1024x1024 .bf16) = (V c (Pipeline.arrRef spec1 2) : S1024x1024.Idx → EReal) := by
  obtain ⟨-, -, -, -, ea, eb, -⟩ := idx_facts t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1024 + 1 * (y 0).val = (y 0).val; omega
  | ⟨1, _⟩ => show win1_2.index t (1 : Fin 2) * 1024 + 1 * (y 1).val = (y 1).val; omega

/-- Window 3's tile is its whole array at every point. -/
private theorem blk_whole_d (c : Dev nD) (t : Fin cfg1.N) :
    (iblk1 V c 3 t : Vec Ideal S1024x1024 .bf16) = (V c (Pipeline.arrRef spec1 3) : S1024x1024.Idx → EReal) := by
  obtain ⟨-, -, -, -, -, -, ea, eb, -⟩ := idx_facts t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1024 + 1 * (y 0).val = (y 0).val; omega
  | ⟨1, _⟩ => show win1_3.index t (1 : Fin 2) * 1024 + 1 * (y 1).val = (y 1).val; omega

/-- Window 4's tile is its whole one-row array at every point. -/
private theorem blk_whole_e (c : Dev nD) (t : Fin cfg1.N) :
    (iblk1 V c 4 t : Vec Ideal S1x1024 .f32) = (V c (Pipeline.arrRef spec1 4) : S1x1024.Idx → EReal) := by
  obtain ⟨-, -, -, -, -, -, -, -, ea, eb, -⟩ := idx_facts t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 1024 + 1 * (y 1).val = (y 1).val; omega

/-- What point t writes back is row tile t of the projection of the five arrays. -/
private theorem flushed_eq (c : Dev nD) (t : Fin cfg1.N) :
    (dat1 V c).flushed 5 t = ((cfg1.win 5).blk t).view.read (Elt Ideal)
      (Cert.Spec.projK (V c (Pipeline.arrRef spec1 0)) (V c (Pipeline.arrRef spec1 1)) (V c (Pipeline.arrRef spec1 2))
          (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S1024x1024) hz, View.ld_unit_zero (S := S1x1024) hz]
  obtain ⟨-, -, -, -, -, -, -, -, -, -, ea, eb⟩ := idx_facts t
  funext y
  show k1_pay1 (F := Ideal) (iblk1 V c 0 t) (iblk1 V c 1 t) (iblk1 V c 2 t) (iblk1 V c 3 t) (iblk1 V c 4 t) y
    = Cert.Spec.projK (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb y)
  have hr : ((((cfg1.win 5).blk t).view.emb y) 0).val = 1024 * t.val + (y 0).val := by
    show win1_5.index t (0 : Fin 2) * 1024 + 1 * (y 0).val = _; omega
  have hc : ((((cfg1.win 5).blk t).view.emb y) 1).val = (y 1).val := by
    show win1_5.index t (1 : Fin 2) * 1024 + 1 * (y 1).val = _; omega
  refine tile_apply (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) y (((cfg1.win 5).blk t).view.emb y)
    (fun f => blk_rows_a V c t _ _ hr rfl) (fun f => blk_rows_b V c t _ _ hr rfl)
    (blk_whole_c V c t) (blk_whole_d V c t) (blk_whole_e V c t) (Fin.ext hc.symm)

/-- An index of the output array is in point t's tile iff each coordinate is in the tile's range on its axis. -/
private theorem mem_blk (t : Fin cfg1.N) (i : S4096x1024.Idx) :
    i ∈ ((cfg1.win 5).blk t).view.set ↔ ∀ a : Fin 2, win1_5.index t a * S1024x1024.size a ≤ (i a).val
      ∧ (i a).val < win1_5.index t a * S1024x1024.size a + S1024x1024.size a := by
  show i ∈ ((View.whole (Pipeline.arrRef spec1 5)).slice (win1_5.rect t)).set ↔ _
  rw [View.set_slice_whole, Rect.mem_set_unit]
  exact Iff.rfl

/-- The four row tiles cover the output array: row r lies in the tile of point r / 1024. -/
private theorem cover (i : S4096x1024.Idx) :
    ∃ t : Fin cfg1.N, (cfg1.win 5).flush t = true ∧ i ∈ ((cfg1.win 5).blk t).view.set := by
  have hN : grid1.N = 4 := N_1
  have hr : (i 0).val < 4096 := (i 0).isLt
  have hc : (i 1).val < 1024 := (i 1).isLt
  have ht : (i 0).val / 1024 < grid1.N := by omega
  refine ⟨⟨(i 0).val / 1024, ht⟩, flush1_5 _, ?_⟩
  obtain ⟨-, -, -, -, -, -, -, -, -, -, ea, eb⟩ := idx_facts ⟨(i 0).val / 1024, ht⟩
  have ea' : win1_5.index ⟨(i 0).val / 1024, ht⟩ (0 : Fin 2) = (i 0).val / 1024 := ea
  rw [mem_blk]
  intro a
  match a with
  | ⟨0, _⟩ =>
    show win1_5.index ⟨(i 0).val / 1024, ht⟩ (0 : Fin 2) * 1024 ≤ (i 0).val
      ∧ (i 0).val < win1_5.index ⟨(i 0).val / 1024, ht⟩ (0 : Fin 2) * 1024 + 1024
    omega
  | ⟨1, _⟩ =>
    show win1_5.index ⟨(i 0).val / 1024, ht⟩ (1 : Fin 2) * 1024 ≤ (i 1).val
      ∧ (i 1).val < win1_5.index ⟨(i 0).val / 1024, ht⟩ (1 : Fin 2) * 1024 + 1024
    omega

end

theorem arr1_5 (V : (c : Dev nD) → (b : Ref sig .tc) → Buf (Elt Ideal) ((c : Thread nD τ).loc b)) (c : Dev nD) :
    (dat1 V c).arrAt 5 cfg1.N
      = Cert.Spec.projK (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed_eq V c t) cover

end Cert.KernelIdeal.Frame

end
-- ==== Proof.KIBlocks2.lean ====
/-
  Pallas call 2, the input tiles as rows of their arrays: at grid point t (query tile t / 8, key tile t % 8) the two
  query windows' tile is rows 1024·(t / 8) … of its array, the four key and value windows' tile is rows 512·(t % 8) … of
  its array, all columns; the output window's block index is (t / 8, 0).
-/
import proofs.«430703_j8426725835102_3_alg».proof.Proof.KIRegion2
import Idealize.ShloMosaic.Lib.ValueIdx
import Idealize.ShloMosaic.Lib.Pipeline.Value

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The block index of every window at every grid point: query tile t / 8, key tile t % 8, column block 0. -/
theorem index2 : ∀ t : Fin cfg2.N,
    (win2_0.index t (0 : Fin 2) = t.val / 8 ∧ win2_0.index t (1 : Fin 2) = 0)
    ∧ (win2_1.index t (0 : Fin 2) = t.val / 8 ∧ win2_1.index t (1 : Fin 2) = 0)
    ∧ (win2_2.index t (0 : Fin 2) = t.val % 8 ∧ win2_2.index t (1 : Fin 2) = 0)
    ∧ (win2_3.index t (0 : Fin 2) = t.val % 8 ∧ win2_3.index t (1 : Fin 2) = 0)
    ∧ (win2_4.index t (0 : Fin 2) = t.val % 8 ∧ win2_4.index t (1 : Fin 2) = 0)
    ∧ (win2_5.index t (0 : Fin 2) = t.val % 8 ∧ win2_5.index t (1 : Fin 2) = 0)
    ∧ (win2_6.index t (0 : Fin 2) = t.val / 8 ∧ win2_6.index t (1 : Fin 2) = 0) :=
  (by decide +kernel : ∀ t : Fin grid2.N, _)

/-- The six input arrays as the call finds them. -/
abbrev arr2_0 (c : Dev nD) : S4096x1024.Idx → EReal := V c (Pipeline.arrRef spec2 0)
abbrev arr2_1 (c : Dev nD) : S4096x1024.Idx → EReal := V c (Pipeline.arrRef spec2 1)
abbrev arr2_2 (c : Dev nD) : S4096x1024.Idx → EReal := V c (Pipeline.arrRef spec2 2)
abbrev arr2_3 (c : Dev nD) : S4096x1024.Idx → EReal := V c (Pipeline.arrRef spec2 3)
abbrev arr2_4 (c : Dev nD) : S4096x1024.Idx → EReal := V c (Pipeline.arrRef spec2 4)
abbrev arr2_5 (c : Dev nD) : S4096x1024.Idx → EReal := V c (Pipeline.arrRef spec2 5)

/-- The input tiles at point t, at their literal types. -/
abbrev tile2_0 (c : Dev nD) (t : Fin cfg2.N) : S1024x1024.Idx → EReal := iblk2 V c 0 t
abbrev tile2_1 (c : Dev nD) (t : Fin cfg2.N) : S1024x1024.Idx → EReal := iblk2 V c 1 t
abbrev tile2_2 (c : Dev nD) (t : Fin cfg2.N) : S512x1024.Idx → EReal := iblk2 V c 2 t
abbrev tile2_3 (c : Dev nD) (t : Fin cfg2.N) : S512x1024.Idx → EReal := iblk2 V c 3 t
abbrev tile2_4 (c : Dev nD) (t : Fin cfg2.N) : S512x1024.Idx → EReal := iblk2 V c 4 t
abbrev tile2_5 (c : Dev nD) (t : Fin cfg2.N) : S512x1024.Idx → EReal := iblk2 V c 5 t

/-- Query window 0: row r of the tile at point t is row 1024·(t / 8) + r of the array. -/
theorem tile2_0_apply (c : Dev nD) (t : Fin cfg2.N) (x : S1024x1024.Idx) (k : S4096x1024.Idx)
    (hk0 : (k 0).val = 1024 * (t.val / 8) + (x 0).val) (hk1 : (k 1).val = (x 1).val) :
    tile2_0 V c t x = arr2_0 V c k := by
  obtain ⟨⟨e0, e1⟩, -, -, -, -, -, -⟩ := index2 t
  unfold tile2_0 iblk2
  rw [View.read_apply]
  show V c (Pipeline.arrRef spec2 0) _ = V c (Pipeline.arrRef spec2 0) _
  congr 1
  funext a
  apply Fin.ext
  match a with
  | ⟨0, _⟩ => show win2_0.index t (0 : Fin 2) * 1024 + 1 * (x 0).val = (k 0).val; rw [e0, hk0]; omega
  | ⟨1, _⟩ => show win2_0.index t (1 : Fin 2) * 1024 + 1 * (x 1).val = (k 1).val; rw [e1, hk1]; omega

/-- Query window 1: row r of the tile at point t is row 1024·(t / 8) + r of the array. -/
theorem tile2_1_apply (c : Dev nD) (t : Fin cfg2.N) (x : S1024x1024.Idx) (k : S4096x1024.Idx)
    (hk0 : (k 0).val = 1024 * (t.val / 8) + (x 0).val) (hk1 : (k 1).val = (x 1).val) :
    tile2_1 V c t x = arr2_1 V c k := by
  obtain ⟨-, ⟨e0, e1⟩, -, -, -, -, -⟩ := index2 t
  unfold tile2_1 iblk2
  rw [View.read_apply]
  show V c (Pipeline.arrRef spec2 1) _ = V c (Pipeline.arrRef spec2 1) _
  congr 1
  funext a
  apply Fin.ext
  match a with
  | ⟨0, _⟩ => show win2_1.index t (0 : Fin 2) * 1024 + 1 * (x 0).val = (k 0).val; rw [e0, hk0]; omega
  | ⟨1, _⟩ => show win2_1.index t (1 : Fin 2) * 1024 + 1 * (x 1).val = (k 1).val; rw [e1, hk1]; omega

/-- Key/value window 2: row k of the tile at point t is row 512·(t % 8) + k of the array. -/
theorem tile2_2_apply (c : Dev nD) (t : Fin cfg2.N) (x : S512x1024.Idx) (k : S4096x1024.Idx)
    (hk0 : (k 0).val = 512 * (t.val % 8) + (x 0).val) (hk1 : (k 1).val = (x 1).val) :
    tile2_2 V c t x = arr2_2 V c k := by
  obtain ⟨-, -, ⟨e0, e1⟩, -, -, -, -⟩ := index2 t
  unfold tile2_2 iblk2
  rw [View.read_apply]
  show V c (Pipeline.arrRef spec2 2) _ = V c (Pipeline.arrRef spec2 2) _
  congr 1
  funext a
  apply Fin.ext
  match a with
  | ⟨0, _⟩ => show win2_2.index t (0 : Fin 2) * 512 + 1 * (x 0).val = (k 0).val; rw [e0, hk0]; omega
  | ⟨1, _⟩ => show win2_2.index t (1 : Fin 2) * 1024 + 1 * (x 1).val = (k 1).val; rw [e1, hk1]; omega

/-- Key/value window 3: row k of the tile at point t is row 512·(t % 8) + k of the array. -/
theorem tile2_3_apply (c : Dev nD) (t : Fin cfg2.N) (x : S512x1024.Idx) (k : S4096x1024.Idx)
    (hk0 : (k 0).val = 512 * (t.val % 8) + (x 0).val) (hk1 : (k 1).val = (x 1).val) :
    tile2_3 V c t x = arr2_3 V c k := by
  obtain ⟨-, -, -, ⟨e0, e1⟩, -, -, -⟩ := index2 t
  unfold tile2_3 iblk2
  rw [View.read_apply]
  show V c (Pipeline.arrRef spec2 3) _ = V c (Pipeline.arrRef spec2 3) _
  congr 1
  funext a
  apply Fin.ext
  match a with
  | ⟨0, _⟩ => show win2_3.index t (0 : Fin 2) * 512 + 1 * (x 0).val = (k 0).val; rw [e0, hk0]; omega
  | ⟨1, _⟩ => show win2_3.index t (1 : Fin 2) * 1024 + 1 * (x 1).val = (k 1).val; rw [e1, hk1]; omega

/-- Key/value window 4: row k of the tile at point t is row 512·(t % 8) + k of the array. -/
theorem tile2_4_apply (c : Dev nD) (t : Fin cfg2.N) (x : S512x1024.Idx) (k : S4096x1024.Idx)
    (hk0 : (k 0).val = 512 * (t.val % 8) + (x 0).val) (hk1 : (k 1).val = (x 1).val) :
    tile2_4 V c t x = arr2_4 V c k := by
  obtain ⟨-, -, -, -, ⟨e0, e1⟩, -, -⟩ := index2 t
  unfold tile2_4 iblk2
  rw [View.read_apply]
  show V c (Pipeline.arrRef spec2 4) _ = V c (Pipeline.arrRef spec2 4) _
  congr 1
  funext a
  apply Fin.ext
  match a with
  | ⟨0, _⟩ => show win2_4.index t (0 : Fin 2) * 512 + 1 * (x 0).val = (k 0).val; rw [e0, hk0]; omega
  | ⟨1, _⟩ => show win2_4.index t (1 : Fin 2) * 1024 + 1 * (x 1).val = (k 1).val; rw [e1, hk1]; omega

/-- Key/value window 5: row k of the tile at point t is row 512·(t % 8) + k of the array. -/
theorem tile2_5_apply (c : Dev nD) (t : Fin cfg2.N) (x : S512x1024.Idx) (k : S4096x1024.Idx)
    (hk0 : (k 0).val = 512 * (t.val % 8) + (x 0).val) (hk1 : (k 1).val = (x 1).val) :
    tile2_5 V c t x = arr2_5 V c k := by
  obtain ⟨-, -, -, -, -, ⟨e0, e1⟩, -⟩ := index2 t
  unfold tile2_5 iblk2
  rw [View.read_apply]
  show V c (Pipeline.arrRef spec2 5) _ = V c (Pipeline.arrRef spec2 5) _
  congr 1
  funext a
  apply Fin.ext
  match a with
  | ⟨0, _⟩ => show win2_5.index t (0 : Fin 2) * 512 + 1 * (x 0).val = (k 0).val; rw [e0, hk0]; omega
  | ⟨1, _⟩ => show win2_5.index t (1 : Fin 2) * 1024 + 1 * (x 1).val = (k 1).val; rw [e1, hk1]; omega

/-! ## The same, at indices given by coordinates -/

theorem tile2_0_ix2 (c : Dev nD) (t : Fin cfg2.N) (r : Fin 1024) (e : Fin 1024) (R : Fin 4096)
    (hR : R.val = 1024 * (t.val / 8) + r.val) :
    tile2_0 V c t (ix2 r e) = arr2_0 V c (ix2 R e) :=
  tile2_0_apply V c t (ix2 r e) (ix2 R e) hR rfl

theorem tile2_1_ix2 (c : Dev nD) (t : Fin cfg2.N) (r : Fin 1024) (e : Fin 1024) (R : Fin 4096)
    (hR : R.val = 1024 * (t.val / 8) + r.val) :
    tile2_1 V c t (ix2 r e) = arr2_1 V c (ix2 R e) :=
  tile2_1_apply V c t (ix2 r e) (ix2 R e) hR rfl

theorem tile2_2_ix2 (c : Dev nD) (t : Fin cfg2.N) (r : Fin 512) (e : Fin 1024) (R : Fin 4096)
    (hR : R.val = 512 * (t.val % 8) + r.val) :
    tile2_2 V c t (ix2 r e) = arr2_2 V c (ix2 R e) :=
  tile2_2_apply V c t (ix2 r e) (ix2 R e) hR rfl

theorem tile2_3_ix2 (c : Dev nD) (t : Fin cfg2.N) (r : Fin 512) (e : Fin 1024) (R : Fin 4096)
    (hR : R.val = 512 * (t.val % 8) + r.val) :
    tile2_3 V c t (ix2 r e) = arr2_3 V c (ix2 R e) :=
  tile2_3_apply V c t (ix2 r e) (ix2 R e) hR rfl

theorem tile2_4_ix2 (c : Dev nD) (t : Fin cfg2.N) (r : Fin 512) (e : Fin 1024) (R : Fin 4096)
    (hR : R.val = 512 * (t.val % 8) + r.val) :
    tile2_4 V c t (ix2 r e) = arr2_4 V c (ix2 R e) :=
  tile2_4_apply V c t (ix2 r e) (ix2 R e) hR rfl

theorem tile2_5_ix2 (c : Dev nD) (t : Fin cfg2.N) (r : Fin 512) (e : Fin 1024) (R : Fin 4096)
    (hR : R.val = 512 * (t.val % 8) + r.val) :
    tile2_5 V c t (ix2 r e) = arr2_5 V c (ix2 R e) :=
  tile2_5_apply V c t (ix2 r e) (ix2 R e) hR rfl

end Cert.KernelIdeal.Frame

end
-- ==== Proof.KIPieces2.lean ====
/-
  What the found pieces of the pooling kernel's three ways ARE: each scratch buffer after a grid point is one whole-tile
  store, so reading its pieces back gives the stored value — the body's named arithmetic over the point's input tiles
  and the scratch contents the point started from (the reset values at a first key tile).
-/
import proofs.«430703_j8426725835102_3_alg».proof.Proof.KIRegion2
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three scratch values a point leaves from the scratch values (m, l, a) it starts from. -/
def nextM (q0 q1 : Vec F S1024x1024 .bf16) (k0 k1 : Vec F S512x1024 .bf16) (m : Vec F S1024x1 .f32) : Vec F S1024x1 .f32 :=
  k2_pay2 (k2_pay8 q0 q1 k0 k1 m)
def nextL (q0 q1 : Vec F S1024x1024 .bf16) (k0 k1 : Vec F S512x1024 .bf16) (m l : Vec F S1024x1 .f32) : Vec F S1024x1 .f32 :=
  k2_pay11 q0 q1 k0 k1 m m l
def nextA (q0 q1 : Vec F S1024x1024 .bf16) (k0 k1 v0 v1 : Vec F S512x1024 .bf16) (m : Vec F S1024x1 .f32) (a : Vec F S1024x1024 .f32) :
    Vec F S1024x1024 .f32 :=
  k2_pay1 (k2_pay9 q0 q1 k0 k1 m m) (k2_pay10 q0 q1 k0 k1 m) v0 v1 a

/-- A whole-tile rectangle sits at offset zero along both axes. -/
theorem zero_offsets : (![0, 0] : Fin 2 → Nat) = fun _ => 0 := funext fun a => by fin_cases a <;> rfl

/-! ## First key tile: from the reset values -/
theorem quadA_m (c : Dev nD) (t : Fin cfg2.N) (h0 : cond2_0 (grid2.coords t)) (h1 : ¬cond2_1 (grid2.coords t)) :
    (quadA V c t h0 h1).2.1 = nextM (iblk2 V c 0 t) (iblk2 V c 1 t) (iblk2 V c 2 t) (iblk2 V c 3 t) (k2_pay4 (F := F)) := by
  unfold quadA
  dsimp only
  rw [View.read_writes_eq_canon _ _ _ (scover2_A_0 V c t h0 h1)]
  unfold kernelRun2_A
  dsimp only
  sl_unfold_words
  rw [View.canon_cons_unit_zero (S := S1024x1) zero_offsets]
  simp only [View.readAt_eq_ld, (hs2_0 t).read_unread, (hs2_1 t).read_unread, (hs2_2 t).read_unread, (hs2_3 t).read_unread, (hs2_4 t).read_unread, (hs2_5 t).read_unread, (Memref.isWhole_whole _).read_unread, View.readCov_unit_zero (S := S1024x1) _ zero_offsets, View.readCov_unit_zero (S := S1024x1024) _ zero_offsets, View.ld_unit_zero (S := S1024x1) zero_offsets, View.ld_unit_zero (S := S1024x1024) zero_offsets, View.ld_unit_zero (S := S512x1024) zero_offsets]
  unfold nextM
  rfl
theorem quadA_l (c : Dev nD) (t : Fin cfg2.N) (h0 : cond2_0 (grid2.coords t)) (h1 : ¬cond2_1 (grid2.coords t)) :
    (quadA V c t h0 h1).2.2.1 = nextL (iblk2 V c 0 t) (iblk2 V c 1 t) (iblk2 V c 2 t) (iblk2 V c 3 t) (k2_pay4 (F := F)) (k2_pay5 (F := F)) := by
  unfold quadA
  dsimp only
  rw [View.read_writes_eq_canon _ _ _ (scover2_A_1 V c t h0 h1)]
  unfold kernelRun2_A
  dsimp only
  sl_unfold_words
  rw [View.canon_cons_unit_zero (S := S1024x1) zero_offsets]
  simp only [View.readAt_eq_ld, (hs2_0 t).read_unread, (hs2_1 t).read_unread, (hs2_2 t).read_unread, (hs2_3 t).read_unread, (hs2_4 t).read_unread, (hs2_5 t).read_unread, (Memref.isWhole_whole _).read_unread, View.readCov_unit_zero (S := S1024x1) _ zero_offsets, View.readCov_unit_zero (S := S1024x1024) _ zero_offsets, View.ld_unit_zero (S := S1024x1) zero_offsets, View.ld_unit_zero (S := S1024x1024) zero_offsets, View.ld_unit_zero (S := S512x1024) zero_offsets]
  unfold nextL
  rfl
theorem quadA_a (c : Dev nD) (t : Fin cfg2.N) (h0 : cond2_0 (grid2.coords t)) (h1 : ¬cond2_1 (grid2.coords t)) :
    (quadA V c t h0 h1).2.2.2 = nextA (iblk2 V c 0 t) (iblk2 V c 1 t) (iblk2 V c 2 t) (iblk2 V c 3 t) (iblk2 V c 4 t) (iblk2 V c 5 t) (k2_pay4 (F := F)) (k2_pay6 (F := F)) := by
  unfold quadA
  dsimp only
  rw [View.read_writes_eq_canon _ _ _ (scover2_A_2 V c t h0 h1)]
  unfold kernelRun2_A
  dsimp only
  sl_unfold_words
  rw [View.canon_cons_unit_zero (S := S1024x1024) zero_offsets]
  simp only [View.readAt_eq_ld, (hs2_0 t).read_unread, (hs2_1 t).read_unread, (hs2_2 t).read_unread, (hs2_3 t).read_unread, (hs2_4 t).read_unread, (hs2_5 t).read_unread, (Memref.isWhole_whole _).read_unread, View.readCov_unit_zero (S := S1024x1) _ zero_offsets, View.readCov_unit_zero (S := S1024x1024) _ zero_offsets, View.ld_unit_zero (S := S1024x1) zero_offsets, View.ld_unit_zero (S := S1024x1024) zero_offsets, View.ld_unit_zero (S := S512x1024) zero_offsets]
  unfold nextA
  rfl

/-! ## Inner key tile -/
theorem quadB_m (c : Dev nD) (t : Fin cfg2.N) (h0 : ¬cond2_0 (grid2.coords t)) (h1 : ¬cond2_1 (grid2.coords t)) (xs0 xs1 : Vec F S1024x1 .f32) (xs2 : Vec F S1024x1024 .f32) :
    (quadB V c t h0 h1 xs0 xs1 xs2).2.1 = nextM (iblk2 V c 0 t) (iblk2 V c 1 t) (iblk2 V c 2 t) (iblk2 V c 3 t) xs0 := by
  unfold quadB
  dsimp only
  rw [View.read_writes_eq_canon _ _ _ (scover2_B_0 V c t h0 h1 xs0 xs1 xs2)]
  unfold kernelRun2_B
  dsimp only
  sl_unfold_words
  rw [View.canon_unit_zero (S := S1024x1) zero_offsets]
  simp only [View.readAt_eq_ld, (hs2_0 t).read_unread, (hs2_1 t).read_unread, (hs2_2 t).read_unread, (hs2_3 t).read_unread, (hs2_4 t).read_unread, (hs2_5 t).read_unread, (Memref.isWhole_whole _).read_unread, View.readCov_unit_zero (S := S1024x1) _ zero_offsets, View.readCov_unit_zero (S := S1024x1024) _ zero_offsets, View.ld_unit_zero (S := S1024x1) zero_offsets, View.ld_unit_zero (S := S1024x1024) zero_offsets, View.ld_unit_zero (S := S512x1024) zero_offsets]
  unfold nextM
  rfl
theorem quadB_l (c : Dev nD) (t : Fin cfg2.N) (h0 : ¬cond2_0 (grid2.coords t)) (h1 : ¬cond2_1 (grid2.coords t)) (xs0 xs1 : Vec F S1024x1 .f32) (xs2 : Vec F S1024x1024 .f32) :
    (quadB V c t h0 h1 xs0 xs1 xs2).2.2.1 = nextL (iblk2 V c 0 t) (iblk2 V c 1 t) (iblk2 V c 2 t) (iblk2 V c 3 t) xs0 xs1 := by
  unfold quadB
  dsimp only
  rw [View.read_writes_eq_canon _ _ _ (scover2_B_1 V c t h0 h1 xs0 xs1 xs2)]
  unfold kernelRun2_B
  dsimp only
  sl_unfold_words
  rw [View.canon_unit_zero (S := S1024x1) zero_offsets]
  simp only [View.readAt_eq_ld, (hs2_0 t).read_unread, (hs2_1 t).read_unread, (hs2_2 t).read_unread, (hs2_3 t).read_unread, (hs2_4 t).read_unread, (hs2_5 t).read_unread, (Memref.isWhole_whole _).read_unread, View.readCov_unit_zero (S := S1024x1) _ zero_offsets, View.readCov_unit_zero (S := S1024x1024) _ zero_offsets, View.ld_unit_zero (S := S1024x1) zero_offsets, View.ld_unit_zero (S := S1024x1024) zero_offsets, View.ld_unit_zero (S := S512x1024) zero_offsets]
  unfold nextL
  rfl
theorem quadB_a (c : Dev nD) (t : Fin cfg2.N) (h0 : ¬cond2_0 (grid2.coords t)) (h1 : ¬cond2_1 (grid2.coords t)) (xs0 xs1 : Vec F S1024x1 .f32) (xs2 : Vec F S1024x1024 .f32) :
    (quadB V c t h0 h1 xs0 xs1 xs2).2.2.2 = nextA (iblk2 V c 0 t) (iblk2 V c 1 t) (iblk2 V c 2 t) (iblk2 V c 3 t) (iblk2 V c 4 t) (iblk2 V c 5 t) xs0 xs2 := by
  unfold quadB
  dsimp only
  rw [View.read_writes_eq_canon _ _ _ (scover2_B_2 V c t h0 h1 xs0 xs1 xs2)]
  unfold kernelRun2_B
  dsimp only
  sl_unfold_words
  rw [View.canon_unit_zero (S := S1024x1024) zero_offsets]
  simp only [View.readAt_eq_ld, (hs2_0 t).read_unread, (hs2_1 t).read_unread, (hs2_2 t).read_unread, (hs2_3 t).read_unread, (hs2_4 t).read_unread, (hs2_5 t).read_unread, (Memref.isWhole_whole _).read_unread, View.readCov_unit_zero (S := S1024x1) _ zero_offsets, View.readCov_unit_zero (S := S1024x1024) _ zero_offsets, View.ld_unit_zero (S := S1024x1) zero_offsets, View.ld_unit_zero (S := S1024x1024) zero_offsets, View.ld_unit_zero (S := S512x1024) zero_offsets]
  unfold nextA
  rfl

/-! ## Last key tile: the same update, then the output tile -/
theorem quadC_m (c : Dev nD) (t : Fin cfg2.N) (h0 : ¬cond2_0 (grid2.coords t)) (h1 : cond2_1 (grid2.coords t)) (xs0 xs1 : Vec F S1024x1 .f32) (xs2 : Vec F S1024x1024 .f32) :
    (quadC V c t h0 h1 xs0 xs1 xs2).2.1 = nextM (iblk2 V c 0 t) (iblk2 V c 1 t) (iblk2 V c 2 t) (iblk2 V c 3 t) xs0 := by
  unfold quadC
  dsimp only
  rw [View.read_writes_eq_canon _ _ _ (scover2_C_0 V c t h0 h1 xs0 xs1 xs2)]
  unfold kernelRun2_C
  dsimp only
  sl_unfold_words
  rw [View.canon_unit_zero (S := S1024x1) zero_offsets]
  simp only [View.readAt_eq_ld, (hs2_0 t).read_unread, (hs2_1 t).read_unread, (hs2_2 t).read_unread, (hs2_3 t).read_unread, (hs2_4 t).read_unread, (hs2_5 t).read_unread, (Memref.isWhole_whole _).read_unread, View.readCov_unit_zero (S := S1024x1) _ zero_offsets, View.readCov_unit_zero (S := S1024x1024) _ zero_offsets, View.ld_unit_zero (S := S1024x1) zero_offsets, View.ld_unit_zero (S := S1024x1024) zero_offsets, View.ld_unit_zero (S := S512x1024) zero_offsets]
  unfold nextM
  rfl
theorem quadC_l (c : Dev nD) (t : Fin cfg2.N) (h0 : ¬cond2_0 (grid2.coords t)) (h1 : cond2_1 (grid2.coords t)) (xs0 xs1 : Vec F S1024x1 .f32) (xs2 : Vec F S1024x1024 .f32) :
    (quadC V c t h0 h1 xs0 xs1 xs2).2.2.1 = nextL (iblk2 V c 0 t) (iblk2 V c 1 t) (iblk2 V c 2 t) (iblk2 V c 3 t) xs0 xs1 := by
  unfold quadC
  dsimp only
  rw [View.read_writes_eq_canon _ _ _ (scover2_C_1 V c t h0 h1 xs0 xs1 xs2)]
  unfold kernelRun2_C
  dsimp only
  sl_unfold_words
  rw [View.canon_unit_zero (S := S1024x1) zero_offsets]
  simp only [View.readAt_eq_ld, (hs2_0 t).read_unread, (hs2_1 t).read_unread, (hs2_2 t).read_unread, (hs2_3 t).read_unread, (hs2_4 t).read_unread, (hs2_5 t).read_unread, (Memref.isWhole_whole _).read_unread, View.readCov_unit_zero (S := S1024x1) _ zero_offsets, View.readCov_unit_zero (S := S1024x1024) _ zero_offsets, View.ld_unit_zero (S := S1024x1) zero_offsets, View.ld_unit_zero (S := S1024x1024) zero_offsets, View.ld_unit_zero (S := S512x1024) zero_offsets]
  unfold nextL
  rfl
theorem quadC_a (c : Dev nD) (t : Fin cfg2.N) (h0 : ¬cond2_0 (grid2.coords t)) (h1 : cond2_1 (grid2.coords t)) (xs0 xs1 : Vec F S1024x1 .f32) (xs2 : Vec F S1024x1024 .f32) :
    (quadC V c t h0 h1 xs0 xs1 xs2).2.2.2 = nextA (iblk2 V c 0 t) (iblk2 V c 1 t) (iblk2 V c 2 t) (iblk2 V c 3 t) (iblk2 V c 4 t) (iblk2 V c 5 t) xs0 xs2 := by
  unfold quadC
  dsimp only
  rw [View.read_writes_eq_canon _ _ _ (scover2_C_2 V c t h0 h1 xs0 xs1 xs2)]
  unfold kernelRun2_C
  dsimp only
  sl_unfold_words
  rw [View.canon_unit_zero (S := S1024x1024) zero_offsets]
  simp only [View.readAt_eq_ld, (hs2_0 t).read_unread, (hs2_1 t).read_unread, (hs2_2 t).read_unread, (hs2_3 t).read_unread, (hs2_4 t).read_unread, (hs2_5 t).read_unread, (Memref.isWhole_whole _).read_unread, View.readCov_unit_zero (S := S1024x1) _ zero_offsets, View.readCov_unit_zero (S := S1024x1024) _ zero_offsets, View.ld_unit_zero (S := S1024x1) zero_offsets, View.ld_unit_zero (S := S1024x1024) zero_offsets, View.ld_unit_zero (S := S512x1024) zero_offsets]
  unfold nextA
  rfl
theorem quadC_out (c : Dev nD) (t : Fin cfg2.N) (h0 : ¬cond2_0 (grid2.coords t)) (h1 : cond2_1 (grid2.coords t)) (xs0 xs1 : Vec F S1024x1 .f32) (xs2 : Vec F S1024x1024 .f32) :
    (quadC V c t h0 h1 xs0 xs1 xs2).1
      = k2_pay3 (nextA (iblk2 V c 0 t) (iblk2 V c 1 t) (iblk2 V c 2 t) (iblk2 V c 3 t) (iblk2 V c 4 t) (iblk2 V c 5 t) xs0 xs2) (nextL (iblk2 V c 0 t) (iblk2 V c 1 t) (iblk2 V c 2 t) (iblk2 V c 3 t) xs0 xs1) := by
  unfold quadC
  dsimp only
  rw [View.read_writes_eq_canon _ _ _ (cover2_C_6 V c t h0 h1 xs0 xs1 xs2)]
  unfold kernelRun2_C
  dsimp only
  sl_unfold_words
  rw [View.canon_unit_zero (S := S1024x1024) zero_offsets]
  simp only [View.readAt_eq_ld, (hs2_0 t).read_unread, (hs2_1 t).read_unread, (hs2_2 t).read_unread, (hs2_3 t).read_unread, (hs2_4 t).read_unread, (hs2_5 t).read_unread, (Memref.isWhole_whole _).read_unread, View.readCov_unit_zero (S := S1024x1) _ zero_offsets, View.readCov_unit_zero (S := S1024x1024) _ zero_offsets, View.ld_unit_zero (S := S1024x1) zero_offsets, View.ld_unit_zero (S := S1024x1024) zero_offsets, View.ld_unit_zero (S := S512x1024) zero_offsets]
  unfold nextA nextL
  rfl

end Cert.KernelIdeal.Frame

end
-- ==== Proof.LibDotNT.lean ====
/-
  A matrix product with both operands contracted along their second axis, read at an index.

  For a contraction of an M×K matrix with an N×K matrix, the left operand's axis 1 against the right operand's axis 1
  (no batch axes), the entry at row r and column c is the sum over k of A[r, k] · B[c, k]: the product of A with the
  transpose of B. This holds for the kernel's matrix product into a zero accumulator and for the host's dot product
  alike, on the extended reals, and it is stated for ANY dimension-number record with those axis lists, so that each
  printed record is an instance by reflexivity of its lists.
-/
import Idealize.ShloMosaic.Lib.ValueIdx
import Idealize.ShloMosaic.PureOps.Ideal.Laws

noncomputable section

namespace DotNT

open Idealize.ShloMosaic Idealize.ShloMosaic.ValueIdx

variable {M K N : Nat} {φ₁ φ₂ : FTy}

/-- The axis lists of a product with the right operand transposed. -/
structure IsNT (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable (d : DotDims ⟨2, ![M, K]⟩ ⟨2, ![N, K]⟩ ⟨2, ![M, N]⟩) (hd : IsNT d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row `c`, column the contraction coordinate. -/
theorem rhsIdx_eq (r : Fin M) (c : Fin N) (k : Fin K) :
    d.rhsIdx (ix2 r c) ((contrEquiv1 d K (contr_rank d hd) (contr_size d hd)).symm k) = ix2 c k := by
  funext a
  apply Fin.ext
  match a with
  | ⟨0, _⟩ =>
    show (d.rhsIdx (ix2 r c) _ (0 : Fin 2)).val = c.val
    unfold DotDims.rhsIdx
    have hb : (0 : Fin 2) ∉ d.rhsBatch := by rw [hd.rb]; exact List.not_mem_nil
    have hn : (0 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])
  | ⟨1, _⟩ =>
    show (d.rhsIdx (ix2 r c) _ (1 : Fin 2)).val = k.val
    rw [d.rhsIdx_val_of_single hd.rc]
    exact contrEquiv1_symm_val d K (contr_rank d hd) (contr_size d hd) k

/-- The contraction sum, re-indexed by the shared axis's coordinate. -/
theorem sum_eq (A : (⟨2, ![M, K]⟩ : Shape).Idx → EReal) (B : (⟨2, ![N, K]⟩ : Shape).Idx → EReal) (r : Fin M) (c : Fin N) :
    (∑ q : d.contr.Idx, A (d.lhsIdx (ix2 r c) q) * B (d.rhsIdx (ix2 r c) q)) = ∑ k : Fin K, A (ix2 r k) * B (ix2 c k) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![N, K]⟩ φ₂)
    (r : Fin M) (c : Fin N) :
    FloatOps.matmul d prec A B (constant ⟨2, ![M, N]⟩ .f32 0x00000000#32) (ix2 r c) = ∑ k : Fin K, A (ix2 r k) * B (ix2 c k) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![N, K]⟩ φ₂) (r : Fin M) (c : Fin N) :
    FloatOps.dotGeneral d prec sched A B (ix2 r c) = ∑ k : Fin K, A (ix2 r k) * B (ix2 c k) := by
  rw [Ideal.dotGeneral_apply]
  exact sum_eq d hd A B r c

end DotNT

end
-- ==== Proof.KIStep2.lean ====
/-
  One grid point of the pooling kernel as arithmetic on extended reals: the body's named values read at an entry.
  For query row r of the tile and key row k of the key tile the logit is the three-product sum over the feature axis;
  the new row offset is the maximum of the old one and the tile's row maximum; the denominator and the numerator are
  rescaled by exp (old offset − new offset) and gain the tile's exp (logit − new offset) terms; the output entry is
  numerator over denominator. Together: one step of the running softmax (FlashSoftmax.step) per row and output column.
-/
import proofs.«430703_j8426725835102_3_alg».proof.Proof.Gen.KernelIdeal.Skeleton
import proofs.«430703_j8426725835102_3_alg».proof.Proof.LibFlash
import proofs.«430703_j8426725835102_3_alg».proof.Proof.LibPlainDot
import proofs.«430703_j8426725835102_3_alg».proof.Proof.LibDotNT
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-- The logit of query row r (of the query tile) against key row k (of the key tile). -/
def sT (q0 q1 : FVec Ideal S1024x1024 .bf16) (k0 k1 : FVec Ideal S512x1024 .bf16) (r : Fin 1024) (k : Fin 512) : EReal :=
  ((∑ e : Fin 1024, q0 (ix2 r e) * k0 (ix2 k e)) + (∑ e : Fin 1024, q0 (ix2 r e) * k1 (ix2 k e)))
    + (∑ e : Fin 1024, q1 (ix2 r e) * k0 (ix2 k e))

section Layout
variable {α : Type}

/-- An [a] array cast to [a, 1] reads, at (i, u), the operand at i, whatever the unit coordinate u. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The f32 pattern of −∞ is the bottom of the extended reals. -/
private theorem ofBits_ninf_f32 : Ideal.ofBits .f32 0xFF800000#32 = ⊥ := by simp [Ideal.ofBits, Ideal.ieee]

/-- The index over row r with coordinate k inserted on the reduced axis is (r, k). -/
private theorem lift_row (r : Fin 1024) (k : Fin 512) :
    (reduces_S1024x512_S1024.lift (ix1 r) k : S1024x512.Idx) = ix2 r k :=
  funext fun a => Fin.ext (by match a with | ⟨0, _⟩ => rfl | ⟨1, _⟩ => rfl)

/-- The row maximum of a [1024, 512] array, from −∞. -/
private theorem rowMax_apply (src : FVec Ideal S1024x512 .f32) (hφ : FKind.Formats .f32)
    (hacc : (0xFF800000#32 : BitVec 32) = FKind.maximumf.neutral .f32 hφ) (r : Fin 1024) :
    multiReduction (F := Ideal) .maximumf [1] S1024 src 0xFF800000#32 reduces_S1024x512_S1024 hφ hacc (ix1 r)
      = Finset.univ.fold max (⊥ : EReal) (fun k : Fin 512 => src (ix2 r k)) := by
  refine (Ideal.multiReduction_maximumf_single src 0xFF800000#32 reduces_S1024x512_S1024 hφ hacc (ix1 r)).trans ?_
  show (Finset.univ : Finset (Fin 512)).fold max (Ideal.ofBits .f32 0xFF800000#32)
      (fun k : Fin 512 => src (reduces_S1024x512_S1024.lift (ix1 r) k)) = _
  rw [ofBits_ninf_f32]
  exact congrArg (fun f => (Finset.univ : Finset (Fin 512)).fold max (⊥ : EReal) f)
    (funext fun k => congrArg src (lift_row r k))

/-- The row sum of a [1024, 512] array. -/
private theorem rowSum_apply (src : FVec Ideal S1024x512 .f32) (hφ : FKind.Formats .f32)
    (hacc : (0x00000000#32 : BitVec 32) = FKind.add.neutral .f32 hφ) (r : Fin 1024) :
    multiReduction (F := Ideal) .add [1] S1024 src 0x00000000#32 reduces_S1024x512_S1024 hφ hacc (ix1 r)
      = ∑ k : Fin 512, src (ix2 r k) := by
  refine (Ideal.multiReduction_add_single src 0x00000000#32 reduces_S1024x512_S1024 hφ hacc (ix1 r)).trans ?_
  show ∑ k : Fin 512, src (reduces_S1024x512_S1024.lift (ix1 r) k) = _
  exact Finset.sum_congr rfl fun k _ => congrArg src (lift_row r k)

private theorem isNT_qk : DotNT.IsNT (M := 1024) (K := 1024) (N := 512) dot_S1024x1024_S512x1024_S1024x512_1_1_0_0_n_n := ⟨rfl, rfl, rfl, rfl, rfl, rfl⟩
private theorem isPlain_pv : PlainDot.IsPlain (M := 1024) (K := 512) (N := 1024) dot_S1024x512_S512x1024_S1024x1024_1_0_0_1_n_n := ⟨rfl, rfl, rfl, rfl, rfl, rfl⟩

/-- The reset values: offset −∞, denominator 0, numerator 0. -/
theorem pay4_apply (r : Fin 1024) : ((k2_pay4 (F := Ideal)) (ix2 r (0 : Fin 1)) : EReal) = ⊥ := by
  unfold k2_pay4
  rw [shapeCast_self]
  exact ofBits_ninf_f32
theorem pay5_apply (r : Fin 1024) : ((k2_pay5 (F := Ideal)) (ix2 r (0 : Fin 1)) : EReal) = 0 := by
  unfold k2_pay5
  rw [shapeCast_self]
  exact Ideal.ofBits_zero_f32
theorem pay6_apply (r d : Fin 1024) : ((k2_pay6 (F := Ideal)) (ix2 r d) : EReal) = 0 := by
  unfold k2_pay6
  rw [shapeCast_self]
  exact Ideal.ofBits_zero_f32

/-- The logits tile at (r, k): the three products over the feature axis. -/
private theorem pay7_apply (q0 q1 : FVec Ideal S1024x1024 .bf16) (k0 k1 : FVec Ideal S512x1024 .bf16) (r : Fin 1024) (k : Fin 512) :
    k2_pay7 (F := Ideal) q0 q1 k0 k1 (ix2 r k) = sT q0 q1 k0 k1 r k := by
  unfold k2_pay7
  rw [shapeCast_self, shapeCast_self, shapeCast_self, shapeCast_self]
  show (FloatOps.matmul dot_S1024x1024_S512x1024_S1024x512_1_1_0_0_n_n none q0 k0 (constant ⟨2, ![1024, 512]⟩ .f32 0x00000000#32) (ix2 r k)
      + FloatOps.matmul dot_S1024x1024_S512x1024_S1024x512_1_1_0_0_n_n none q0 k1 (constant ⟨2, ![1024, 512]⟩ .f32 0x00000000#32) (ix2 r k))
      + FloatOps.matmul dot_S1024x1024_S512x1024_S1024x512_1_1_0_0_n_n none q1 k0 (constant ⟨2, ![1024, 512]⟩ .f32 0x00000000#32) (ix2 r k) = _
  rw [DotNT.matmul_zero_apply _ isNT_qk, DotNT.matmul_zero_apply _ isNT_qk, DotNT.matmul_zero_apply _ isNT_qk]
  rfl

/-- The new row offset: the old one against the tile's row maximum. -/
private theorem pay8_apply (q0 q1 : FVec Ideal S1024x1024 .bf16) (k0 k1 : FVec Ideal S512x1024 .bf16) (m : FVec Ideal S1024x1 .f32)
    (r : Fin 1024) :
    k2_pay8 (F := Ideal) q0 q1 k0 k1 m (ix2 r (0 : Fin 1))
      = max (m (ix2 r (0 : Fin 1))) (Finset.univ.fold max ⊥ (sT q0 q1 k0 k1 r)) := by
  unfold k2_pay8
  rw [maximumf_apply, shapeCast_a_a1_apply]
  refine congrArg (max (m (ix2 r (0 : Fin 1)))) ?_
  refine (rowMax_apply _ _ _ r).trans ?_
  exact congrArg (fun f => (Finset.univ : Finset (Fin 512)).fold max (⊥ : EReal) f)
    (funext fun k => pay7_apply q0 q1 k0 k1 r k)

/-- The rescaling factor exp (old offset − new offset). -/
private theorem pay9_apply (q0 q1 : FVec Ideal S1024x1024 .bf16) (k0 k1 : FVec Ideal S512x1024 .bf16) (m m' : FVec Ideal S1024x1 .f32)
    (i : S1024x1.Idx) :
    k2_pay9 (F := Ideal) q0 q1 k0 k1 m m' i = Ideal.exp (m' i - k2_pay8 (F := Ideal) q0 q1 k0 k1 m i) := rfl

/-- The tile's weights exp (logit − new offset). -/
private theorem pay10_apply (q0 q1 : FVec Ideal S1024x1024 .bf16) (k0 k1 : FVec Ideal S512x1024 .bf16) (m : FVec Ideal S1024x1 .f32)
    (r : Fin 1024) (k : Fin 512) :
    k2_pay10 (F := Ideal) q0 q1 k0 k1 m (ix2 r k)
      = Ideal.exp (sT q0 q1 k0 k1 r k - k2_pay8 (F := Ideal) q0 q1 k0 k1 m (ix2 r (0 : Fin 1))) := by
  unfold k2_pay10
  show Ideal.exp (k2_pay7 (F := Ideal) q0 q1 k0 k1 (ix2 r k)
      - broadcastTo S1024x512 (k2_pay8 (F := Ideal) q0 q1 k0 k1 m) broadcasts_S1024x1_S1024x512 (ix2 r k)) = _
  rw [broadcastTo_a1_ab_apply, pay7_apply]

/-- The new denominator: the old one rescaled plus the tile's row sum of weights. -/
private theorem pay11_apply (q0 q1 : FVec Ideal S1024x1024 .bf16) (k0 k1 : FVec Ideal S512x1024 .bf16) (m m' l : FVec Ideal S1024x1 .f32)
    (r : Fin 1024) :
    k2_pay11 (F := Ideal) q0 q1 k0 k1 m m' l (ix2 r (0 : Fin 1))
      = k2_pay9 (F := Ideal) q0 q1 k0 k1 m m' (ix2 r (0 : Fin 1)) * l (ix2 r (0 : Fin 1))
        + ∑ k : Fin 512, k2_pay10 (F := Ideal) q0 q1 k0 k1 m (ix2 r k) := by
  unfold k2_pay11
  rw [shapeCast_self, addf_apply, mulf_apply, shapeCast_a_a1_apply]
  exact congrArg (k2_pay9 (F := Ideal) q0 q1 k0 k1 m m' (ix2 r (0 : Fin 1)) * l (ix2 r (0 : Fin 1)) + ·)
    (rowSum_apply _ _ _ r)

/-- The new numerator: the old one rescaled plus the weights against the two value tiles. -/
private theorem pay1_apply (f : FVec Ideal S1024x1 .f32) (p : FVec Ideal S1024x512 .f32) (v0 v1 : FVec Ideal S512x1024 .bf16)
    (acc : FVec Ideal S1024x1024 .f32) (r d : Fin 1024) :
    k2_pay1 (F := Ideal) f p v0 v1 acc (ix2 r d)
      = f (ix2 r (0 : Fin 1)) * acc (ix2 r d)
        + ((∑ k : Fin 512, p (ix2 r k) * v0 (ix2 k d)) + (∑ k : Fin 512, p (ix2 r k) * v1 (ix2 k d))) := by
  unfold k2_pay1
  rw [shapeCast_self, shapeCast_self, shapeCast_self]
  show broadcastTo S1024x1024 f broadcasts_S1024x1_S1024x1024 (ix2 r d) * acc (ix2 r d)
      + (FloatOps.matmul dot_S1024x512_S512x1024_S1024x1024_1_0_0_1_n_n none (truncf .bf16 p bitsLt_bf16_f32) v0
            (constant ⟨2, ![1024, 1024]⟩ .f32 0x00000000#32) (ix2 r d)
        + FloatOps.matmul dot_S1024x512_S512x1024_S1024x1024_1_0_0_1_n_n none (truncf .bf16 p bitsLt_bf16_f32) v1
            (constant ⟨2, ![1024, 1024]⟩ .f32 0x00000000#32) (ix2 r d)) = _
  rw [broadcastTo_a1_ab_apply, PlainDot.matmul_zero_apply _ isPlain_pv, PlainDot.matmul_zero_apply _ isPlain_pv]
  rfl

/-- One point's update of (offset, denominator, numerator) at row r and output column d is one running-softmax step. -/
theorem pay_step (q0 q1 : FVec Ideal S1024x1024 .bf16) (k0 k1 v0 v1 : FVec Ideal S512x1024 .bf16)
    (m l : FVec Ideal S1024x1 .f32) (acc : FVec Ideal S1024x1024 .f32) (r d : Fin 1024) :
    ((k2_pay2 (F := Ideal) (k2_pay8 (F := Ideal) q0 q1 k0 k1 m) (ix2 r (0 : Fin 1)), k2_pay11 (F := Ideal) q0 q1 k0 k1 m m l (ix2 r (0 : Fin 1)),
      k2_pay1 (F := Ideal) (k2_pay9 (F := Ideal) q0 q1 k0 k1 m m) (k2_pay10 (F := Ideal) q0 q1 k0 k1 m) v0 v1 acc (ix2 r d)) : EReal × EReal × EReal)
    = FlashSoftmax.step (sT q0 q1 k0 k1 r) (fun k => v0 (ix2 k d)) (fun k => v1 (ix2 k d))
        (m (ix2 r (0 : Fin 1)), l (ix2 r (0 : Fin 1)), acc (ix2 r d)) := by
  have h8 := pay8_apply q0 q1 k0 k1 m r
  have h2 : k2_pay2 (F := Ideal) (k2_pay8 (F := Ideal) q0 q1 k0 k1 m) (ix2 r (0 : Fin 1))
      = max (m (ix2 r (0 : Fin 1))) (Finset.univ.fold max ⊥ (sT q0 q1 k0 k1 r)) := by
    unfold k2_pay2
    rw [shapeCast_self]
    exact h8
  have h10 : ∀ k : Fin 512, k2_pay10 (F := Ideal) q0 q1 k0 k1 m (ix2 r k)
      = Ideal.exp (sT q0 q1 k0 k1 r k - max (m (ix2 r (0 : Fin 1))) (Finset.univ.fold max ⊥ (sT q0 q1 k0 k1 r))) := by
    intro k
    rw [pay10_apply, h8]
  have h9 : k2_pay9 (F := Ideal) q0 q1 k0 k1 m m (ix2 r (0 : Fin 1))
      = Ideal.exp (m (ix2 r (0 : Fin 1)) - max (m (ix2 r (0 : Fin 1))) (Finset.univ.fold max ⊥ (sT q0 q1 k0 k1 r))) := by
    rw [pay9_apply, h8]
  have h11 : k2_pay11 (F := Ideal) q0 q1 k0 k1 m m l (ix2 r (0 : Fin 1))
      = Ideal.exp (m (ix2 r (0 : Fin 1)) - max (m (ix2 r (0 : Fin 1))) (Finset.univ.fold max ⊥ (sT q0 q1 k0 k1 r))) * l (ix2 r (0 : Fin 1))
        + ∑ k : Fin 512, Ideal.exp (sT q0 q1 k0 k1 r k - max (m (ix2 r (0 : Fin 1))) (Finset.univ.fold max ⊥ (sT q0 q1 k0 k1 r))) := by
    rw [pay11_apply, h9]
    exact congrArg (_ + ·) (Finset.sum_congr rfl fun k _ => h10 k)
  have h1 : k2_pay1 (F := Ideal) (k2_pay9 (F := Ideal) q0 q1 k0 k1 m m) (k2_pay10 (F := Ideal) q0 q1 k0 k1 m) v0 v1 acc (ix2 r d)
      = Ideal.exp (m (ix2 r (0 : Fin 1)) - max (m (ix2 r (0 : Fin 1))) (Finset.univ.fold max ⊥ (sT q0 q1 k0 k1 r))) * acc (ix2 r d)
        + ((∑ k : Fin 512, Ideal.exp (sT q0 q1 k0 k1 r k - max (m (ix2 r (0 : Fin 1))) (Finset.univ.fold max ⊥ (sT q0 q1 k0 k1 r))) * v0 (ix2 k d))
          + (∑ k : Fin 512, Ideal.exp (sT q0 q1 k0 k1 r k - max (m (ix2 r (0 : Fin 1))) (Finset.univ.fold max ⊥ (sT q0 q1 k0 k1 r))) * v1 (ix2 k d))) := by
    rw [pay1_apply, h9]
    simp only [h10]
  rw [h2, h11, h1]
  rfl

/-- The output entry: numerator over denominator. -/
theorem pay3_apply (acc : FVec Ideal S1024x1024 .f32) (l : FVec Ideal S1024x1 .f32) (r d : Fin 1024) :
    (k2_pay3 (F := Ideal) acc l (ix2 r d) : EReal) = Ideal.div (acc (ix2 r d)) (l (ix2 r (0 : Fin 1))) := by
  unfold k2_pay3
  rw [divf_apply, broadcastTo_a1_ab_apply]

end Cert.KernelIdeal.Frame

end
-- ==== Proof.KIState2.lean ====
/-
  Pallas call 2, the carried scratch state as the running softmax: at grid point t = 8·i + j, row r of the query tile
  and output column d, the scratch buffers hold (offset, denominator, numerator) of the running softmax after key tiles
  0 … j, for row 1024·i + r of the query arrays against the key and value arrays' rows, tile by tile. By induction on the
  point: a first key tile starts from the reset state (−∞, 0, 0), any other continues from the point before.
-/
import proofs.«430703_j8426725835102_3_alg».proof.Proof.KIBlocks2
import proofs.«430703_j8426725835102_3_alg».proof.Proof.KIPieces2
import proofs.«430703_j8426725835102_3_alg».proof.Proof.KIStep2
import proofs.«430703_j8426725835102_3_alg».proof.Proof.SpecK

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- Row r of query tile i, as a row of the array. -/
abbrev qrow (i : ℕ) (r : Fin 1024) : Fin 4096 := ⟨(1024 * i + r.val) % 4096, Nat.mod_lt _ (by norm_num)⟩

/-! ## One point's update, over tiles of literal types -/

/-- The three scratch values a point leaves, read at row r and column d, are one running-softmax step from the three it started from. -/
theorem next_step (q0 q1 : FVec Ideal S1024x1024 .bf16) (k0 k1 v0 v1 : FVec Ideal S512x1024 .bf16)
    (m l : FVec Ideal S1024x1 .f32) (a : FVec Ideal S1024x1024 .f32) (r d : Fin 1024) :
    ((nextM (F := Ideal) q0 q1 k0 k1 m (ix2 r (0 : Fin 1)), nextL (F := Ideal) q0 q1 k0 k1 m l (ix2 r (0 : Fin 1)),
      nextA (F := Ideal) q0 q1 k0 k1 v0 v1 m a (ix2 r d)) : EReal × EReal × EReal)
    = FlashSoftmax.step (sT q0 q1 k0 k1 r) (fun k => v0 (ix2 k d)) (fun k => v1 (ix2 k d))
        (m (ix2 r (0 : Fin 1)), l (ix2 r (0 : Fin 1)), a (ix2 r d)) :=
  pay_step q0 q1 k0 k1 v0 v1 m l a r d

/-- The tile logit is the array logit, when the tiles' rows are the arrays' rows R and K. -/
theorem sT_eq_scoreK (q0 q1 : S1024x1024.Idx → EReal) (k0 k1 : S512x1024.Idx → EReal) (A0 A1 A2 A3 : S4096x1024.Idx → EReal)
    (r : Fin 1024) (k : Fin 512) (R K : Fin 4096)
    (h0 : ∀ e, q0 (ix2 r e) = A0 (ix2 R e)) (h1 : ∀ e, q1 (ix2 r e) = A1 (ix2 R e))
    (h2 : ∀ e, k0 (ix2 k e) = A2 (ix2 K e)) (h3 : ∀ e, k1 (ix2 k e) = A3 (ix2 K e)) :
    sT q0 q1 k0 k1 r k = Cert.Spec.scoreK A0 A1 A2 A3 R K := by
  unfold sT Cert.Spec.scoreK
  simp only [h0, h1, h2, h3]

/-! ## The scratch state at a point -/

/-- (offset, denominator, numerator) at row r, column d after point n. -/
def st2 (c : Dev nD) (n : ℕ) (hn : n < cfg2.N) (r d : Fin 1024) : EReal × EReal × EReal :=
  (((outsAt2 V c n hn).2.1 : S1024x1.Idx → EReal) (ix2 r (0 : Fin 1)), ((outsAt2 V c n hn).2.2.1 : S1024x1.Idx → EReal) (ix2 r (0 : Fin 1)),
    ((outsAt2 V c n hn).2.2.2 : S1024x1024.Idx → EReal) (ix2 r d))

/-- A first key tile: one step from the reset state. -/
theorem st2_first (c : Dev nD) (t : Fin cfg2.N) (h0 : t.val % 8 = 0) (r d : Fin 1024) :
    st2 V c t.val t.isLt r d
      = FlashSoftmax.step (sT (tile2_0 V c t) (tile2_1 V c t) (tile2_2 V c t) (tile2_3 V c t) r)
          (fun k => tile2_4 V c t (ix2 k d)) (fun k => tile2_5 V c t (ix2 k d)) (⊥, 0, 0) := by
  have h1 : ¬t.val % 8 = 7 := by omega
  unfold st2
  rw [outsAt2_A V c t h0 h1, quadA_m, quadA_l, quadA_a]
  refine (next_step _ _ _ _ _ _ _ _ _ r d).trans ?_
  rw [pay4_apply, pay5_apply, pay6_apply]

/-- Any other key tile: one step from the state the point before left. -/
theorem st2_next (c : Dev nD) (t : Fin cfg2.N) (h0 : ¬t.val % 8 = 0) (r d : Fin 1024) :
    st2 V c t.val t.isLt r d
      = FlashSoftmax.step (sT (tile2_0 V c t) (tile2_1 V c t) (tile2_2 V c t) (tile2_3 V c t) r)
          (fun k => tile2_4 V c t (ix2 k d)) (fun k => tile2_5 V c t (ix2 k d))
          (st2 V c (t.val - 1) (Nat.lt_of_le_of_lt (Nat.sub_le _ _) t.isLt) r d) := by
  unfold st2
  by_cases h1 : t.val % 8 = 7
  · rw [outsAt2_C V c t h0 h1, quadC_m, quadC_l, quadC_a]
    exact next_step _ _ _ _ _ _ _ _ _ r d
  · rw [outsAt2_B V c t h0 h1, quadB_m, quadB_l, quadB_a]
    exact next_step _ _ _ _ _ _ _ _ _ r d

/-! ## The tiles at a point as rows of the arrays -/

/-- At point t the tile logits of row r are the array logits of row 1024·(t / 8) + r against the rows of key tile t % 8. -/
theorem sT_tiles (c : Dev nD) (t : Fin cfg2.N) (r : Fin 1024) :
    sT (tile2_0 V c t) (tile2_1 V c t) (tile2_2 V c t) (tile2_3 V c t) r
      = fun k => Cert.Spec.scoreK (arr2_0 V c) (arr2_1 V c) (arr2_2 V c) (arr2_3 V c) (qrow (t.val / 8) r) (Cert.Spec.col (t.val % 8) k) := by
  have hN : t.val < 32 := lt_of_lt_of_eq t.isLt (show cfg2.N = 32 from N_2)
  funext k
  have hR : (qrow (t.val / 8) r).val = 1024 * (t.val / 8) + r.val := Nat.mod_eq_of_lt (by have := r.isLt; omega)
  have hK : (Cert.Spec.col (t.val % 8) k).val = 512 * (t.val % 8) + k.val := Nat.mod_eq_of_lt (by have := k.isLt; omega)
  exact sT_eq_scoreK _ _ _ _ _ _ _ _ r k _ _ (fun e => tile2_0_ix2 V c t r e _ hR) (fun e => tile2_1_ix2 V c t r e _ hR)
    (fun e => tile2_2_ix2 V c t k e _ hK) (fun e => tile2_3_ix2 V c t k e _ hK)

/-- At point t column d of the two value tiles is column d of the value arrays at the rows of key tile t % 8. -/
theorem v4_tiles (c : Dev nD) (t : Fin cfg2.N) (d : Fin 1024) :
    (fun k : Fin 512 => tile2_4 V c t (ix2 k d)) = fun k => arr2_4 V c (ix2 (Cert.Spec.col (t.val % 8) k) d) := by
  have hN : t.val < 32 := lt_of_lt_of_eq t.isLt (show cfg2.N = 32 from N_2)
  funext k
  exact tile2_4_ix2 V c t k d _ (Nat.mod_eq_of_lt (by have := k.isLt; omega))
theorem v5_tiles (c : Dev nD) (t : Fin cfg2.N) (d : Fin 1024) :
    (fun k : Fin 512 => tile2_5 V c t (ix2 k d)) = fun k => arr2_5 V c (ix2 (Cert.Spec.col (t.val % 8) k) d) := by
  have hN : t.val < 32 := lt_of_lt_of_eq t.isLt (show cfg2.N = 32 from N_2)
  funext k
  exact tile2_5_ix2 V c t k d _ (Nat.mod_eq_of_lt (by have := k.isLt; omega))

/-! ## The invariant -/

/-- The running softmax of array row R and output column d, over the key tiles. -/
abbrev run2 (c : Dev nD) (R : Fin 4096) (d : Fin 1024) (j : ℕ) : EReal × EReal × EReal :=
  FlashSoftmax.run (κ := Fin 512)
    (fun j k => Cert.Spec.scoreK (arr2_0 V c) (arr2_1 V c) (arr2_2 V c) (arr2_3 V c) R (Cert.Spec.col j k))
    (fun j k => arr2_4 V c (ix2 (Cert.Spec.col j k) d)) (fun j k => arr2_5 V c (ix2 (Cert.Spec.col j k) d)) j

/-- One step at point n, in terms of the arrays. -/
theorem st2_first_arr (c : Dev nD) (n : ℕ) (hn : n < cfg2.N) (h0 : n % 8 = 0) (r d : Fin 1024) :
    st2 V c n hn r d = run2 V c (qrow (n / 8) r) d 0 := by
  refine (st2_first V c ⟨n, hn⟩ h0 r d).trans ?_
  rw [sT_tiles, v4_tiles, v5_tiles]
  show FlashSoftmax.step (fun k => Cert.Spec.scoreK _ _ _ _ (qrow (n / 8) r) (Cert.Spec.col (n % 8) k)) _ _ _ = _
  rw [h0]
  rfl

/-- THE INVARIANT: after point n = 8·i + j the scratch state at row r, column d is the running softmax of array row
    1024·i + r after key tiles 0 … j. -/
theorem st2_run (c : Dev nD) (r d : Fin 1024) : ∀ (n : ℕ) (hn : n < cfg2.N), st2 V c n hn r d = run2 V c (qrow (n / 8) r) d (n % 8)
  | 0, hn => st2_first_arr V c 0 hn rfl r d
  | m + 1, hn => by
    by_cases h0 : (m + 1) % 8 = 0
    · rw [h0]; exact st2_first_arr V c (m + 1) hn h0 r d
    · refine (st2_next V c ⟨m + 1, hn⟩ h0 r d).trans ?_
      rw [sT_tiles, v4_tiles, v5_tiles]
      show FlashSoftmax.step (fun k => Cert.Spec.scoreK _ _ _ _ (qrow ((m + 1) / 8) r) (Cert.Spec.col ((m + 1) % 8) k))
          (fun k => arr2_4 V c (ix2 (Cert.Spec.col ((m + 1) % 8) k) d)) (fun k => arr2_5 V c (ix2 (Cert.Spec.col ((m + 1) % 8) k) d))
          (st2 V c m _ r d) = _
      rw [st2_run c r d m (Nat.lt_of_succ_lt hn), show (m + 1) % 8 = m % 8 + 1 from by omega, show (m + 1) / 8 = m / 8 from by omega]
      rfl

/-! ## The stored tile -/

/-- At a last key tile (point 8·i + 7) the output tile's entry at row r, column d is the pooled value of array row
    1024·i + r, column d: numerator over denominator of the running softmax after all eight key tiles. -/
theorem out2_entry (c : Dev nD) (t : Fin cfg2.N) (ht : t.val % 8 = 7) (r d : Fin 1024) :
    ((outsAt2 V c t.val t.isLt).1 : S1024x1024.Idx → EReal) (ix2 r d)
      = Cert.Spec.flashK (arr2_0 V c) (arr2_1 V c) (arr2_2 V c) (arr2_3 V c) (arr2_4 V c) (arr2_5 V c) (ix2 (qrow (t.val / 8) r) d) := by
  have h0 : ¬t.val % 8 = 0 := by omega
  have hs := st2_run V c r d t.val t.isLt
  unfold st2 at hs
  rw [outsAt2_C V c t h0 ht] at hs ⊢
  rw [quadC_l, quadC_a] at hs
  rw [quadC_out]
  refine (pay3_apply _ _ r d).trans ?_
  refine (congrArg₂ Ideal.div (congrArg (fun s : EReal × EReal × EReal => s.2.2) hs) (congrArg (fun s : EReal × EReal × EReal => s.2.1) hs)).trans ?_
  show Ideal.div (run2 V c (qrow (t.val / 8) r) d (t.val % 8)).2.2 (run2 V c (qrow (t.val / 8) r) d (t.val % 8)).2.1 = _
  rw [ht]
  rfl

end Cert.KernelIdeal.Frame

end
-- ==== Proof.KICover2.lean ====
/-
  Pallas call 2, from tiles to the array: the output window is written back only at a query tile's last key tile
  (grid points ≡ 7 mod 8), where tile t / 8 of 1024 rows is stored; the four stored tiles cover the [4096, 1024]
  array. So if at every such point the stored tile agrees entry by entry with one whole-array function, the array
  after the call is that function.
-/
import proofs.«430703_j8426725835102_3_alg».proof.Proof.KIRegion2
import Idealize.ShloMosaic.Lib.ValueIdx
import Idealize.ShloMosaic.Lib.Pipeline.Value

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-- The output window's block index at point t is (t / 8, 0): decided once over the grid. -/
private theorem idx_facts2_6 : ∀ t : Fin cfg2.N, win2_6.index t (0 : Fin 2) = t.val / 8 ∧ win2_6.index t (1 : Fin 2) = 0 :=
  (by decide +kernel : ∀ t : Fin grid2.N, win2_6.index t (0 : Fin 2) = t.val / 8 ∧ win2_6.index t (1 : Fin 2) = 0)

/-- An index of the array is in point t's block iff each coordinate is in the block's range on its axis. -/
private theorem mem_blk2_6 (t : Fin cfg2.N) (i : S4096x1024.Idx) :
    i ∈ ((cfg2.win 6).blk t).view.set ↔ ∀ a : Fin 2, win2_6.index t a * S1024x1024.size a ≤ (i a).val
      ∧ (i a).val < win2_6.index t a * S1024x1024.size a + S1024x1024.size a := by
  show i ∈ ((View.whole main_v26).slice (win2_6.rect t)).set ↔ _
  rw [View.set_slice_whole, Rect.mem_set_unit]
  exact Iff.rfl

theorem arr2_6_of_tiles (V : (c : Dev nD) → (b : Ref sig .tc) → Buf (Elt Ideal) ((c : Thread nD τ).loc b)) (c : Dev nD)
    (G : S4096x1024.Idx → EReal)
    (hG : ∀ (t : Fin cfg2.N) (ht : t.val % 8 = 7) (r d : Fin 1024),
      ((outsAt2 V c t.val t.isLt).1 : S1024x1024.Idx → EReal) (ix2 r d)
        = G (ix2 (⟨(1024 * (t.val / 8) + r.val) % 4096, Nat.mod_lt _ (by norm_num)⟩ : Fin 4096) d)) :
    (dat2 V c).arrAt 6 cfg2.N = G := by
  have hN : grid2.N = 32 := Gen.N_2
  refine (dat2 V c).arrAt_eq_of_cover 6 G (fun t hf => ?_) (fun i => ?_)
  · -- what a flushing point writes back is its block of G
    have ht : t.val % 8 = 7 := (flush2_6 t).mp hf
    obtain ⟨e0, e1⟩ := idx_facts2_6 t
    have htN : t.val < 32 := hN ▸ t.isLt
    show (cfg2.win 6).cut (grid2.coords t) ((dat2 V c).after 6 t) = _
    rw [after2_6]
    funext j
    obtain ⟨r, d, rfl⟩ : ∃ (r d : Fin 1024), j = ix2 r d := ⟨j 0, j 1, eq_ix2 j⟩
    show ((outsAt2 V c t.val t.isLt).1 : S1024x1024.Idx → EReal) (ix2 r d) = G (((cfg2.win 6).blk t).view.emb (ix2 r d))
    rw [hG t ht r d]
    refine congrArg G (funext fun a => Fin.ext ?_)
    match a with
    | ⟨0, _⟩ =>
      show (1024 * (t.val / 8) + r.val) % 4096 = win2_6.index t (0 : Fin 2) * 1024 + 1 * r.val
      have hr : r.val < 1024 := r.isLt
      omega
    | ⟨1, _⟩ =>
      show d.val = win2_6.index t (1 : Fin 2) * 1024 + 1 * d.val
      omega
  · -- every row lies in the block of its query tile's last key tile
    have hi0 : (i 0).val < 4096 := idx2_lt0 i
    have hi1 : (i 1).val < 1024 := idx2_lt1 i
    have hlt : 8 * ((i 0).val / 1024) + 7 < cfg2.N := by
      show _ < grid2.N
      rw [hN]; omega
    obtain ⟨e0, e1⟩ := idx_facts2_6 ⟨8 * ((i 0).val / 1024) + 7, hlt⟩
    refine ⟨⟨8 * ((i 0).val / 1024) + 7, hlt⟩, (flush2_6 _).mpr (by show (8 * ((i 0).val / 1024) + 7) % 8 = 7; omega), ?_⟩
    rw [mem_blk2_6]
    intro a
    match a with
    | ⟨0, _⟩ =>
      show win2_6.index ⟨8 * ((i 0).val / 1024) + 7, hlt⟩ (0 : Fin 2) * 1024 ≤ (i 0).val
        ∧ (i 0).val < win2_6.index ⟨8 * ((i 0).val / 1024) + 7, hlt⟩ (0 : Fin 2) * 1024 + 1024
      have e0' : win2_6.index ⟨8 * ((i 0).val / 1024) + 7, hlt⟩ (0 : Fin 2) = (8 * ((i 0).val / 1024) + 7) / 8 := e0
      omega
    | ⟨1, _⟩ =>
      show win2_6.index ⟨8 * ((i 0).val / 1024) + 7, hlt⟩ (1 : Fin 2) * 1024 ≤ (i 1).val
        ∧ (i 1).val < win2_6.index ⟨8 * ((i 0).val / 1024) + 7, hlt⟩ (1 : Fin 2) * 1024 + 1024
      omega

end Cert.KernelIdeal.Frame

end
-- ==== Proof.KIValue2.lean ====
/-
  Pallas call 2 as a function of arrays: after the call, the output array holds, entry by entry, the running softmax
  over the eight key tiles followed by numerator / denominator, of the six input arrays as the call found them. Query
  tile i is stored at grid point 8·i + 7; the scratch state at point 8·i + j is the running-softmax state after key
  tiles 0 … j of query tile i (induction on j, each step the body's arithmetic read at an entry); the four stored
  tiles cover the array.
-/
import proofs.«430703_j8426725835102_3_alg».proof.Proof.KIRegion2
import proofs.«430703_j8426725835102_3_alg».proof.Proof.KIState2
import proofs.«430703_j8426725835102_3_alg».proof.Proof.KICover2
import proofs.«430703_j8426725835102_3_alg».proof.Proof.SpecK
import Idealize.ShloMosaic.Lib.ValueIdx
import Idealize.ShloMosaic.Lib.Pipeline.Value

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

theorem arr2_6 (V : (c : Dev nD) → (b : Ref sig .tc) → Buf (Elt Ideal) ((c : Thread nD τ).loc b)) (c : Dev nD) :
    (dat2 V c).arrAt 6 cfg2.N
      = Cert.Spec.flashK (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) := by
  exact arr2_6_of_tiles V c _ (fun t ht r d => out2_entry V c t ht r d)

end Cert.KernelIdeal.Frame

end
-- ==== Proof.KIHost.lean ====
/-
  The host lines at exact arithmetic. A bf16 hi/lo split of a finite array is (the array, zero): rounding to bf16 and
  back is the identity, so the "low" half x − x is zero wherever x is finite. The first stretch also transposes the two
  weight matrices and reshapes the two biases to rows; the second splits q and k. Each result is read at every entry,
  from ANY contents the stretch starts from.
-/
import proofs.«430703_j8426725835102_3_alg».proof.Proof.Gen.KernelIdeal.Launch
import proofs.«430703_j8426725835102_3_alg».proof.Proof.Gen.KernelIdeal.Regions
import proofs.«430703_j8426725835102_3_alg».proof.Proof.SpecK
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (W : Valuation τ sig (Elt Ideal))

/-! ## The two layout operations at an entry -/

/-- The transpose [1, 0] of a square matrix reads the operand at the swapped coordinates. -/
theorem transpose_eq_wT (a : S1024x1024.Idx → EReal) :
    transpose S1024x1024 [1, 0] a transposes_S1024x1024_S1024x1024_1_0 = Cert.Spec.wT a := by
  funext i
  exact transpose_apply [1, 0] a transposes_S1024x1024_S1024x1024_1_0 i (ix2 (i 1) (i 0)) (fun b => match b with
    | ⟨0, _⟩ => rfl
    | ⟨1, _⟩ => rfl)

/-- The transpose of a finite matrix is finite. -/
theorem wT_fin {a : S1024x1024.Idx → EReal} (h : Cert.Spec.Fin2 a) : Cert.Spec.Fin2 (Cert.Spec.wT a) :=
  fun i => h (ix2 (i 1) (i 0))

/-- The reshape [1024] → [1, 1024] reads the operand at the second coordinate. -/
theorem reshape_eq_bRow (b : S1024.Idx → EReal) :
    shapeCast S1x1024 b shapeCasts_S1024_S1x1024 = Cert.Spec.bRow b := by
  funext i
  refine (shapeCast_addUnit_apply ![1024] b shapeCasts_S1024_S1x1024 i).trans ?_
  exact congrArg b (funext fun a => match a with | ⟨0, _⟩ => rfl)

/-! ## The first stretch (sixteen lines) -/

theorem host0_v0 : (StableHlo.after hostOps0 W (Proc.devRef .tc main_v0) : S4096x1024.Idx → EReal) = W (Proc.devRef .tc main_arg0) := by
  have e : (StableHlo.after hostOps0 W (Proc.devRef .tc main_v0) : S4096x1024.Idx → EReal)
      = truncf (F := Ideal) .bf16 (W (Proc.devRef .tc main_arg0) : (⟨S4096x1024, .f32⟩ : BufTy).Contents (Elt Ideal)) bitsLt_bf16_f32 := by
    dsimp only [hostOps0]
    after_results <;> rfl
  rw [e]
  rfl
theorem host0_v3 (h : Cert.Spec.Fin2 (W (Proc.devRef .tc main_arg0) : S4096x1024.Idx → EReal)) :
    (StableHlo.after hostOps0 W (Proc.devRef .tc main_v3) : S4096x1024.Idx → EReal) = fun _ => (0 : EReal) := by
  have e : (StableHlo.after hostOps0 W (Proc.devRef .tc main_v3) : S4096x1024.Idx → EReal)
      = truncf (F := Ideal) .bf16 (subf (F := Ideal) (W (Proc.devRef .tc main_arg0) : (⟨S4096x1024, .f32⟩ : BufTy).Contents (Elt Ideal))
          (extf (F := Ideal) .f32 (truncf (F := Ideal) .bf16 (W (Proc.devRef .tc main_arg0) : (⟨S4096x1024, .f32⟩ : BufTy).Contents (Elt Ideal)) bitsLt_bf16_f32)
            bitsLt_bf16_f32)) bitsLt_bf16_f32 := by
    dsimp only [hostOps0]
    after_results <;> rfl
  rw [e]
  exact Cert.Spec.sub_self_fin _ h
theorem host0_v5 : (StableHlo.after hostOps0 W (Proc.devRef .tc main_v5) : S1024x1024.Idx → EReal) = Cert.Spec.wT (W (Proc.devRef .tc main_arg1)) := by
  have e : (StableHlo.after hostOps0 W (Proc.devRef .tc main_v5) : S1024x1024.Idx → EReal)
      = truncf (F := Ideal) .bf16 (transpose S1024x1024 [1, 0] (W (Proc.devRef .tc main_arg1) : (⟨S1024x1024, .f32⟩ : BufTy).Contents (Elt Ideal)) transposes_S1024x1024_S1024x1024_1_0) bitsLt_bf16_f32 := by
    dsimp only [hostOps0]
    after_results <;> rfl
  rw [e]
  exact transpose_eq_wT _
theorem host0_v8 (h : Cert.Spec.Fin2 (W (Proc.devRef .tc main_arg1) : S1024x1024.Idx → EReal)) :
    (StableHlo.after hostOps0 W (Proc.devRef .tc main_v8) : S1024x1024.Idx → EReal) = fun _ => (0 : EReal) := by
  have e : (StableHlo.after hostOps0 W (Proc.devRef .tc main_v8) : S1024x1024.Idx → EReal)
      = truncf (F := Ideal) .bf16 (subf (F := Ideal) (transpose S1024x1024 [1, 0] (W (Proc.devRef .tc main_arg1) : (⟨S1024x1024, .f32⟩ : BufTy).Contents (Elt Ideal)) transposes_S1024x1024_S1024x1024_1_0)
          (extf (F := Ideal) .f32 (truncf (F := Ideal) .bf16 (transpose S1024x1024 [1, 0] (W (Proc.devRef .tc main_arg1) : (⟨S1024x1024, .f32⟩ : BufTy).Contents (Elt Ideal)) transposes_S1024x1024_S1024x1024_1_0) bitsLt_bf16_f32)
            bitsLt_bf16_f32)) bitsLt_bf16_f32 := by
    dsimp only [hostOps0]
    after_results <;> rfl
  rw [e, transpose_eq_wT]
  exact Cert.Spec.sub_self_fin _ (wT_fin h)
theorem host0_v10 : (StableHlo.after hostOps0 W (Proc.devRef .tc main_v10) : S1024x1024.Idx → EReal) = Cert.Spec.wT (W (Proc.devRef .tc main_arg3)) := by
  have e : (StableHlo.after hostOps0 W (Proc.devRef .tc main_v10) : S1024x1024.Idx → EReal)
      = truncf (F := Ideal) .bf16 (transpose S1024x1024 [1, 0] (W (Proc.devRef .tc main_arg3) : (⟨S1024x1024, .f32⟩ : BufTy).Contents (Elt Ideal)) transposes_S1024x1024_S1024x1024_1_0) bitsLt_bf16_f32 := by
    dsimp only [hostOps0]
    after_results <;> rfl
  rw [e]
  exact transpose_eq_wT _
theorem host0_v13 (h : Cert.Spec.Fin2 (W (Proc.devRef .tc main_arg3) : S1024x1024.Idx → EReal)) :
    (StableHlo.after hostOps0 W (Proc.devRef .tc main_v13) : S1024x1024.Idx → EReal) = fun _ => (0 : EReal) := by
  have e : (StableHlo.after hostOps0 W (Proc.devRef .tc main_v13) : S1024x1024.Idx → EReal)
      = truncf (F := Ideal) .bf16 (subf (F := Ideal) (transpose S1024x1024 [1, 0] (W (Proc.devRef .tc main_arg3) : (⟨S1024x1024, .f32⟩ : BufTy).Contents (Elt Ideal)) transposes_S1024x1024_S1024x1024_1_0)
          (extf (F := Ideal) .f32 (truncf (F := Ideal) .bf16 (transpose S1024x1024 [1, 0] (W (Proc.devRef .tc main_arg3) : (⟨S1024x1024, .f32⟩ : BufTy).Contents (Elt Ideal)) transposes_S1024x1024_S1024x1024_1_0) bitsLt_bf16_f32)
            bitsLt_bf16_f32)) bitsLt_bf16_f32 := by
    dsimp only [hostOps0]
    after_results <;> rfl
  rw [e, transpose_eq_wT]
  exact Cert.Spec.sub_self_fin _ (wT_fin h)
theorem host0_v14 : (StableHlo.after hostOps0 W (Proc.devRef .tc main_v14) : S1x1024.Idx → EReal) = Cert.Spec.bRow (W (Proc.devRef .tc main_arg2)) := by
  have e : (StableHlo.after hostOps0 W (Proc.devRef .tc main_v14) : S1x1024.Idx → EReal)
      = shapeCast S1x1024 (W (Proc.devRef .tc main_arg2) : S1024.Idx → EReal) shapeCasts_S1024_S1x1024 := by
    dsimp only [hostOps0]
    after_results <;> rfl
  rw [e]
  exact reshape_eq_bRow _
theorem host0_v15 : (StableHlo.after hostOps0 W (Proc.devRef .tc main_v15) : S1x1024.Idx → EReal) = Cert.Spec.bRow (W (Proc.devRef .tc main_arg4)) := by
  have e : (StableHlo.after hostOps0 W (Proc.devRef .tc main_v15) : S1x1024.Idx → EReal)
      = shapeCast S1x1024 (W (Proc.devRef .tc main_arg4) : S1024.Idx → EReal) shapeCasts_S1024_S1x1024 := by
    dsimp only [hostOps0]
    after_results <;> rfl
  rw [e]
  exact reshape_eq_bRow _

/-! ## The second stretch (eight lines) -/

theorem host2_v18 : (StableHlo.after hostOps2 W (Proc.devRef .tc main_v18) : S4096x1024.Idx → EReal) = W (Proc.devRef .tc main_v16) := by
  have e : (StableHlo.after hostOps2 W (Proc.devRef .tc main_v18) : S4096x1024.Idx → EReal)
      = truncf (F := Ideal) .bf16 (W (Proc.devRef .tc main_v16) : (⟨S4096x1024, .f32⟩ : BufTy).Contents (Elt Ideal)) bitsLt_bf16_f32 := by
    dsimp only [hostOps2]
    after_results <;> rfl
  rw [e]
  rfl
theorem host2_v21 (h : Cert.Spec.Fin2 (W (Proc.devRef .tc main_v16) : S4096x1024.Idx → EReal)) :
    (StableHlo.after hostOps2 W (Proc.devRef .tc main_v21) : S4096x1024.Idx → EReal) = fun _ => (0 : EReal) := by
  have e : (StableHlo.after hostOps2 W (Proc.devRef .tc main_v21) : S4096x1024.Idx → EReal)
      = truncf (F := Ideal) .bf16 (subf (F := Ideal) (W (Proc.devRef .tc main_v16) : (⟨S4096x1024, .f32⟩ : BufTy).Contents (Elt Ideal))
          (extf (F := Ideal) .f32 (truncf (F := Ideal) .bf16 (W (Proc.devRef .tc main_v16) : (⟨S4096x1024, .f32⟩ : BufTy).Contents (Elt Ideal)) bitsLt_bf16_f32)
            bitsLt_bf16_f32)) bitsLt_bf16_f32 := by
    dsimp only [hostOps2]
    after_results <;> rfl
  rw [e]
  exact Cert.Spec.sub_self_fin _ h
theorem host2_v22 : (StableHlo.after hostOps2 W (Proc.devRef .tc main_v22) : S4096x1024.Idx → EReal) = W (Proc.devRef .tc main_v17) := by
  have e : (StableHlo.after hostOps2 W (Proc.devRef .tc main_v22) : S4096x1024.Idx → EReal)
      = truncf (F := Ideal) .bf16 (W (Proc.devRef .tc main_v17) : (⟨S4096x1024, .f32⟩ : BufTy).Contents (Elt Ideal)) bitsLt_bf16_f32 := by
    dsimp only [hostOps2]
    after_results <;> rfl
  rw [e]
  rfl
theorem host2_v25 (h : Cert.Spec.Fin2 (W (Proc.devRef .tc main_v17) : S4096x1024.Idx → EReal)) :
    (StableHlo.after hostOps2 W (Proc.devRef .tc main_v25) : S4096x1024.Idx → EReal) = fun _ => (0 : EReal) := by
  have e : (StableHlo.after hostOps2 W (Proc.devRef .tc main_v25) : S4096x1024.Idx → EReal)
      = truncf (F := Ideal) .bf16 (subf (F := Ideal) (W (Proc.devRef .tc main_v17) : (⟨S4096x1024, .f32⟩ : BufTy).Contents (Elt Ideal))
          (extf (F := Ideal) .f32 (truncf (F := Ideal) .bf16 (W (Proc.devRef .tc main_v17) : (⟨S4096x1024, .f32⟩ : BufTy).Contents (Elt Ideal)) bitsLt_bf16_f32)
            bitsLt_bf16_f32)) bitsLt_bf16_f32 := by
    dsimp only [hostOps2]
    after_results <;> rfl
  rw [e]
  exact Cert.Spec.sub_self_fin _ h
/-- The second stretch writes only its own eight results. -/
theorem host2_keep (r : Ref sig .tc) (h : r ∉ hostOps2_W) : StableHlo.after hostOps2 W (Proc.devRef .tc r) = W (Proc.devRef .tc r) :=
  StableHlo.after_of_writes_sub hostOps2 _ hostOps2_writes h
theorem host0_keep (r : Ref sig .tc) (h : r ∉ hostOps0_W) : StableHlo.after hostOps0 W (Proc.devRef .tc r) = W (Proc.devRef .tc r) :=
  StableHlo.after_of_writes_sub hostOps0 _ hostOps0_writes h

end Cert.KernelIdeal.Frame

end
-- ==== Proof.KIClaims.lean ====
/-
  The idealized kernel's result array is the specification. Following the buffers through the program at exact
  arithmetic with finite arguments: the first host stretch makes (x, 0), (Wqᵀ, 0), (Wkᵀ, 0) and the two bias rows; the
  projection calls make q and k, the two linear layers; the second stretch makes (q, 0) and (k, 0); the pooling call
  makes the softmax-weighted average of the rows of x.
-/
import proofs.«430703_j8426725835102_3_alg».proof.Proof.KIRun
import proofs.«430703_j8426725835102_3_alg».proof.Proof.KIValue0
import proofs.«430703_j8426725835102_3_alg».proof.Proof.KIValue1
import proofs.«430703_j8426725835102_3_alg».proof.Proof.KIValue2
import proofs.«430703_j8426725835102_3_alg».proof.Proof.KIHost
import proofs.«430703_j8426725835102_3_alg».proof.Proof.SpecK

set_option maxRecDepth 16384

noncomputable section

namespace Cert.KernelIdeal.Frame

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

open Cert.Spec

variable (m : (ℓ : Loc nD τ sig) → Buf (Elt Ideal) ℓ) (c : Dev nD)

/-- The five arguments on core c. -/
abbrev aX : S4096x1024.Idx → EReal := m ((c : Thread nD τ).loc main_arg0)
abbrev aWq : S1024x1024.Idx → EReal := m ((c : Thread nD τ).loc main_arg1)
abbrev aBq : S1024.Idx → EReal := m ((c : Thread nD τ).loc main_arg2)
abbrev aWk : S1024x1024.Idx → EReal := m ((c : Thread nD τ).loc main_arg3)
abbrev aBk : S1024.Idx → EReal := m ((c : Thread nD τ).loc main_arg4)

/-! ## An input window's array is unchanged by its call -/

theorem W2_in0 : W2 m c (Proc.devRef .tc main_v0) = W1 m c (Proc.devRef .tc main_v0) :=
  (W2_arr m c 0).trans (((dat0 (Vb1 m) c).arrAt_in 0 rfl _).trans (A_eq0 (Vb1 m) c 0))
theorem W2_in1 : W2 m c (Proc.devRef .tc main_v3) = W1 m c (Proc.devRef .tc main_v3) :=
  (W2_arr m c 1).trans (((dat0 (Vb1 m) c).arrAt_in 1 rfl _).trans (A_eq0 (Vb1 m) c 1))
theorem W3_in0 : W3 m c (Proc.devRef .tc main_v0) = W2 m c (Proc.devRef .tc main_v0) :=
  (W3_arr m c 0).trans (((dat1 (Vb2 m) c).arrAt_in 0 rfl _).trans (A_eq1 (Vb2 m) c 0))
theorem W3_in1 : W3 m c (Proc.devRef .tc main_v3) = W2 m c (Proc.devRef .tc main_v3) :=
  (W3_arr m c 1).trans (((dat1 (Vb2 m) c).arrAt_in 1 rfl _).trans (A_eq1 (Vb2 m) c 1))

section
variable (hX : Fin2 (aX m c)) (hWq : Fin2 (aWq m c)) (hBq : Fin2 (aBq m c)) (hWk : Fin2 (aWk m c)) (hBk : Fin2 (aBk m c))

/-! ## The split of x -/

theorem xhi1 : (W1 m c (Proc.devRef .tc main_v0) : S4096x1024.Idx → EReal) = aX m c := host0_v0 (W0 m c)
include hX in
theorem xlo1 : (W1 m c (Proc.devRef .tc main_v3) : S4096x1024.Idx → EReal) = fun _ => (0 : EReal) := host0_v3 (W0 m c) hX

/-! ## q and k -/

include hX hWq hBq in
/-- The first projection call leaves q = x Wqᵀ + bq. -/
theorem q_eq : (W2 m c (Proc.devRef .tc main_v16) : S4096x1024.Idx → EReal) = projArr (aX m c) (aWq m c) (aBq m c) := by
  refine ((W2_arr m c 5).trans (arr0_5 (Vb1 m) c)).trans ?_
  rw [show (Vb1 m c (Pipeline.arrRef spec0 0) : S4096x1024.Idx → EReal) = aX m c from xhi1 m c,
    show (Vb1 m c (Pipeline.arrRef spec0 1) : S4096x1024.Idx → EReal) = fun _ => (0 : EReal) from xlo1 m c hX,
    show (Vb1 m c (Pipeline.arrRef spec0 2) : S1024x1024.Idx → EReal) = wT (aWq m c) from host0_v5 (W0 m c),
    show (Vb1 m c (Pipeline.arrRef spec0 3) : S1024x1024.Idx → EReal) = fun _ => (0 : EReal) from host0_v8 (W0 m c) hWq,
    show (Vb1 m c (Pipeline.arrRef spec0 4) : S1x1024.Idx → EReal) = bRow (aBq m c) from host0_v14 (W0 m c)]
  exact projK_eq _ _ _ hX hWq hBq

include hX hWk hBk in
/-- The second projection call leaves k = x Wkᵀ + bk. -/
theorem k_eq : (W3 m c (Proc.devRef .tc main_v17) : S4096x1024.Idx → EReal) = projArr (aX m c) (aWk m c) (aBk m c) := by
  refine ((W3_arr m c 5).trans (arr1_5 (Vb2 m) c)).trans ?_
  rw [show (Vb2 m c (Pipeline.arrRef spec1 0) : S4096x1024.Idx → EReal) = aX m c from (W2_in0 m c).trans (xhi1 m c),
    show (Vb2 m c (Pipeline.arrRef spec1 1) : S4096x1024.Idx → EReal) = fun _ => (0 : EReal) from (W2_in1 m c).trans (xlo1 m c hX),
    show (Vb2 m c (Pipeline.arrRef spec1 2) : S1024x1024.Idx → EReal) = wT (aWk m c) from (W2_of_ne m c main_v10 (by decide)).trans (host0_v10 (W0 m c)),
    show (Vb2 m c (Pipeline.arrRef spec1 3) : S1024x1024.Idx → EReal) = fun _ => (0 : EReal) from (W2_of_ne m c main_v13 (by decide)).trans (host0_v13 (W0 m c) hWk),
    show (Vb2 m c (Pipeline.arrRef spec1 4) : S1x1024.Idx → EReal) = bRow (aBk m c) from (W2_of_ne m c main_v15 (by decide)).trans (host0_v15 (W0 m c))]
  exact projK_eq _ _ _ hX hWk hBk

include hX hWq hBq in
theorem q3_eq : (W3 m c (Proc.devRef .tc main_v16) : S4096x1024.Idx → EReal) = projArr (aX m c) (aWq m c) (aBq m c) :=
  (W3_of_ne m c main_v16 (by decide)).trans (q_eq m c hX hWq hBq)

/-! ## The result -/

include hX hWq hBq hWk hBk in
/-- The pooling call leaves the specification's pooled average in the result array. -/
theorem result_eq : (W5 m c (Proc.devRef .tc main_v26) : S4096x1024.Idx → EReal) = G (aX m c) (aWq m c) (aBq m c) (aWk m c) (aBk m c) := by
  refine ((W5_arr m c 6).trans (arr2_6 (Vb4 m) c)).trans ?_
  have hq := q3_eq m c hX hWq hBq
  have hk := k_eq m c hX hWk hBk
  rw [show (Vb4 m c (Pipeline.arrRef spec2 0) : S4096x1024.Idx → EReal) = projArr (aX m c) (aWq m c) (aBq m c) from (host2_v18 (W3 m c)).trans hq,
    show (Vb4 m c (Pipeline.arrRef spec2 1) : S4096x1024.Idx → EReal) = fun _ => (0 : EReal) from host2_v21 (W3 m c) (by rw [hq]; exact projArr_fin _ _ _),
    show (Vb4 m c (Pipeline.arrRef spec2 2) : S4096x1024.Idx → EReal) = projArr (aX m c) (aWk m c) (aBk m c) from (host2_v22 (W3 m c)).trans hk,
    show (Vb4 m c (Pipeline.arrRef spec2 3) : S4096x1024.Idx → EReal) = fun _ => (0 : EReal) from host2_v25 (W3 m c) (by rw [hk]; exact projArr_fin _ _ _),
    show (Vb4 m c (Pipeline.arrRef spec2 4) : S4096x1024.Idx → EReal) = aX m c from
      (host2_keep (W3 m c) main_v0 (by decide)).trans ((W3_in0 m c).trans ((W2_in0 m c).trans (xhi1 m c))),
    show (Vb4 m c (Pipeline.arrRef spec2 5) : S4096x1024.Idx → EReal) = fun _ => (0 : EReal) from
      (host2_keep (W3 m c) main_v3 (by decide)).trans ((W3_in1 m c).trans ((W2_in1 m c).trans (xlo1 m c hX)))]
  exact flashK_eq _ _ _ _ _ hX

end

end Cert.KernelIdeal.Frame

end
-- ==== Proof.RefValue.lean ====
/-
  The reference program computes the specification.

  Read one operation at a time at coordinates (r, e), (r, c), (r, d), with every argument entry a real number:
    the two linear layers are q[r, e] = proj x Wq bq r e and k[c, e] = proj x Wk bk c e;
    the logits are s[r, c] = Σ_e q[r, e] · k[c, e] = score r c;
    the row maximum of finitely many reals, folded from −∞ (and then joined with −∞ once more), is a real number M;
    exp (s[r, c] − M) is a positive real, so the row sum Σ_c exp (s[r, c] − M) is a positive real and the quotient
    w[r, c] = exp (s[r, c] − M) / Σ_c' exp (s[r, c'] − M) is a real number;
    the result Σ_c w[r, c] · x[c, d] is the softmax-weighted sum taken with offset M, which is the offset-free
    quotient (Σ_c exp s[r, c] · x[c, d]) / (Σ_c exp s[r, c]) = pooled r d.
-/
import proofs.«430703_j8426725835102_3_alg».proof.Proof.Gen.ReferenceIdeal.Read
import proofs.«430703_j8426725835102_3_alg».proof.Proof.Spec
import proofs.«430703_j8426725835102_3_alg».proof.Proof.LibFlash
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Spec
open scoped BigOperators

/-- The argument arrays' types: x, a weight matrix, a bias. -/
abbrev AX : Type := (⟨S4096x1024, .f32⟩ : BufTy).Contents (Elt Ideal)
abbrev AW : Type := (⟨S1024x1024, .f32⟩ : BufTy).Contents (Elt Ideal)
abbrev AB : Type := (⟨S1024, .f32⟩ : BufTy).Contents (Elt Ideal)

/-! ## The linear layers -/

/-- q[r, e] = (Σ_f x[r, f] · Wq[e, f]) + bq[e]. -/
theorem q_at (x0 : AX) (x1 : AW) (x2 : AB) (h0 : Fin2 x0) (h1 : Fin2 x1) (h2 : Fin2 x2) (r : Fin 4096) (e : Fin 1024) :
    val_main_v4 (F := Ideal) x0 x1 x2 (ix2 r e) = ((proj x0 x1 x2 r e : ℝ) : EReal) := by
  rw [val_main_v4_apply, val_main_v1_apply, val_main_v3_apply, val_main_v2_apply]
  have eb : idx_main_v2 (idx_main_v3 (ix2 r e)) = ix1 e := funext fun a => match a with | ⟨0, _⟩ => rfl
  have hs : ∀ k : Fin 1024, x0 (lidx_main_v1 (ix2 r e) k) * val_main_v0 (F := Ideal) x1 (ridx_main_v1 (ix2 r e) k)
      = ((Xr x0 r k * Wr x1 e k : ℝ) : EReal) := by
    intro k
    have el : lidx_main_v1 (ix2 r e) k = ix2 r k := funext fun a => match a with | ⟨0, _⟩ => rfl | ⟨1, _⟩ => rfl
    have er : idx_main_v0 (ridx_main_v1 (ix2 r e) k) = ix2 e k := funext fun a => match a with | ⟨0, _⟩ => rfl | ⟨1, _⟩ => rfl
    rw [val_main_v0_apply, el, er, h0.x, h1.w, EReal.coe_mul]
  rw [Finset.sum_congr rfl (fun k _ => hs k), eb, h2.b, ← FlashSoftmax.coe_sum]
  exact (EReal.coe_add _ _).symm

/-- k[c, e] = (Σ_f x[c, f] · Wk[e, f]) + bk[e]. -/
theorem k_at (x0 : AX) (x3 : AW) (x4 : AB) (h0 : Fin2 x0) (h3 : Fin2 x3) (h4 : Fin2 x4) (c : Fin 4096) (e : Fin 1024) :
    val_main_v9 (F := Ideal) x0 x3 x4 (ix2 c e) = ((proj x0 x3 x4 c e : ℝ) : EReal) := by
  rw [val_main_v9_apply, val_main_v6_apply, val_main_v8_apply, val_main_v7_apply]
  have eb : idx_main_v7 (idx_main_v8 (ix2 c e)) = ix1 e := funext fun a => match a with | ⟨0, _⟩ => rfl
  have hs : ∀ k : Fin 1024, x0 (lidx_main_v6 (ix2 c e) k) * val_main_v5 (F := Ideal) x3 (ridx_main_v6 (ix2 c e) k)
      = ((Xr x0 c k * Wr x3 e k : ℝ) : EReal) := by
    intro k
    have el : lidx_main_v6 (ix2 c e) k = ix2 c k := funext fun a => match a with | ⟨0, _⟩ => rfl | ⟨1, _⟩ => rfl
    have er : idx_main_v5 (ridx_main_v6 (ix2 c e) k) = ix2 e k := funext fun a => match a with | ⟨0, _⟩ => rfl | ⟨1, _⟩ => rfl
    rw [val_main_v5_apply, el, er, h0.x, h3.w, EReal.coe_mul]
  rw [Finset.sum_congr rfl (fun k _ => hs k), eb, h4.b, ← FlashSoftmax.coe_sum]
  exact (EReal.coe_add _ _).symm

/-! ## The logits -/

/-- s[r, c] = Σ_e q[r, e] · k[c, e]. -/
theorem s_at (x0 : AX) (x1 : AW) (x2 : AB) (x3 : AW) (x4 : AB)
    (h0 : Fin2 x0) (h1 : Fin2 x1) (h2 : Fin2 x2) (h3 : Fin2 x3) (h4 : Fin2 x4) (r c : Fin 4096) :
    val_main_v11 (F := Ideal) x0 x1 x2 x3 x4 (ix2 r c) = ((score x0 x1 x2 x3 x4 r c : ℝ) : EReal) := by
  rw [val_main_v11_apply]
  have hs : ∀ k : Fin 1024, val_main_v4 (F := Ideal) x0 x1 x2 (lidx_main_v11 (ix2 r c) k)
        * val_main_v10 (F := Ideal) x0 x3 x4 (ridx_main_v11 (ix2 r c) k)
      = ((proj x0 x1 x2 r k * proj x0 x3 x4 c k : ℝ) : EReal) := by
    intro k
    have el : lidx_main_v11 (ix2 r c) k = ix2 r k := funext fun a => match a with | ⟨0, _⟩ => rfl | ⟨1, _⟩ => rfl
    have er : idx_main_v10 (ridx_main_v11 (ix2 r c) k) = ix2 c k := funext fun a => match a with | ⟨0, _⟩ => rfl | ⟨1, _⟩ => rfl
    rw [val_main_v10_apply, el, er, q_at x0 x1 x2 h0 h1 h2, k_at x0 x3 x4 h0 h3 h4, EReal.coe_mul]
  rw [Finset.sum_congr rfl (fun k _ => hs k), ← FlashSoftmax.coe_sum]
  rfl

/-! ## The row maximum -/

/-- The f32 word of −∞ is the bottom of the extended reals. -/
theorem ofBits_neg_inf_f32 : Ideal.ofBits .f32 0xFF800000#32 = (⊥ : EReal) := by simp [Ideal.ofBits, Ideal.ieee]

/-- Dropping the column axis of the logits' shape leaves the rows' shape. -/
theorem reduces_logits_row : S4096x4096.Reduces [1] S4096 := by decide

/-- Row r of the logits with column k put back is the index (r, k). -/
theorem lift_row (h : S4096x4096.Reduces [1] S4096) (r : Fin 4096) (k : Fin (S4096x4096.size 1)) :
    h.lift (ix1 r) k = ix2 r (⟨k.val, k.isLt⟩ : Fin 4096) := by
  funext c; apply Fin.ext
  match c with
  | ⟨0, _⟩ => rfl
  | ⟨1, _⟩ => rfl

/-- The maximum of row r of the logits, folded from −∞ and joined with −∞ once more, is a real number. -/
theorem m_at (x0 : AX) (x1 : AW) (x2 : AB) (x3 : AW) (x4 : AB)
    (h0 : Fin2 x0) (h1 : Fin2 x1) (h2 : Fin2 x2) (h3 : Fin2 x3) (h4 : Fin2 x4) (r : Fin 4096) :
    ∃ M : ℝ, val_main_v14 (F := Ideal) x0 x1 x2 x3 x4 (ix1 r) = ((M : ℝ) : EReal) := by
  have hR : S4096x4096.Reduces [1] S4096 := reduces_logits_row
  haveI : Nonempty (Fin (S4096x4096.size 1)) := ⟨⟨0, by decide⟩⟩
  obtain ⟨M, hM⟩ := FlashSoftmax.fold_max_real (κ := Fin (S4096x4096.size 1))
    (fun k => score x0 x1 x2 x3 x4 r ⟨k.val, k.isLt⟩)
  refine ⟨M, ?_⟩
  have h12 : val_main_v12 (F := Ideal) x0 x1 x2 x3 x4 (ix1 r) = ((M : ℝ) : EReal) := by
    unfold val_main_v12
    rw [Host.reduce_eq_fold_single FloatOps.maximumf _ _ reducesTo_S4096x4096_S4096_d1 hR h_S_]
    have hf : (val_main_v11 (F := Ideal) x0 x1 x2 x3 x4 ∘ hR.lift (ix1 r))
        = fun k : Fin (S4096x4096.size 1) => ((score x0 x1 x2 x3 x4 r ⟨k.val, k.isLt⟩ : ℝ) : EReal) :=
      funext fun k => (congrArg (val_main_v11 (F := Ideal) x0 x1 x2 x3 x4) (lift_row hR r k)).trans
        (s_at x0 x1 x2 x3 x4 h0 h1 h2 h3 h4 r _)
    rw [hf, val_main_cst_apply]
    show Finset.fold max (Ideal.ofBits .f32 0xFF800000#32) _ _ = _
    rw [ofBits_neg_inf_f32]
    exact hM
  rw [val_main_v14_apply, val_main_v13_apply, val_main_cst_0_apply, h12]
  show max (Ideal.ofBits .f32 0xFF800000#32) ((M : ℝ) : EReal) = _
  rw [ofBits_neg_inf_f32, bot_sup_eq]

/-! ## The weights -/

/-- exp (s[r, c] − M), with M the row's offset. -/
theorem e_at (x0 : AX) (x1 : AW) (x2 : AB) (x3 : AW) (x4 : AB)
    (h0 : Fin2 x0) (h1 : Fin2 x1) (h2 : Fin2 x2) (h3 : Fin2 x3) (h4 : Fin2 x4) (r c : Fin 4096) (M : ℝ)
    (hM : val_main_v14 (F := Ideal) x0 x1 x2 x3 x4 (ix1 r) = ((M : ℝ) : EReal)) :
    val_main_v18 (F := Ideal) x0 x1 x2 x3 x4 (ix2 r c) = ((Real.exp (score x0 x1 x2 x3 x4 r c - M) : ℝ) : EReal) := by
  have em : idx_main_v15 (idx_main_v16 (ix2 r c)) = ix1 r := funext fun a => match a with | ⟨0, _⟩ => rfl
  rw [val_main_v18_apply, val_main_v17_apply, val_main_v16_apply, val_main_v15_apply, em, hM,
    s_at x0 x1 x2 x3 x4 h0 h1 h2 h3 h4]
  show Ideal.exp (((score x0 x1 x2 x3 x4 r c : ℝ) : EReal) - ((M : ℝ) : EReal)) = _
  rw [← EReal.coe_sub, Ideal.exp_coe]

/-- The row sum Σ_c exp (s[r, c] − M), from the zero initial value. -/
theorem l_at (x0 : AX) (x1 : AW) (x2 : AB) (x3 : AW) (x4 : AB)
    (h0 : Fin2 x0) (h1 : Fin2 x1) (h2 : Fin2 x2) (h3 : Fin2 x3) (h4 : Fin2 x4) (r : Fin 4096) (M : ℝ)
    (hM : val_main_v14 (F := Ideal) x0 x1 x2 x3 x4 (ix1 r) = ((M : ℝ) : EReal)) :
    val_main_v19 (F := Ideal) x0 x1 x2 x3 x4 (ix1 r)
      = ((∑ c : Fin 4096, Real.exp (score x0 x1 x2 x3 x4 r c - M) : ℝ) : EReal) := by
  rw [val_main_v19_apply, val_main_cst_1_apply]
  have hs : ∀ k : Fin 4096, val_main_v18 (F := Ideal) x0 x1 x2 x3 x4 (idx_main_v19 (ix1 r) k)
      = ((Real.exp (score x0 x1 x2 x3 x4 r k - M) : ℝ) : EReal) := by
    intro k
    have ei : idx_main_v19 (ix1 r) k = ix2 r k := funext fun a => match a with | ⟨0, _⟩ => rfl | ⟨1, _⟩ => rfl
    rw [ei, e_at x0 x1 x2 x3 x4 h0 h1 h2 h3 h4 r k M hM]
  rw [Finset.sum_congr rfl (fun k _ => hs k), ← FlashSoftmax.coe_sum]
  show Ideal.ofBits .f32 0x00000000#32 + _ = _
  rw [Ideal.ofBits_zero_f32, zero_add]

/-- The weight w[r, c] = exp (s[r, c] − M) / Σ_c' exp (s[r, c'] − M): the denominator is a positive real. -/
theorem w_at (x0 : AX) (x1 : AW) (x2 : AB) (x3 : AW) (x4 : AB)
    (h0 : Fin2 x0) (h1 : Fin2 x1) (h2 : Fin2 x2) (h3 : Fin2 x3) (h4 : Fin2 x4) (r c : Fin 4096) (M : ℝ)
    (hM : val_main_v14 (F := Ideal) x0 x1 x2 x3 x4 (ix1 r) = ((M : ℝ) : EReal)) :
    val_main_v22 (F := Ideal) x0 x1 x2 x3 x4 (ix2 r c)
      = ((Real.exp (score x0 x1 x2 x3 x4 r c - M) / ∑ c' : Fin 4096, Real.exp (score x0 x1 x2 x3 x4 r c' - M) : ℝ) : EReal) := by
  have ed : idx_main_v20 (idx_main_v21 (ix2 r c)) = ix1 r := funext fun a => match a with | ⟨0, _⟩ => rfl
  have hpos : (∑ c' : Fin 4096, Real.exp (score x0 x1 x2 x3 x4 r c' - M)) ≠ 0 :=
    (Finset.sum_pos (fun c' _ => Real.exp_pos _) Finset.univ_nonempty).ne'
  rw [val_main_v22_apply, val_main_v21_apply, val_main_v20_apply, ed, l_at x0 x1 x2 x3 x4 h0 h1 h2 h3 h4 r M hM,
    e_at x0 x1 x2 x3 x4 h0 h1 h2 h3 h4 r c M hM]
  show Ideal.div _ _ = _
  rw [Ideal.div_coe hpos, ← EReal.coe_mul, mul_one_div]

/-! ## The result -/

/-- Σ_c w[r, c] · x[c, d] is the pooled value: the offset cancels. -/
theorem out_at (x0 : AX) (x1 : AW) (x2 : AB) (x3 : AW) (x4 : AB)
    (h0 : Fin2 x0) (h1 : Fin2 x1) (h2 : Fin2 x2) (h3 : Fin2 x3) (h4 : Fin2 x4) (r : Fin 4096) (d : Fin 1024) :
    val_main_v23 (F := Ideal) x0 x1 x2 x3 x4 (ix2 r d) = ((pooled x0 x1 x2 x3 x4 r d : ℝ) : EReal) := by
  obtain ⟨M, hM⟩ := m_at x0 x1 x2 x3 x4 h0 h1 h2 h3 h4 r
  rw [val_main_v23_apply]
  have hs : ∀ k : Fin 4096, val_main_v22 (F := Ideal) x0 x1 x2 x3 x4 (lidx_main_v23 (ix2 r d) k) * x0 (ridx_main_v23 (ix2 r d) k)
      = (((Real.exp (score x0 x1 x2 x3 x4 r k - M) / ∑ c' : Fin 4096, Real.exp (score x0 x1 x2 x3 x4 r c' - M)) * Xr x0 k d : ℝ) : EReal) := by
    intro k
    have el : lidx_main_v23 (ix2 r d) k = ix2 r k := funext fun a => match a with | ⟨0, _⟩ => rfl | ⟨1, _⟩ => rfl
    have er : ridx_main_v23 (ix2 r d) k = ix2 k d := funext fun a => match a with | ⟨0, _⟩ => rfl | ⟨1, _⟩ => rfl
    rw [el, er, w_at x0 x1 x2 x3 x4 h0 h1 h2 h3 h4 r k M hM, h0.x, EReal.coe_mul]
  rw [Finset.sum_congr rfl (fun k _ => hs k), ← FlashSoftmax.coe_sum]
  exact congrArg (fun t : ℝ => (t : EReal))
    (FlashSoftmax.softmax_offset (fun c => score x0 x1 x2 x3 x4 r c) (fun c => Xr x0 c d) M)

/-- The reference's result is the specification's array. -/
theorem ref_eq (x0 : (⟨S4096x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal))
    (h0 : Cert.Spec.Fin2 x0) (h1 : Cert.Spec.Fin2 x1) (h2 : Cert.Spec.Fin2 x2) (h3 : Cert.Spec.Fin2 x3) (h4 : Cert.Spec.Fin2 x4) :
    val_main_v23 (F := Ideal) x0 x1 x2 x3 x4 = Cert.Spec.G x0 x1 x2 x3 x4 := by
  funext i
  obtain ⟨r, d, rfl⟩ : ∃ (r : Fin 4096) (d : Fin 1024), i = ix2 r d := ⟨i 0, i 1, eq_ix2 i⟩
  rw [out_at x0 x1 x2 x3 x4 h0 h1 h2 h3 h4 r d, G_ix2]

end Cert.ReferenceIdeal.RefValue

end
-- ==== Proof.PreFacts.lean ====
/-
  Decoding the precondition: "every float input is finite" is printed as |x| < +inf at every entry of every argument,
  and-ed together; at exact arithmetic an entry whose absolute value is below +inf is a real number.
-/
import proofs.«430703_j8426725835102_3_alg».proof.Pre_finite_inputs
import proofs.«430703_j8426725835102_3_alg».proof.Proof.Spec
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx

variable [Cert.Pre_finite_inputs.Facts]

/-- The scalar shape has one index. -/
instance subsingleton_scalar_idx : Subsingleton Cert.Pre_finite_inputs.S_.Idx :=
  ⟨fun a b => funext fun d => d.elim0⟩

/-- The bit pattern 0x7F800000 is +∞. -/
theorem ofBits_inf : Ideal.ofBits .f32 0x7F800000#32 = ⊤ := by simp [Ideal.ofBits, Ideal.ieee]

/-- An extended real whose absolute value max x (−x) is below +∞ is a real number. -/
theorem real_of_abs_lt_top (x : EReal) (h : Ideal.cmp .olt (max x (-x)) ⊤ = 1#1) : x = ((x.toReal : ℝ) : EReal) := by
  induction x using EReal.rec with
  | bot => exact absurd h (by simp [Ideal.cmp])
  | top => exact absurd h (by simp [Ideal.cmp])
  | coe r => exact (congrArg _ (EReal.toReal_coe r)).symm

/-- One argument: if |a| < +∞ holds at every entry (the and-reduction of the comparisons is one), every entry of a is real. -/
theorem fin2_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hpos : 0 < Cert.Pre_finite_inputs.S_.numel)
    (h : Host.reduce IntOp.andi
        (cmpf .olt (Host.absf a) (broadcastInDim S ![] hb (constant Cert.Pre_finite_inputs.S_ .f32 0x7F800000#32)))
        (constantI Cert.Pre_finite_inputs.S_ 1 1#1) hr hpos ix0 = 1#1) :
    Cert.Spec.Fin2 a := by
  intro i
  have e := Host.reduce_andi_all _ _ hr hpos ix0 h i
  have e' : Ideal.cmp .olt (max (a i) (-(a i))) (Ideal.ofBits .f32 0x7F800000#32) = 1#1 := e
  rw [ofBits_inf] at e'
  exact real_of_abs_lt_top (a i) e'

/-- If the printed predicate evaluates to all ones, every entry of every argument is a real number. -/
theorem fin_of_fn (x0 : FVec Ideal Cert.Pre_finite_inputs.S4096x1024 .f32) (x1 : FVec Ideal Cert.Pre_finite_inputs.S1024x1024 .f32)
    (x2 : FVec Ideal Cert.Pre_finite_inputs.S1024 .f32) (x3 : FVec Ideal Cert.Pre_finite_inputs.S1024x1024 .f32)
    (x4 : FVec Ideal Cert.Pre_finite_inputs.S1024 .f32)
    (h : Cert.Pre_finite_inputs.fn (F := Ideal) x0 x1 x2 x3 x4 = fun _ => 1#1) :
    Cert.Spec.Fin2 x0 ∧ Cert.Spec.Fin2 x1 ∧ Cert.Spec.Fin2 x2 ∧ Cert.Spec.Fin2 x3 ∧ Cert.Spec.Fin2 x4 := by
  have h0 := congrFun h ix0
  dsimp only [Cert.Pre_finite_inputs.fn, Cert.Pre_finite_inputs.fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨fin2_of_all x0 _ _ _ h0', fin2_of_all x1 _ _ _ h1, fin2_of_all x2 _ _ _ h2, fin2_of_all x3 _ _ _ h3,
    fin2_of_all x4 _ _ _ h4⟩

end Cert.PreFacts

end
-- ==== Proof.lean ====
/-
  The certificate: a pooled attention layer — q = x Wqᵀ + bq, k = x Wkᵀ + bk, softmax (q kᵀ) x — computed by three
  kernels (two bf16x3 linear projections and a pooling kernel that keeps a running softmax over key tiles) against the
  plain formula.

  FRAMES. The kernel program is sixteen host lines, two projection calls, eight host lines, the pooling call. Each call
  runs its body at every grid point from the pipeline's staging buffers; the pooling body carries three scratch buffers
  from point to point, which the call's invariant holds at named contents. The program terminates, faults nowhere, and
  writes no argument array — at the word level and at exact arithmetic alike (the same text at either instance). The
  reference is host lines only.

  VALUES at exact arithmetic, finite arguments. Rounding to bf16 and back is the identity, so each hi/lo split is
  (the array, 0) and each three-product sum is the plain product: the projection calls make the two linear layers.
  The pooling call's state after key tiles 0 … j of a query tile is (M, Σ exp (s − M), Σ exp (s − M) · x) for some real
  offset M; its output, numerator over denominator, is (Σ exp s · x) / (Σ exp s). The reference's softmax with the row
  maximum as offset is the same quotient: the offset cancels on both sides.
-/
import proofs.«430703_j8426725835102_3_alg».proof.Defs
import proofs.«430703_j8426725835102_3_alg».proof.Proof.Gen.Kernel
import proofs.«430703_j8426725835102_3_alg».proof.Proof.Gen.KernelIdeal
import proofs.«430703_j8426725835102_3_alg».proof.Proof.Gen.ReferenceIdeal
import proofs.«430703_j8426725835102_3_alg».proof.Proof.Gen.Pre_finite_inputs
import proofs.«430703_j8426725835102_3_alg».proof.Proof.Gen.ReferenceIdeal.Run
import proofs.«430703_j8426725835102_3_alg».proof.Proof.Gen.ReferenceIdeal.Read
import proofs.«430703_j8426725835102_3_alg».proof.Proof.KRun
import proofs.«430703_j8426725835102_3_alg».proof.Proof.KIRun
import proofs.«430703_j8426725835102_3_alg».proof.Proof.KIClaims
import proofs.«430703_j8426725835102_3_alg».proof.Proof.RefValue
import proofs.«430703_j8426725835102_3_alg».proof.Proof.PreFacts

noncomputable section

namespace Cert.Proof

open Idealize.ShloMosaic Idealize.SL.Sem

/-- The word-level kernel program runs and leaves its arguments as launched. -/
theorem frame_k : @Cert.frame_Kernel Cert.Kernel.Gen.facts Cert.Pre_finite_inputs.Gen.facts :=
  fun m ρ _ => Cert.Kernel.Frame.frame (F := Bits) m ρ

/-- So does the idealized kernel program. -/
theorem frame_ki : @Cert.frame_KernelIdeal Cert.KernelIdeal.Gen.facts Cert.Pre_finite_inputs.Gen.facts :=
  fun m ρ _ => Cert.KernelIdeal.Frame.frame (F := Ideal) m ρ

/-- The reference is host lines only: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The precondition makes every argument entry a real number, on every core. -/
theorem fin_args (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    Cert.Spec.Fin2 (Cert.KernelIdeal.Frame.aX m c) ∧ Cert.Spec.Fin2 (Cert.KernelIdeal.Frame.aWq m c) ∧ Cert.Spec.Fin2 (Cert.KernelIdeal.Frame.aBq m c)
      ∧ Cert.Spec.Fin2 (Cert.KernelIdeal.Frame.aWk m c) ∧ Cert.Spec.Fin2 (Cert.KernelIdeal.Frame.aBk m c) :=
  @Cert.PreFacts.fin_of_fn Cert.Pre_finite_inputs.Gen.facts _ _ _ _ _ (h c)

/-- Both idealized programs end with the specification's pooled average in their result arrays. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.G (Cert.KernelIdeal.Frame.aX m c) (Cert.KernelIdeal.Frame.aWq m c) (Cert.KernelIdeal.Frame.aBq m c)
      (Cert.KernelIdeal.Frame.aWk m c) (Cert.KernelIdeal.Frame.aBk m c), ?_, ?_⟩
  · refine (θ_run Cert.KernelIdeal.defs _ _).mono (fun _ h c => ⟨(h c).1.trans ?_, (h c).2⟩)
      (Cert.KernelIdeal.Frame.run_result (F := Ideal) m ρ)
    obtain ⟨h0, h1, h2, h3, h4⟩ := fin_args m hpre c
    exact Cert.KernelIdeal.Frame.result_eq m c h0 h1 h2 h3 h4
  · refine (θ_run Cert.ReferenceIdeal.defs _ _).mono (fun _ h c => ⟨(h c).1.trans ?_, (h c).2⟩)
      (Cert.ReferenceIdeal.Value.run (F := Ideal) m' ρ')
    obtain ⟨h0, h1, h2, h3, h4⟩ := fin_args m hpre c
    rw [Cert.ReferenceIdeal.Read.val_main_v23_eq, (hagree c).1, (hagree c).2.1, (hagree c).2.2.1, (hagree c).2.2.2.1, (hagree c).2.2.2.2]
    exact Cert.ReferenceIdeal.RefValue.ref_eq _ _ _ _ _ h0 h1 h2 h3 h4

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
